-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x32 : Shape := ⟨3, ![16, 2048, 32]⟩
abbrev S16x2048x2048 : Shape := ⟨3, ![16, 2048, 2048]⟩
abbrev S96x32 : Shape := ⟨2, ![96, 32]⟩
abbrev S96 : Shape := ⟨1, ![96]⟩
abbrev S_ : Shape := ⟨0, ![]⟩

class Facts : Prop where
  bcast_S_S16x2048x32 : S_.BroadcastsInDim S16x2048x32 (![] : Fin 0 → Fin S16x2048x32.rank)
  reducesTo_S16x2048x32_S_d0_1_2 : S16x2048x32.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S96x32 : S_.BroadcastsInDim S96x32 (![] : Fin 0 → Fin S96x32.rank)
  reducesTo_S96x32_S_d0_1 : S96x32.ReducesTo [0, 1] S_
  bcast_S_S96 : S_.BroadcastsInDim S96 (![] : Fin 0 → Fin S96.rank)
  reducesTo_S96_S_d0 : S96.ReducesTo [0] S_

variable [Facts]

def fn_part3 {F : FTy → Type} [FloatOps F] (main_v48 : IVec S_ 1) (main_v49 : FVec F S96 .f32) (main_v50 : FVec F S96 .f32) : IVec S_ 1 :=
  let main_v51 : IVec S96 1 := cmpf .olt main_v49 main_v50
  let main_c_19 : IVec S_ 1 := constantI S_ 1 1#1
  let main_v52 : IVec S_ 1 := (fun x v => Host.reduce IntOp.andi x v reducesTo_S96_S_d0 h_S_) main_v51 main_c_19
  let main_v53 : IVec S_ 1 := andi main_v48 main_v52
  main_v53

def fn_part2 {F : FTy → Type} [FloatOps F] (main_arg7 : FVec F S96x32 .f32) (main_arg8 : FVec F S96x32 .f32) (main_arg9 : FVec F S96 .f32) (main_arg10 : FVec F S96 .f32) (main_v33 : IVec S_ 1) : IVec S_ 1 :=
  let main_v34 : FVec F S96x32 .f32 := Host.absf main_arg7
  let main_cst_12 : FVec F S_ .f32 := constant S_ .f32 0x7F800000#32
  let main_v35 : FVec F S96x32 .f32 := broadcastInDim S96x32 ![] bcast_S_S96x32 main_cst_12
  let main_v36 : IVec S96x32 1 := cmpf .olt main_v34 main_v35
  let main_c_13 : IVec S_ 1 := constantI S_ 1 1#1
  let main_v37 : IVec S_ 1 := (fun x v => Host.reduce IntOp.andi x v reducesTo_S96x32_S_d0_1 h_S_) main_v36 main_c_13
  let main_v38 : IVec S_ 1 := andi main_v33 main_v37
  let main_v39 : FVec F S96x32 .f32 := Host.absf main_arg8
  let main_cst_14 : FVec F S_ .f32 := constant S_ .f32 0x7F800000#32
  let main_v40 : FVec F S96x32 .f32 := broadcastInDim S96x32 ![] bcast_S_S96x32 main_cst_14
  let main_v41 : IVec S96x32 1 := cmpf .olt main_v39 main_v40
  let main_c_15 : IVec S_ 1 := constantI S_ 1 1#1
  let main_v42 : IVec S_ 1 := (fun x v => Host.reduce IntOp.andi x v reducesTo_S96x32_S_d0_1 h_S_) main_v41 main_c_15
  let main_v43 : IVec S_ 1 := andi main_v38 main_v42
  let main_v44 : FVec F S96 .f32 := Host.absf main_arg9
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_v49 : FVec F S96 .f32 := Host.absf main_arg10
  let main_cst_18 : FVec F S_ .f32 := constant S_ .f32 0x7F800000#32
  let main_v50 : FVec F S96 .f32 := broadcastInDim S96 ![] bcast_S_S96 main_cst_18
  fn_part3 (F := F) main_v48 main_v49 main_v50

def fn_part1 {F : FTy → Type} [FloatOps F] (main_arg4 : FVec F S96x32 .f32) (main_arg5 : FVec F S96 .f32) (main_arg6 : FVec F S96 .f32) (main_arg7 : FVec F S96x32 .f32) (main_arg8 : FVec F S96x32 .f32) (main_arg9 : FVec F S96 .f32) (main_arg10 : FVec F S96 .f32) (main_v13 : IVec S_ 1) (main_v16 : IVec S96x32 1) : IVec S_ 1 :=
  let main_c_5 : IVec S_ 1 := constantI S_ 1 1#1
  let main_v17 : IVec S_ 1 := (fun x v => Host.reduce IntOp.andi x v reducesTo_S96x32_S_d0_1 h_S_) main_v16 main_c_5
  let main_v18 : IVec S_ 1 := andi main_v13 main_v17
  let main_v19 : FVec F S96x32 .f32 := Host.absf main_arg4
  let main_cst_6 : FVec F S_ .f32 := constant S_ .f32 0x7F800000#32
  let main_v20 : FVec F S96x32 .f32 := broadcastInDim S96x32 ![] bcast_S_S96x32 main_cst_6
  let main_v21 : IVec S96x32 1 := cmpf .olt main_v19 main_v20
  let main_c_7 : IVec S_ 1 := constantI S_ 1 1#1
  let main_v22 : IVec S_ 1 := (fun x v => Host.reduce IntOp.andi x v reducesTo_S96x32_S_d0_1 h_S_) main_v21 main_c_7
  let main_v23 : IVec S_ 1 := andi main_v18 main_v22
  let main_v24 : FVec F S96 .f32 := Host.absf main_arg5
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96 .f32 := Host.absf main_arg6
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16x2048x32 .f32) (main_arg1 : FVec F S16x2048x32 .f32) (main_arg2 : FVec F S16x2048x2048 .f32) (main_arg3 : FVec F S96x32 .f32) (main_arg4 : FVec F S96x32 .f32) (main_arg5 : FVec F S96 .f32) (main_arg6 : FVec F S96 .f32) (main_arg7 : FVec F S96x32 .f32) (main_arg8 : FVec F S96x32 .f32) (main_arg9 : FVec F S96 .f32) (main_arg10 : FVec F S96 .f32) : IVec S_ 1 :=
  let main_v0 : FVec F S16x2048x32 .f32 := Host.absf main_arg0
  let main_cst : FVec F S_ .f32 := constant S_ .f32 0x7F800000#32
  let main_v1 : FVec F S16x2048x32 .f32 := broadcastInDim S16x2048x32 ![] bcast_S_S16x2048x32 main_cst
  let main_v2 : IVec S16x2048x32 1 := cmpf .olt main_v0 main_v1
  let main_c : IVec S_ 1 := constantI S_ 1 1#1
  let main_v3 : IVec S_ 1 := (fun x v => Host.reduce IntOp.andi x v reducesTo_S16x2048x32_S_d0_1_2 h_S_) main_v2 main_c
  let main_v4 : FVec F S16x2048x32 .f32 := Host.absf main_arg1
  let main_cst_0 : FVec F S_ .f32 := constant S_ .f32 0x7F800000#32
  let main_v5 : FVec F S16x2048x32 .f32 := broadcastInDim S16x2048x32 ![] bcast_S_S16x2048x32 main_cst_0
  let main_v6 : IVec S16x2048x32 1 := cmpf .olt main_v4 main_v5
  let main_c_1 : IVec S_ 1 := constantI S_ 1 1#1
  let main_v7 : IVec S_ 1 := (fun x v => Host.reduce IntOp.andi x v reducesTo_S16x2048x32_S_d0_1_2 h_S_) main_v6 main_c_1
  let main_v8 : IVec S_ 1 := andi main_v3 main_v7
  let main_v9 : FVec F S16x2048x2048 .f32 := Host.absf main_arg2
  let main_cst_2 : FVec F S_ .f32 := constant S_ .f32 0x7F800000#32
  let main_v10 : FVec F S16x2048x2048 .f32 := broadcastInDim S16x2048x2048 ![] bcast_S_S16x2048x2048 main_cst_2
  let main_v11 : IVec S16x2048x2048 1 := cmpf .olt main_v9 main_v10
  let main_c_3 : IVec S_ 1 := constantI S_ 1 1#1
  let main_v12 : IVec S_ 1 := (fun x v => Host.reduce IntOp.andi x v reducesTo_S16x2048x2048_S_d0_1_2 h_S_) main_v11 main_c_3
  let main_v13 : IVec S_ 1 := andi main_v8 main_v12
  let main_v14 : FVec F S96x32 .f32 := Host.absf main_arg3
  let main_cst_4 : FVec F S_ .f32 := constant S_ .f32 0x7F800000#32
  let main_v15 : FVec F S96x32 .f32 := broadcastInDim S96x32 ![] bcast_S_S96x32 main_cst_4
  let main_v16 : IVec S96x32 1 := cmpf .olt main_v14 main_v15
  fn_part1 (F := F) main_arg4 main_arg5 main_arg6 main_arg7 main_arg8 main_arg9 main_arg10 main_v13 main_v16
-- ==== Kernel.lean ====
abbrev S16x2048x32 : Shape := ⟨3, ![16, 2048, 32]⟩
abbrev S16x2048x2048 : Shape := ⟨3, ![16, 2048, 2048]⟩
abbrev S96x32 : Shape := ⟨2, ![96, 32]⟩
abbrev S96 : Shape := ⟨1, ![96]⟩
abbrev S32x96 : Shape := ⟨2, ![32, 96]⟩
abbrev S1x96 : Shape := ⟨2, ![1, 96]⟩
abbrev S1x512x2048 : Shape := ⟨3, ![1, 512, 2048]⟩
abbrev S1x512x32 : Shape := ⟨3, ![1, 512, 32]⟩
abbrev S1x2048x32 : Shape := ⟨3, ![1, 2048, 32]⟩
abbrev S32x2048 : Shape := ⟨2, ![32, 2048]⟩
abbrev S512x32 : Shape := ⟨2, ![512, 32]⟩
abbrev S32x512 : Shape := ⟨2, ![32, 512]⟩
abbrev S512x2048 : Shape := ⟨2, ![512, 2048]⟩
abbrev S2048x32 : Shape := ⟨2, ![2048, 32]⟩
abbrev S2048x96 : Shape := ⟨2, ![2048, 96]⟩
abbrev S1x2048x512 : Shape := ⟨3, ![1, 2048, 512]⟩
abbrev S2048x512 : Shape := ⟨2, ![2048, 512]⟩

abbrev nBuf : Space → Nat
  | .hbm => 21
  | .vmem => 26
  | .smem => 0
  | _ => 0

abbrev bufTy : (tb : Table) → Fin (tcTables nBuf tb) → BufTy
  | .hbm, ⟨0, _⟩ => ⟨S16x2048x32, .f32⟩
  | .hbm, ⟨1, _⟩ => ⟨S16x2048x32, .f32⟩
  | .hbm, ⟨2, _⟩ => ⟨S16x2048x2048, .f32⟩
  | .hbm, ⟨3, _⟩ => ⟨S96x32, .f32⟩
  | .hbm, ⟨4, _⟩ => ⟨S96x32, .f32⟩
  | .hbm, ⟨5, _⟩ => ⟨S96, .f32⟩
  | .hbm, ⟨6, _⟩ => ⟨S96, .f32⟩
  | .hbm, ⟨7, _⟩ => ⟨S96x32, .f32⟩
  | .hbm, ⟨8, _⟩ => ⟨S96x32, .f32⟩
  | .hbm, ⟨9, _⟩ => ⟨S96, .f32⟩
  | .hbm, ⟨10, _⟩ => ⟨S96, .f32⟩
  | .hbm, ⟨11, _⟩ => ⟨S32x96, .f32⟩
  | .hbm, ⟨12, _⟩ => ⟨S32x96, .f32⟩
  | .hbm, ⟨13, _⟩ => ⟨S1x96, .f32⟩
  | .hbm, ⟨14, _⟩ => ⟨S1x96, .f32⟩
  | .hbm, ⟨15, _⟩ => ⟨S32x96, .f32⟩
  | .hbm, ⟨16, _⟩ => ⟨S32x96, .f32⟩
  | .hbm, ⟨17, _⟩ => ⟨S1x96, .f32⟩
  | .hbm, ⟨18, _⟩ => ⟨S1x96, .f32⟩
  | .hbm, ⟨19, _⟩ => ⟨S16x2048x32, .f32⟩
  | .hbm, ⟨20, _⟩ => ⟨S16x2048x32, .f32⟩
  | .local _ .vmem, ⟨0, _⟩ => ⟨S1x512x2048, .f32⟩
  | .local _ .vmem, ⟨1, _⟩ => ⟨S1x512x2048, .f32⟩
  | .local _ .vmem, ⟨2, _⟩ => ⟨S1x512x32, .f32⟩
  | .local _ .vmem, ⟨3, _⟩ => ⟨S1x512x32, .f32⟩
  | .local _ .vmem, ⟨4, _⟩ => ⟨S1x2048x32, .f32⟩
  | .local _ .vmem, ⟨5, _⟩ => ⟨S1x2048x32, .f32⟩
  | .local _ .vmem, ⟨6, _⟩ => ⟨S32x96, .f32⟩
  | .local _ .vmem, ⟨7, _⟩ => ⟨S32x96, .f32⟩
  | .local _ .vmem, ⟨8, _⟩ => ⟨S1x96, .f32⟩
  | .local _ .vmem, ⟨9, _⟩ => ⟨S1x96, .f32⟩
  | .local _ .vmem, ⟨10, _⟩ => ⟨S1x2048x32, .f32⟩
  | .local _ .vmem, ⟨11, _⟩ => ⟨S1x2048x32, .f32⟩
  | .local _ .vmem, ⟨12, _⟩ => ⟨S32x2048, .f32⟩
  | .local _ .vmem, ⟨13, _⟩ => ⟨S1x2048x512, .f32⟩
  | .local _ .vmem, ⟨14, _⟩ => ⟨S1x2048x512, .f32⟩
  | .local _ .vmem, ⟨15, _⟩ => ⟨S1x512x32, .f32⟩
  | .local _ .vmem, ⟨16, _⟩ => ⟨S1x512x32, .f32⟩
  | .local _ .vmem, ⟨17, _⟩ => ⟨S1x2048x32, .f32⟩
  | .local _ .vmem, ⟨18, _⟩ => ⟨S1x2048x32, .f32⟩
  | .local _ .vmem, ⟨19, _⟩ => ⟨S32x96, .f32⟩
  | .local _ .vmem, ⟨20, _⟩ => ⟨S32x96, .f32⟩
  | .local _ .vmem, ⟨21, _⟩ => ⟨S1x96, .f32⟩
  | .local _ .vmem, ⟨22, _⟩ => ⟨S1x96, .f32⟩
  | .local _ .vmem, ⟨23, _⟩ => ⟨S1x2048x32, .f32⟩
  | .local _ .vmem, ⟨24, _⟩ => ⟨S1x2048x32, .f32⟩
  | .local _ .vmem, ⟨25, _⟩ => ⟨S2048x32, .f32⟩
  | _, _ => ⟨S16x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_10 : BitVec 32 := 0#32
  let v18 : BitVec 1 := Scalar.cmpi .ne v17 c0_i32_10
  v18

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S32x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_10 : BitVec 32 := 0#32
  let v17 : BitVec 1 := Scalar.cmpi .ne v16 c0_i32_10
  v17

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S32x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S32x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x2048x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  transposes_S96x32_S32x96_1_0 : S96x32.Transposes [1, 0] S32x96
  shapeCasts_S96_S1x96 : S96.ShapeCasts S1x96
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  transposes_S512x32_p1_0_S32x512 : S512x32.Transposes [1, 0] S32x512
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  transposes_S32x2048_p1_0_S2048x32 : S32x2048.Transposes [1, 0] S2048x32
  inb_S1x2048x32_S1x2048x32_0_0_0 : ∀ a, (![0, 0, 0] : Fin 3 → Nat) a + S1x2048x32.size a ≤ S1x2048x32.size a
  h_S1x2048x32 : 0 < S1x2048x32.numel
  shapeCasts_S1x2048x32_S2048x32 : S1x2048x32.ShapeCasts S2048x32
  inb_S32x96_S32x96_0_0 : ∀ a, (![0, 0] : Fin 2 → Nat) a + S32x96.size a ≤ S32x96.size a
  h_S32x96 : 0 < S32x96.numel
  shapeCasts_S32x96_S32x96 : S32x96.ShapeCasts S32x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2048x96 : S1x96.Broadcasts S2048x96
  slices_S2048x96_o0_0_S2048x32 : S2048x96.Slices ![0, 0] S2048x32
  slices_S2048x96_o0_32_S2048x32 : S2048x96.Slices ![0, 32] S2048x32
  slices_S2048x96_o0_64_S2048x32 : S2048x96.Slices ![0, 64] S2048x32
  shapeCasts_S2048x32_S1x2048x32 : S2048x32.ShapeCasts S1x2048x32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  dot_S32x512_S512x2048_S32x2048_1_0_0_1_n_n_wf : DotDims.WF S32x512 S512x2048 S32x2048 [1] [0] [0] [1] [] []
  dot_S2048x32_S32x96_S2048x96_1_0_0_1_n_n_wf : DotDims.WF S2048x32 S32x96 S2048x96 [1] [0] [0] [1] [] []
  dot_S2048x512_S512x32_S2048x32_1_0_0_1_n_n_wf : DotDims.WF S2048x512 S512x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x2048x2048.size a
  hwx0_0 : ∀ i : grid0.Coords, EltTy.bits .f32 = 32 ∨ (Rect.block (s := S16x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x32.size a ≤ S16x2048x32.size a
  hwx0_1 : ∀ i : grid0.Coords, EltTy.bits .f32 = 32 ∨ (Rect.block (s := S16x2048x32) S1x512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x32.size a ≤ S16x2048x32.size a
  hwx0_2 : ∀ i : grid0.Coords, EltTy.bits .f32 = 32 ∨ (Rect.block (s := S16x2048x32) S1x2048x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x96.size a ≤ S32x96.size a
  hwx0_3 : ∀ i : grid0.Coords, EltTy.bits .f32 = 32 ∨ (Rect.block (s := S32x96) S32x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x96.size a ≤ S32x96.size a
  hwx0_4 : ∀ i : grid0.Coords, EltTy.bits .f32 = 32 ∨ (Rect.block (s := S32x96) S32x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x96.size a ≤ S1x96.size a
  hwx0_6 : ∀ i : grid0.Coords, EltTy.bits .f32 = 32 ∨ (Rect.block (s := S1x96) S1x96.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x32.size a ≤ S16x2048x32.size a
  hwx0_7 : ∀ i : grid0.Coords, EltTy.bits .f32 = 32 ∨ (Rect.block (s := S16x2048x32) S1x2048x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x512.size a ≤ S16x2048x2048.size a
  hwx1_0 : ∀ i : grid1.Coords, EltTy.bits .f32 = 32 ∨ (Rect.block (s := S16x2048x2048) S1x2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x32.size a ≤ S16x2048x32.size a
  hwx1_1 : ∀ i : grid1.Coords, EltTy.bits .f32 = 32 ∨ (Rect.block (s := S16x2048x32) S1x512x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x32.size a ≤ S16x2048x32.size a
  hwx1_2 : ∀ i : grid1.Coords, EltTy.bits .f32 = 32 ∨ (Rect.block (s := S16x2048x32) S1x2048x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x96.size a ≤ S32x96.size a
  hwx1_3 : ∀ i : grid1.Coords, EltTy.bits .f32 = 32 ∨ (Rect.block (s := S32x96) S32x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x96.size a ≤ S32x96.size a
  hwx1_4 : ∀ i : grid1.Coords, EltTy.bits .f32 = 32 ∨ (Rect.block (s := S32x96) S32x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x96.size a ≤ S1x96.size a
  hwx1_5 : ∀ i : grid1.Coords, EltTy.bits .f32 = 32 ∨ (Rect.block (s := S1x96) S1x96.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x96.size a ≤ S1x96.size a
  hwx1_6 : ∀ i : grid1.Coords, EltTy.bits .f32 = 32 ∨ (Rect.block (s := S1x96) S1x96.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x2048x32.size a ≤ S16x2048x32.size a
  hwx1_7 : ∀ i : grid1.Coords, EltTy.bits .f32 = 32 ∨ (Rect.block (s := S16x2048x32) S1x2048x32.size (cc1_transform_7 i) (hinb1_7 i)).WholeWords (EltTy.packing .f32)

variable [Facts₀]

def dot_S32x512_S512x2048_S32x2048_1_0_0_1_n_n : DotDims S32x512 S512x2048 S32x2048 where
  lhsContracting := [1]
  rhsContracting := [0]
  lhsNonContracting := [0]
  rhsNonContracting := [1]
  lhsBatch := []
  rhsBatch := []
  wf := dot_S32x512_S512x2048_S32x2048_1_0_0_1_n_n_wf
def dot_S2048x32_S32x96_S2048x96_1_0_0_1_n_n : DotDims S2048x32 S32x96 S2048x96 where
  lhsContracting := [1]
  rhsContracting := [0]
  lhsNonContracting := [0]
  rhsNonContracting := [1]
  lhsBatch := []
  rhsBatch := []
  wf := dot_S2048x32_S32x96_S2048x96_1_0_0_1_n_n_wf
def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf

abbrev win0_0 : Pipeline.Window sig grid0 :=
  Pipeline.Window.ofSpec (Memref.whole main_arg2) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x2048x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_arg2) S1x2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x512x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1x2048x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S32x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S32x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x96.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1x2048x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S16x2048x32 : Shape := ⟨3, ![16, 2048, 32]⟩
abbrev S16x2048x2048 : Shape := ⟨3, ![16, 2048, 2048]⟩
abbrev S96x32 : Shape := ⟨2, ![96, 32]⟩
abbrev S96 : Shape := ⟨1, ![96]⟩
abbrev S32768x32 : Shape := ⟨2, ![32768, 32]⟩
abbrev S32x96 : Shape := ⟨2, ![32, 96]⟩
abbrev S32768x96 : Shape := ⟨2, ![32768, 96]⟩
abbrev S1x96 : Shape := ⟨2, ![1, 96]⟩
abbrev S_ : Shape := ⟨0, ![]⟩

abbrev nBuf : Space → Nat
  | .hbm => 105
  | .vmem => 0
  | .smem => 0
  | _ => 0

abbrev bufTy : (tb : Table) → Fin (tcTables nBuf tb) → BufTy
  | .hbm, ⟨0, _⟩ => ⟨S16x2048x32, .f32⟩
  | .hbm, ⟨1, _⟩ => ⟨S16x2048x32, .f32⟩
  | .hbm, ⟨2, _⟩ => ⟨S16x2048x2048, .f32⟩
  | .hbm, ⟨3, _⟩ => ⟨S96x32, .f32⟩
  | .hbm, ⟨4, _⟩ => ⟨S96x32, .f32⟩
  | .hbm, ⟨5, _⟩ => ⟨S96, .f32⟩
  | .hbm, ⟨6, _⟩ => ⟨S96, .f32⟩
  | .hbm, ⟨7, _⟩ => ⟨S96x32, .f32⟩
  | .hbm, ⟨8, _⟩ => ⟨S96x32, .f32⟩
  | .hbm, ⟨9, _⟩ => ⟨S96, .f32⟩
  | .hbm, ⟨10, _⟩ => ⟨S96, .f32⟩
  | .hbm, ⟨11, _⟩ => ⟨S16x2048x32, .f32⟩
  | .hbm, ⟨12, _⟩ => ⟨S32768x32, .f32⟩
  | .hbm, ⟨13, _⟩ => ⟨S32768x32, .f32⟩
  | .hbm, ⟨14, _⟩ => ⟨S32x96, .f32⟩
  | .hbm, ⟨15, _⟩ => ⟨S32768x96, .f32⟩
  | .hbm, ⟨16, _⟩ => ⟨S1x96, .f32⟩
  | .hbm, ⟨17, _⟩ => ⟨S32768x96, .f32⟩
  | .hbm, ⟨18, _⟩ => ⟨S32768x96, .f32⟩
  | .hbm, ⟨19, _⟩ => ⟨S32x96, .f32⟩
  | .hbm, ⟨20, _⟩ => ⟨S32768x96, .f32⟩
  | .hbm, ⟨21, _⟩ => ⟨S1x96, .f32⟩
  | .hbm, ⟨22, _⟩ => ⟨S32768x96, .f32⟩
  | .hbm, ⟨23, _⟩ => ⟨S32768x96, .f32⟩
  | .hbm, ⟨24, _⟩ => ⟨S32768x32, .f32⟩
  | .hbm, ⟨25, _⟩ => ⟨S32768x32, .f32⟩
  | .hbm, ⟨26, _⟩ => ⟨S32768x32, .f32⟩
  | .hbm, ⟨27, _⟩ => ⟨S32768x32, .f32⟩
  | .hbm, ⟨28, _⟩ => ⟨S32768x32, .f32⟩
  | .hbm, ⟨29, _⟩ => ⟨S32768x32, .f32⟩
  | .hbm, ⟨30, _⟩ => ⟨S32768x32, .f32⟩
  | .hbm, ⟨31, _⟩ => ⟨S32768x32, .f32⟩
  | .hbm, ⟨32, _⟩ => ⟨S32768x32, .f32⟩
  | .hbm, ⟨33, _⟩ => ⟨S_, .f32⟩
  | .hbm, ⟨34, _⟩ => ⟨S32768x32, .f32⟩
  | .hbm, ⟨35, _⟩ => ⟨S32768x32, .f32⟩
  | .hbm, ⟨36, _⟩ => ⟨S_, .f32⟩
  | .hbm, ⟨37, _⟩ => ⟨S32768x32, .f32⟩
  | .hbm, ⟨38, _⟩ => ⟨S32768x32, .f32⟩
  | .hbm, ⟨39, _⟩ => ⟨S32768x32, .f32⟩
  | .hbm, ⟨40, _⟩ => ⟨S32768x32, .f32⟩
  | .hbm, ⟨41, _⟩ => ⟨S32768x32, .f32⟩
  | .hbm, ⟨42, _⟩ => ⟨S_, .f32⟩
  | .hbm, ⟨43, _⟩ => ⟨S32768x32, .f32⟩
  | .hbm, ⟨44, _⟩ => ⟨S32768x32, .f32⟩
  | .hbm, ⟨45, _⟩ => ⟨S_, .f32⟩
  | .hbm, ⟨46, _⟩ => ⟨S32768x32, .f32⟩
  | .hbm, ⟨47, _⟩ => ⟨S32768x32, .f32⟩
  | .hbm, ⟨48, _⟩ => ⟨S32768x32, .f32⟩
  | .hbm, ⟨49, _⟩ => ⟨S32768x32, .f32⟩
  | .hbm, ⟨50, _⟩ => ⟨S32768x32, .f32⟩
  | .hbm, ⟨51, _⟩ => ⟨S_, .f32⟩
  | .hbm, ⟨52, _⟩ => ⟨S32768x32, .f32⟩
  | .hbm, ⟨53, _⟩ => ⟨S32768x32, .f32⟩
  | .hbm, ⟨54, _⟩ => ⟨S32768x32, .f32⟩
  | .hbm, ⟨55, _⟩ => ⟨S32768x32, .f32⟩
  | .hbm, ⟨56, _⟩ => ⟨S32768x32, .f32⟩
  | .hbm, ⟨57, _⟩ => ⟨S16x2048x32, .f32⟩
  | .hbm, ⟨58, _⟩ => ⟨S16x2048x32, .f32⟩
  | .hbm, ⟨59, _⟩ => ⟨S32768x32, .f32⟩
  | .hbm, ⟨60, _⟩ => ⟨S32768x32, .f32⟩
  | .hbm, ⟨61, _⟩ => ⟨S32x96, .f32⟩
  | .hbm, ⟨62, _⟩ => ⟨S32768x96, .f32⟩
  | .hbm, ⟨63, _⟩ => ⟨S1x96, .f32⟩
  | .hbm, ⟨64, _⟩ => ⟨S32768x96, .f32⟩
  | .hbm, ⟨65, _⟩ => ⟨S32768x96, .f32⟩
  | .hbm, ⟨66, _⟩ => ⟨S32x96, .f32⟩
  | .hbm, ⟨67, _⟩ => ⟨S32768x96, .f32⟩
  | .hbm, ⟨68, _⟩ => ⟨S1x96, .f32⟩
  | .hbm, ⟨69, _⟩ => ⟨S32768x96, .f32⟩
  | .hbm, ⟨70, _⟩ => ⟨S32768x96, .f32⟩
  | .hbm, ⟨71, _⟩ => ⟨S32768x32, .f32⟩
  | .hbm, ⟨72, _⟩ => ⟨S32768x32, .f32⟩
  | .hbm, ⟨73, _⟩ => ⟨S32768x32, .f32⟩
  | .hbm, ⟨74, _⟩ => ⟨S32768x32, .f32⟩
  | .hbm, ⟨75, _⟩ => ⟨S32768x32, .f32⟩
  | .hbm, ⟨76, _⟩ => ⟨S32768x32, .f32⟩
  | .hbm, ⟨77, _⟩ => ⟨S32768x32, .f32⟩
  | .hbm, ⟨78, _⟩ => ⟨S32768x32, .f32⟩
  | .hbm, ⟨79, _⟩ => ⟨S32768x32, .f32⟩
  | .hbm, ⟨80, _⟩ => ⟨S_, .f32⟩
  | .hbm, ⟨81, _⟩ => ⟨S32768x32, .f32⟩
  | .hbm, ⟨82, _⟩ => ⟨S32768x32, .f32⟩
  | .hbm, ⟨83, _⟩ => ⟨S_, .f32⟩
  | .hbm, ⟨84, _⟩ => ⟨S32768x32, .f32⟩
  | .hbm, ⟨85, _⟩ => ⟨S32768x32, .f32⟩
  | .hbm, ⟨86, _⟩ => ⟨S32768x32, .f32⟩
  | .hbm, ⟨87, _⟩ => ⟨S32768x32, .f32⟩
  | .hbm, ⟨88, _⟩ => ⟨S32768x32, .f32⟩
  | .hbm, ⟨89, _⟩ => ⟨S_, .f32⟩
  | .hbm, ⟨90, _⟩ => ⟨S32768x32, .f32⟩
  | .hbm, ⟨91, _⟩ => ⟨S32768x32, .f32⟩
  | .hbm, ⟨92, _⟩ => ⟨S_, .f32⟩
  | .hbm, ⟨93, _⟩ => ⟨S32768x32, .f32⟩
  | .hbm, ⟨94, _⟩ => ⟨S32768x32, .f32⟩
  | .hbm, ⟨95, _⟩ => ⟨S32768x32, .f32⟩
  | .hbm, ⟨96, _⟩ => ⟨S32768x32, .f32⟩
  | .hbm, ⟨97, _⟩ => ⟨S32768x32, .f32⟩
  | .hbm, ⟨98, _⟩ => ⟨S_, .f32⟩
  | .hbm, ⟨99, _⟩ => ⟨S32768x32, .f32⟩
  | .hbm, ⟨100, _⟩ => ⟨S32768x32, .f32⟩
  | .hbm, ⟨101, _⟩ => ⟨S32768x32, .f32⟩
  | .hbm, ⟨102, _⟩ => ⟨S32768x32, .f32⟩
  | .hbm, ⟨103, _⟩ => ⟨S32768x32, .f32⟩
  | .hbm, ⟨104, _⟩ => ⟨S16x2048x32, .f32⟩
  | _, _ => ⟨S16x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_4 : Ref sig .tc := ⟨.hbm, 80, rfl⟩
abbrev main_v64 : Ref sig .tc := ⟨.hbm, 81, rfl⟩
abbrev main_v65 : Ref sig .tc := ⟨.hbm, 82, rfl⟩
abbrev main_cst_5 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_6 : Ref sig .tc := ⟨.hbm, 89, rfl⟩
abbrev main_v71 : Ref sig .tc := ⟨.hbm, 90, rfl⟩
abbrev main_v72 : Ref sig .tc := ⟨.hbm, 91, rfl⟩
abbrev main_cst_7 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_8 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩

abbrev nD : Nat := 1
abbrev τ : Topo := Topo.v7x

variable {F : FTy → Type} [FloatOps F]

class Facts₀ : Prop where
  shapeCasts_S16x2048x32_S32768x32 : S16x2048x32.ShapeCasts S32768x32
  transposes_S96x32_S32x96_1_0 : S96x32.Transposes [1, 0] S32x96
  bcast_S96_S1x96_1 : S96.BroadcastsInDim S1x96 (![1] : Fin 1 → Fin S1x96.rank)
  bcast_S1x96_S32768x96_0_1 : S1x96.BroadcastsInDim S32768x96 (![0, 1] : Fin 2 → Fin S32768x96.rank)
  slices_S32768x96_S32768x32_0_0 : S32768x96.Slices ![0, 0] S32768x32
  slices_S32768x96_S32768x32_0_32 : S32768x96.Slices ![0, 32] S32768x32
  slices_S32768x96_S32768x32_0_64 : S32768x96.Slices ![0, 64] S32768x32
  bcast_S_S32768x32 : S_.BroadcastsInDim S32768x32 (![] : Fin 0 → Fin S32768x32.rank)
  shapeCasts_S32768x32_S16x2048x32 : S32768x32.ShapeCasts S16x2048x32
  dot_S16x2048x2048_S16x2048x32_S16x2048x32_1_1_2_2_0_0_wf : DotDims.WF S16x2048x2048 S16x2048x32 S16x2048x32 [1] [1] [2] [2] [0] [0]
  dot_S32768x32_S32x96_S32768x96_1_0_0_1_n_n_wf : DotDims.WF S32768x32 S32x96 S32768x96 [1] [0] [0] [1] [] []
  dot_S16x2048x2048_S16x2048x32_S16x2048x32_2_1_1_2_0_0_wf : DotDims.WF S16x2048x2048 S16x2048x32 S16x2048x32 [2] [1] [1] [2] [0] [0]

variable [Facts₀]

def dot_S16x2048x2048_S16x2048x32_S16x2048x32_1_1_2_2_0_0 : DotDims S16x2048x2048 S16x2048x32 S16x2048x32 where
  lhsContracting := [1]
  rhsContracting := [1]
  lhsNonContracting := [2]
  rhsNonContracting := [2]
  lhsBatch := [0]
  rhsBatch := [0]
  wf := dot_S16x2048x2048_S16x2048x32_S16x2048x32_1_1_2_2_0_0_wf
def dot_S32768x32_S32x96_S32768x96_1_0_0_1_n_n : DotDims S32768x32 S32x96 S32768x96 where
  lhsContracting := [1]
  rhsContracting := [0]
  lhsNonContracting := [0]
  rhsNonContracting := [1]
  lhsBatch := []
  rhsBatch := []
  wf := dot_S32768x32_S32x96_S32768x96_1_0_0_1_n_n_wf
def dot_S16x2048x2048_S16x2048x32_S16x2048x32_2_1_1_2_0_0 : DotDims S16x2048x2048 S16x2048x32 S16x2048x32 where
  lhsContracting := [2]
  rhsContracting := [1]
  lhsNonContracting := [1]
  rhsNonContracting := [2]
  lhsBatch := [0]
  rhsBatch := [0]
  wf := dot_S16x2048x2048_S16x2048x32_S16x2048x32_2_1_1_2_0_0_wf

class Facts : Prop extends Facts₀ where

variable [Facts]
-- ==== Proof.KB.ChanBase.lean ====
/-
  The channel-update region (the first kernel launch): what its three control cases are stated over.

  The grid is 16 batches by 4 row tiles of the adjacency matrix, 64 points in row-major order, so the tile
  index of point t is t mod 4. The body zeroes its accumulator at tile 0, adds the tile's partial product at
  every tile, and at tile 3 turns the accumulated message into the new channel state. The output window is
  idle (neither stored nor written back) at tiles 0, 1, 2. Everything here is stated at a parameter V, the
  contents of the unscoped buffers when the region is entered.
-/
import proofs.«138023_j44126493999752_1_alg».proof.Proof.Gen.Kernel.Launch
import proofs.«138023_j44126493999752_1_alg».proof.Proof.Gen.Kernel.Skeleton
import proofs.«138023_j44126493999752_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Chan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it
    there or kept it from an earlier point (the block index has then not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, decided over the grid -/

/-- The accumulator is reset: the tile index is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The gated update is computed and stored: the tile index is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Off the last tile the output window is idle and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At the last tile it is live. -/
theorem liveAt0_7 : ∀ t : Fin cfg0.N, cond0_1 (grid0.coords t) → cfg0.idle 7 (grid0.coords t) = false := by decide +kernel

/-! ## The staging memrefs at a point, and the accumulator -/

abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x96 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x96 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x96 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x96 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x32 .f32 := win0_7.stage (cfg0.slots t 7)
abbrev hs0_7 (t : Fin cfg0.N) : (ms0_7 t).IsWhole := hstage0_7 ((cfg0.slots t 7).cast nbuf0_7)
/-- The accumulator: a whole scoped buffer of the kernel's own. -/
abbrev scM0 : Memref sig .tc .vmem S32x2048 .f32 := Memref.whole cc0_scratch0
abbrev VS0 : View sig .tc .vmem S32x2048 .f32 := scM0.view
/-- One staging buffer of the output window, through which its contents are stated. -/
abbrev VO0 : View sig .tc .vmem S1x2048x32 .f32 := (Memref.whole cc0_stg7_0 : Memref sig .tc .vmem S1x2048x32 .f32).view

end Cert.Kernel.Chan

end
-- ==== Proof.KB.ChanRunA.lean ====
/-
  The channel-update body at the first row tile of a batch (tile index 0): the accumulator is zeroed, then the
  tile's partial product is added to it; the output window is left untouched. What the stores leave in the
  accumulator is found by running the body.
-/
import proofs.«138023_j44126493999752_1_alg».proof.Proof.KB.ChanBase

set_option maxRecDepth 16384

noncomputable section

namespace Cert.Kernel.Chan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x512x2048 .f32) (harg2 : arg2.IsWhole) (arg3 : Memref sig .tc .vmem S1x512x32 .f32) (harg3 : arg3.IsWhole) (arg4 : Memref sig .tc .vmem S1x2048x32 .f32) (harg4 : arg4.IsWhole) (arg5 : Memref sig .tc .vmem S32x96 .f32) (harg5 : arg5.IsWhole) (arg6 : Memref sig .tc .vmem S32x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x2048x32 .f32) (harg9 : arg9.IsWhole) (arg10 : Memref sig .tc .vmem S32x2048 .f32) (harg10 : arg10.IsWhole) (hc0 : cond0_0 i) (hc1 : ¬cond0_1 i)
    (x0 : Vec F S1x512x2048 .f32) (x1 : Vec F S1x512x32 .f32) (x2 : Vec F S1x2048x32 .f32) (x3 : Vec F S32x96 .f32) (x4 : Vec F S32x96 .f32) (x5 : Vec F S1x96 .f32) (x6 : Vec F S1x96 .f32) :
    Σ' (LO : List (View.Piece (Elt F) S1x2048x32 .f32)), { LS : List (View.Piece (Elt F) S32x2048 .f32) //
      ∀ (xi : Vec F S1x2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ (∃ f, arg10.view.loc (c : Thread nD τ) ↦[arg10.view.set]{fullShare} arg10.view.writes (Elt F) f LS)) -∗ K ⟨⟩))
          ⊢ wp frame (wpE (defs₀ (F := F)) Variants.none c none) E (cc0_channel_kernel i arg2 harg2 arg3 harg3 arg4 harg4 arg5 harg5 arg6 harg6 arg7 harg7 arg8 harg8 arg9 harg9 arg10 harg10) K } := by
  refine ⟨[], ?_, fun xi E K => ?run⟩
  case run =>
    simp only [cc0_channel_kernel_eq_skeleton]; unfold cc0_channel_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.Kernel.Chan

end
-- ==== Proof.KB.ChanRunB.lean ====
/-
  The channel-update body at a middle row tile (tile index 1 or 2): the tile's partial product is added to
  the accumulator the tile before left; the output window is left untouched.
-/
import proofs.«138023_j44126493999752_1_alg».proof.Proof.KB.ChanRunA

set_option maxRecDepth 16384

noncomputable section

namespace Cert.Kernel.Chan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x512x2048 .f32) (harg2 : arg2.IsWhole) (arg3 : Memref sig .tc .vmem S1x512x32 .f32) (harg3 : arg3.IsWhole) (arg4 : Memref sig .tc .vmem S1x2048x32 .f32) (harg4 : arg4.IsWhole) (arg5 : Memref sig .tc .vmem S32x96 .f32) (harg5 : arg5.IsWhole) (arg6 : Memref sig .tc .vmem S32x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x2048x32 .f32) (harg9 : arg9.IsWhole) (arg10 : Memref sig .tc .vmem S32x2048 .f32) (harg10 : arg10.IsWhole) (hc0 : ¬cond0_0 i) (hc1 : ¬cond0_1 i)
    (x0 : Vec F S1x512x2048 .f32) (x1 : Vec F S1x512x32 .f32) (x2 : Vec F S1x2048x32 .f32) (x3 : Vec F S32x96 .f32) (x4 : Vec F S32x96 .f32) (x5 : Vec F S1x96 .f32) (x6 : Vec F S1x96 .f32) (xs : Vec F S32x2048 .f32) :
    Σ' (LO : List (View.Piece (Elt F) S1x2048x32 .f32)), { LS : List (View.Piece (Elt F) S32x2048 .f32) //
      ∀ (xi : Vec F S1x2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ (∃ f, arg10.view.loc (c : Thread nD τ) ↦[arg10.view.set]{fullShare} arg10.view.writes (Elt F) f LS)) -∗ K ⟨⟩))
          ⊢ wp frame (wpE (defs₀ (F := F)) Variants.none c none) E (cc0_channel_kernel i arg2 harg2 arg3 harg3 arg4 harg4 arg5 harg5 arg6 harg6 arg7 harg7 arg8 harg8 arg9 harg9 arg10 harg10) K } := by
  refine ⟨[], ?_, fun xi E K => ?run⟩
  case run =>
    simp only [cc0_channel_kernel_eq_skeleton]; unfold cc0_channel_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.Kernel.Chan

end
-- ==== Proof.KB.ChanRunC.lean ====
/-
  The channel-update body at the last row tile of a batch (tile index 3): the tile's partial product is added
  to the accumulator, and the gated update of the channel states by the accumulated message is stored into the
  output window.
-/
import proofs.«138023_j44126493999752_1_alg».proof.Proof.KB.ChanRunB

set_option maxRecDepth 16384

noncomputable section

namespace Cert.Kernel.Chan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1x512x2048 .f32) (harg2 : arg2.IsWhole) (arg3 : Memref sig .tc .vmem S1x512x32 .f32) (harg3 : arg3.IsWhole) (arg4 : Memref sig .tc .vmem S1x2048x32 .f32) (harg4 : arg4.IsWhole) (arg5 : Memref sig .tc .vmem S32x96 .f32) (harg5 : arg5.IsWhole) (arg6 : Memref sig .tc .vmem S32x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x2048x32 .f32) (harg9 : arg9.IsWhole) (arg10 : Memref sig .tc .vmem S32x2048 .f32) (harg10 : arg10.IsWhole) (hc0 : ¬cond0_0 i) (hc1 : cond0_1 i)
    (x0 : Vec F S1x512x2048 .f32) (x1 : Vec F S1x512x32 .f32) (x2 : Vec F S1x2048x32 .f32) (x3 : Vec F S32x96 .f32) (x4 : Vec F S32x96 .f32) (x5 : Vec F S1x96 .f32) (x6 : Vec F S1x96 .f32) (xs : Vec F S32x2048 .f32) :
    Σ' (LO : List (View.Piece (Elt F) S1x2048x32 .f32)), { LS : List (View.Piece (Elt F) S32x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LS)) -∗ K ⟨⟩))
          ⊢ wp frame (wpE (defs₀ (F := F)) Variants.none c none) E (cc0_channel_kernel i arg2 harg2 arg3 harg3 arg4 harg4 arg5 harg5 arg6 harg6 arg7 harg7 arg8 harg8 arg9 harg9 arg10 harg10) K } := by
  refine ⟨?_, ?_, fun E K => ?run⟩
  case run =>
    simp only [cc0_channel_kernel_eq_skeleton]; unfold cc0_channel_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.Kernel.Chan

end
-- ==== Proof.KB.ChanInv.lean ====
/-
  The channel-update region: the class invariant spelled out. A core's scoped buffers that are no staging buffer of
  this launch are its accumulator and the other launch's staging buffers and accumulator; the class invariant holds
  each whole at some contents, beside the generator register at some state.
-/
import proofs.«138023_j44126493999752_1_alg».proof.Proof.KB.ChanBase

set_option maxRecDepth 16384

noncomputable section

namespace Cert.Kernel.Chan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The other launch's staging buffers and accumulator, each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f))

/-- The accumulator at some contents, the other scoped buffers, the generator register at some state. -/
abbrev PhiOpen0 (c : Dev nD) : sProp 𝕄 :=
  iprop(iprop((∃ d, owns (c : Thread nD τ) scM0 fullShare d) ∗ others0 (F := F) c) ∗ (∃ r, prngReg c r))

theorem PhiA0_eq (c : Dev nD) : (Pipeline.ΦA spec0 c : sProp 𝕄) = PhiOpen0 (F := F) c := by
  unfold Pipeline.ΦA PhiOpen0 others0; rw [scopedRest0_eq]; simp only [scM0, owns_whole]; try rfl

theorem PhiA0_open (c : Dev nD) : (Pipeline.ΦA spec0 c : sProp 𝕄) ⊢ PhiOpen0 (F := F) c := Entails.of_eq (PhiA0_eq c)
theorem PhiA0_close (c : Dev nD) : PhiOpen0 (F := F) c ⊢ (Pipeline.ΦA spec0 c : sProp 𝕄) := Entails.of_eq (PhiA0_eq c).symm

end Cert.Kernel.Chan

end
-- ==== Proof.KB.ChanData.lean ====
/-
  The channel-update region: its proof data and body obligation.

  After point n the accumulator holds what the case of n leaves in it: at tile 0 the tile's partial product over
  zero, at the other tiles the partial product over what the point before left. The region invariant carries the
  accumulator at these contents from one point to the next (before the first point, and when the region is left,
  at anything). The output window's staging buffer holds the gated update after a point of tile 3, and is idle at
  the other points.
-/
import proofs.«138023_j44126493999752_1_alg».proof.Proof.KB.ChanRunC
import proofs.«138023_j44126493999752_1_alg».proof.Proof.KB.ChanInv

set_option maxRecDepth 16384

noncomputable section

namespace Cert.Kernel.Chan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases' runs at a point -/

abbrev runA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _)
    ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)
abbrev runB (c : Dev nD) (t : Fin cfg0.N) (h0 : ¬t.val % 4 = 0) (h1 : ¬t.val % 4 = 3) (xs : Vec F S32x2048 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _)
    (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) xs
abbrev runC (c : Dev nD) (t : Fin cfg0.N) (h0 : ¬t.val % 4 = 0) (h1 : t.val % 4 = 3) (xs : Vec F S32x2048 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _)
    (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) xs

/-! ## The stores of each case cover the buffer they go to -/

theorem scoverA (c : Dev nD) (t : Fin cfg0.N) (h0 : t.val % 4 = 0) (h1 : ¬t.val % 4 = 3) (y : S32x2048.Idx) :
    ∃ pc ∈ (runA V c t h0 h1).2.1, y ∈ pc.1.set :=
  View.cover_of_tiledL (runA V c t h0 h1).2.1 S32x2048.size (by sl_kernel_rfl) y
theorem scoverB (c : Dev nD) (t : Fin cfg0.N) (h0 : ¬t.val % 4 = 0) (h1 : ¬t.val % 4 = 3) (xs : Vec F S32x2048 .f32) (y : S32x2048.Idx) :
    ∃ pc ∈ (runB V c t h0 h1 xs).2.1, y ∈ pc.1.set :=
  View.cover_of_tiledL (runB V c t h0 h1 xs).2.1 S32x2048.size (by sl_kernel_rfl) y
theorem scoverC (c : Dev nD) (t : Fin cfg0.N) (h0 : ¬t.val % 4 = 0) (h1 : t.val % 4 = 3) (xs : Vec F S32x2048 .f32) (y : S32x2048.Idx) :
    ∃ pc ∈ (runC V c t h0 h1 xs).2.1, y ∈ pc.1.set :=
  View.cover_of_tiledL (runC V c t h0 h1 xs).2.1 S32x2048.size (by sl_kernel_rfl) y
theorem ocoverC (c : Dev nD) (t : Fin cfg0.N) (h0 : ¬t.val % 4 = 0) (h1 : t.val % 4 = 3) (xs : Vec F S32x2048 .f32) (y : S1x2048x32.Idx) :
    ∃ pc ∈ (runC V c t h0 h1 xs).1, y ∈ pc.1.set :=
  View.cover_of_tiledL (runC V c t h0 h1 xs).1 S1x2048x32.size (by sl_kernel_rfl) y

/-! ## What each case leaves -/

/-- The accumulator after a point of tile 0. -/
def accA (c : Dev nD) (t : Fin cfg0.N) (h0 : t.val % 4 = 0) (h1 : ¬t.val % 4 = 3) : Vec F S32x2048 .f32 :=
  VS0.read (Elt F) (VS0.writes (Elt F) VS0.junk (runA V c t h0 h1).2.1)
/-- The accumulator after a point of tile 1 or 2, over what the point before left. -/
def accB (c : Dev nD) (t : Fin cfg0.N) (h0 : ¬t.val % 4 = 0) (h1 : ¬t.val % 4 = 3) (xs : Vec F S32x2048 .f32) : Vec F S32x2048 .f32 :=
  VS0.read (Elt F) (VS0.writes (Elt F) VS0.junk (runB V c t h0 h1 xs).2.1)
/-- The accumulator after a point of tile 3, over what the point before left. -/
def accC (c : Dev nD) (t : Fin cfg0.N) (h0 : ¬t.val % 4 = 0) (h1 : t.val % 4 = 3) (xs : Vec F S32x2048 .f32) : Vec F S32x2048 .f32 :=
  VS0.read (Elt F) (VS0.writes (Elt F) VS0.junk (runC V c t h0 h1 xs).2.1)
/-- The output window's staging buffer after a point of tile 3. -/
def outC (c : Dev nD) (t : Fin cfg0.N) (h0 : ¬t.val % 4 = 0) (h1 : t.val % 4 = 3) (xs : Vec F S32x2048 .f32) : Vec F S1x2048x32 .f32 :=
  VO0.read (Elt F) (VO0.writes (Elt F) VO0.junk (runC V c t h0 h1 xs).1)

/-! ## The accumulator point by point -/

/-- What the accumulator holds after the body at position n. -/
def accAt0 (c : Dev nD) : (n : ℕ) → n < cfg0.N → Vec F S32x2048 .f32
  | 0, hn => accA V c ⟨0, hn⟩ (Nat.zero_mod _) (show ¬(0 : ℕ) % 4 = 3 by decide)
  | n + 1, hn =>
    if h0 : (n + 1) % 4 = 0 then
      if h1 : (n + 1) % 4 = 3 then False.elim (by omega)
      else accA V c ⟨n + 1, hn⟩ h0 h1
    else
      if h1 : (n + 1) % 4 = 3 then accC V c ⟨n + 1, hn⟩ h0 h1 (accAt0 c n (Nat.lt_of_succ_lt hn))
      else accB V c ⟨n + 1, hn⟩ h0 h1 (accAt0 c n (Nat.lt_of_succ_lt hn))

/-- What the point before t left in the accumulator (t not the first point). -/
abbrev accBefore0 (c : Dev nD) (t : Fin cfg0.N) : Vec F S32x2048 .f32 :=
  accAt0 V c (t.val - 1) (Nat.lt_of_le_of_lt (Nat.sub_le _ _) t.isLt)

theorem accAt0_A (c : Dev nD) (t : Fin cfg0.N) (h0 : t.val % 4 = 0) (h1 : ¬t.val % 4 = 3) :
    accAt0 V c t.val t.isLt = accA V c t h0 h1 := by
  obtain ⟨n, hn⟩ := t
  cases n with
  | zero => exact rfl
  | succ n => exact (dif_pos h0).trans ((dif_neg h1).trans rfl)
theorem accAt0_B (c : Dev nD) (t : Fin cfg0.N) (h0 : ¬t.val % 4 = 0) (h1 : ¬t.val % 4 = 3) :
    accAt0 V c t.val t.isLt = accB V c t h0 h1 (accBefore0 V c t) := by
  obtain ⟨n, hn⟩ := t
  cases n with
  | zero => exact (by exfalso; (try dsimp only at h0); exact absurd (Nat.zero_mod _) h0)
  | succ n => exact (dif_neg h0).trans ((dif_neg h1).trans rfl)
theorem accAt0_C (c : Dev nD) (t : Fin cfg0.N) (h0 : ¬t.val % 4 = 0) (h1 : t.val % 4 = 3) :
    accAt0 V c t.val t.isLt = accC V c t h0 h1 (accBefore0 V c t) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point t: the gated update at tile 3; at the
    other tiles the window is idle and this value is consulted by nothing. -/
def outAt0 (c : Dev nD) (t : Fin cfg0.N) : Vec F S1x2048x32 .f32 :=
  if h1 : t.val % 4 = 3 then outC V c t (by omega) h1 (accBefore0 V c t)
  else VO0.read (Elt F) (VO0.writes (Elt F) VO0.junk [])
theorem outAt0_C (c : Dev nD) (t : Fin cfg0.N) (h0 : ¬t.val % 4 = 0) (h1 : t.val % 4 = 3) :
    outAt0 V c t = outC V c t h0 h1 (accBefore0 V c t) := dif_pos h1

/-! ## The region invariant -/

/-- Before position n: at the first point the class invariant (the accumulator at anything); afterwards the
    accumulator at what the point before left, the other scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (accAt0 V c n hn) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare (accAt0 V c (n - 1) (by omega)) ∗ others0 (F := F) c) ∗ (∃ r, prngReg c r)) := by
  cases n with
  | zero => exact absurd rfl hz
  | succ n => rfl

/-! ## The proof data -/

/-- The arrays as the region finds them; after the body each input's buffer at its block and the output's at
    `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the inputs' buffers hold their blocks; the tile index says which case runs; the
    invariant hands the accumulator over at what the point before left and takes it back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases h0 : t.val % 4 = 0
  · have h1 : ¬t.val % 4 = 3 := by omega
    rw [Dat.leavesExact_idle (dat0 V c) 7 t (idleAt0_7 t (fun h => h1 ((hcond0_1 t).mp h))) (noFlush0_7 t (fun h => h1 ((hcond0_1 t).mp h)))]
    rw [accAt0_A V c t h0 h1]
    unfold accA; (try dsimp only)
    by_cases hz : t.val = 0
    · rw [PhiS0_castSucc V c t, PhiS0_zero V c _ _ hz]
      refine (sep_mono (PhiA0_open c) .rfl).trans ?_
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverA V c t h0 h1)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverA V c t h0 h1)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    by_cases h1 : t.val % 4 = 3
    · rw [show (dat0 V c).leavesExact 7 t = owns (c : Thread nD τ) (ms0_7 t) fullShare ((dat0 V c).after 7 t) from by
        unfold Dat.leavesExact; rw [liveAt0_7 t ((hcond0_1 t).mpr h1)], after0_7]
      rw [accAt0_C V c t h0 h1, outAt0_C V c t h0 h1]
      unfold accC outC; (try dsimp only)
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC V c t h0 h1 (accBefore0 V c t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverC V c t h0 h1 _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (ocoverC V c t h0 h1 _)
    · rw [Dat.leavesExact_idle (dat0 V c) 7 t (idleAt0_7 t (fun h => h1 ((hcond0_1 t).mp h))) (noFlush0_7 t (fun h => h1 ((hcond0_1 t).mp h)))]
      rw [accAt0_B V c t h0 h1]
      unfold accB; (try dsimp only)
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB V c t h0 h1 (accBefore0 V c t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverB V c t h0 h1 _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ ht]
  refine BIBase.Entails.trans ?_ (PhiA0_close c)
  iintro ⟨⟨HS, Hoth⟩, Hg⟩
  isplitl [HS Hoth]
  · isplitl [HS]
    · iexists _; iexact HS
    iexact Hoth
  iexact Hg

end Cert.Kernel.Chan

end
-- ==== Proof.KB.PathBase.lean ====
/-
  The path-update region (the second kernel launch): what its three control cases are stated over.

  The grid is 16 batches by 4 column tiles of the adjacency matrix, 64 points in row-major order, so the tile
  index of point t is t mod 4. The body zeroes its accumulator at tile 0, adds the tile's partial product at
  every tile, and at tile 3 turns the accumulated message into the new path state. The output window is
  idle (neither stored nor written back) at tiles 0, 1, 2. Everything here is stated at a parameter V, the
  contents of the unscoped buffers when the region is entered.
-/
import proofs.«138023_j44126493999752_1_alg».proof.Proof.Gen.Kernel.Launch
import proofs.«138023_j44126493999752_1_alg».proof.Proof.Gen.Kernel.Skeleton
import proofs.«138023_j44126493999752_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Path

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it
    there or kept it from an earlier point (the block index has then not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, decided over the grid -/

/-- The accumulator is reset: the tile index is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The gated update is computed and stored: the tile index is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Off the last tile the output window is idle and not written back. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
/-- At the last tile it is live. -/
theorem liveAt1_7 : ∀ t : Fin cfg1.N, cond1_1 (grid1.coords t) → cfg1.idle 7 (grid1.coords t) = false := by decide +kernel

/-! ## The staging memrefs at a point, and the accumulator -/

abbrev ms1_0 (t : Fin cfg1.N) : Memref sig .tc .vmem S1x2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x96 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S32x96 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x96 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x96 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x2048x32 .f32 := win1_7.stage (cfg1.slots t 7)
abbrev hs1_7 (t : Fin cfg1.N) : (ms1_7 t).IsWhole := hstage1_7 ((cfg1.slots t 7).cast nbuf1_7)
/-- The accumulator: a whole scoped buffer of the kernel's own. -/
abbrev scM1 : Memref sig .tc .vmem S2048x32 .f32 := Memref.whole cc1_scratch0
abbrev VS1 : View sig .tc .vmem S2048x32 .f32 := scM1.view
/-- One staging buffer of the output window, through which its contents are stated. -/
abbrev VO1 : View sig .tc .vmem S1x2048x32 .f32 := (Memref.whole cc1_stg7_0 : Memref sig .tc .vmem S1x2048x32 .f32).view

end Cert.Kernel.Path

end
-- ==== Proof.KB.PathRunA.lean ====
/-
  The path-update body at the first column tile of a batch (tile index 0): the accumulator is zeroed, then the
  tile's partial product is added to it; the output window is left untouched. What the stores leave in the
  accumulator is found by running the body.
-/
import proofs.«138023_j44126493999752_1_alg».proof.Proof.KB.PathBase

set_option maxRecDepth 16384

noncomputable section

namespace Cert.Kernel.Path

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1x2048x512 .f32) (harg2 : arg2.IsWhole) (arg3 : Memref sig .tc .vmem S1x512x32 .f32) (harg3 : arg3.IsWhole) (arg4 : Memref sig .tc .vmem S1x2048x32 .f32) (harg4 : arg4.IsWhole) (arg5 : Memref sig .tc .vmem S32x96 .f32) (harg5 : arg5.IsWhole) (arg6 : Memref sig .tc .vmem S32x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x2048x32 .f32) (harg9 : arg9.IsWhole) (arg10 : Memref sig .tc .vmem S2048x32 .f32) (harg10 : arg10.IsWhole) (hc0 : cond1_0 i) (hc1 : ¬cond1_1 i)
    (x0 : Vec F S1x2048x512 .f32) (x1 : Vec F S1x512x32 .f32) (x2 : Vec F S1x2048x32 .f32) (x3 : Vec F S32x96 .f32) (x4 : Vec F S32x96 .f32) (x5 : Vec F S1x96 .f32) (x6 : Vec F S1x96 .f32) :
    Σ' (LO : List (View.Piece (Elt F) S1x2048x32 .f32)), { LS : List (View.Piece (Elt F) S2048x32 .f32) //
      ∀ (xi : Vec F S1x2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ (∃ f, arg10.view.loc (c : Thread nD τ) ↦[arg10.view.set]{fullShare} arg10.view.writes (Elt F) f LS)) -∗ K ⟨⟩))
          ⊢ wp frame (wpE (defs₀ (F := F)) Variants.none c none) E (cc1_path_kernel i arg2 harg2 arg3 harg3 arg4 harg4 arg5 harg5 arg6 harg6 arg7 harg7 arg8 harg8 arg9 harg9 arg10 harg10) K } := by
  refine ⟨[], ?_, fun xi E K => ?run⟩
  case run =>
    simp only [cc1_path_kernel_eq_skeleton]; unfold cc1_path_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.Kernel.Path

end
-- ==== Proof.KB.PathRunB.lean ====
/-
  The path-update body at a middle column tile (tile index 1 or 2): the tile's partial product is added to
  the accumulator the tile before left; the output window is left untouched.
-/
import proofs.«138023_j44126493999752_1_alg».proof.Proof.KB.PathRunA

set_option maxRecDepth 16384

noncomputable section

namespace Cert.Kernel.Path

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1x2048x512 .f32) (harg2 : arg2.IsWhole) (arg3 : Memref sig .tc .vmem S1x512x32 .f32) (harg3 : arg3.IsWhole) (arg4 : Memref sig .tc .vmem S1x2048x32 .f32) (harg4 : arg4.IsWhole) (arg5 : Memref sig .tc .vmem S32x96 .f32) (harg5 : arg5.IsWhole) (arg6 : Memref sig .tc .vmem S32x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x2048x32 .f32) (harg9 : arg9.IsWhole) (arg10 : Memref sig .tc .vmem S2048x32 .f32) (harg10 : arg10.IsWhole) (hc0 : ¬cond1_0 i) (hc1 : ¬cond1_1 i)
    (x0 : Vec F S1x2048x512 .f32) (x1 : Vec F S1x512x32 .f32) (x2 : Vec F S1x2048x32 .f32) (x3 : Vec F S32x96 .f32) (x4 : Vec F S32x96 .f32) (x5 : Vec F S1x96 .f32) (x6 : Vec F S1x96 .f32) (xs : Vec F S2048x32 .f32) :
    Σ' (LO : List (View.Piece (Elt F) S1x2048x32 .f32)), { LS : List (View.Piece (Elt F) S2048x32 .f32) //
      ∀ (xi : Vec F S1x2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ (∃ f, arg10.view.loc (c : Thread nD τ) ↦[arg10.view.set]{fullShare} arg10.view.writes (Elt F) f LS)) -∗ K ⟨⟩))
          ⊢ wp frame (wpE (defs₀ (F := F)) Variants.none c none) E (cc1_path_kernel i arg2 harg2 arg3 harg3 arg4 harg4 arg5 harg5 arg6 harg6 arg7 harg7 arg8 harg8 arg9 harg9 arg10 harg10) K } := by
  refine ⟨[], ?_, fun xi E K => ?run⟩
  case run =>
    simp only [cc1_path_kernel_eq_skeleton]; unfold cc1_path_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.Kernel.Path

end
-- ==== Proof.KB.PathRunC.lean ====
/-
  The path-update body at the last column tile of a batch (tile index 3): the tile's partial product is added
  to the accumulator, and the gated update of the path states by the accumulated message is stored into the
  output window.
-/
import proofs.«138023_j44126493999752_1_alg».proof.Proof.KB.PathRunB

set_option maxRecDepth 16384

noncomputable section

namespace Cert.Kernel.Path

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1x2048x512 .f32) (harg2 : arg2.IsWhole) (arg3 : Memref sig .tc .vmem S1x512x32 .f32) (harg3 : arg3.IsWhole) (arg4 : Memref sig .tc .vmem S1x2048x32 .f32) (harg4 : arg4.IsWhole) (arg5 : Memref sig .tc .vmem S32x96 .f32) (harg5 : arg5.IsWhole) (arg6 : Memref sig .tc .vmem S32x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x2048x32 .f32) (harg9 : arg9.IsWhole) (arg10 : Memref sig .tc .vmem S2048x32 .f32) (harg10 : arg10.IsWhole) (hc0 : ¬cond1_0 i) (hc1 : cond1_1 i)
    (x0 : Vec F S1x2048x512 .f32) (x1 : Vec F S1x512x32 .f32) (x2 : Vec F S1x2048x32 .f32) (x3 : Vec F S32x96 .f32) (x4 : Vec F S32x96 .f32) (x5 : Vec F S1x96 .f32) (x6 : Vec F S1x96 .f32) (xs : Vec F S2048x32 .f32) :
    Σ' (LO : List (View.Piece (Elt F) S1x2048x32 .f32)), { LS : List (View.Piece (Elt F) S2048x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LS)) -∗ K ⟨⟩))
          ⊢ wp frame (wpE (defs₀ (F := F)) Variants.none c none) E (cc1_path_kernel i arg2 harg2 arg3 harg3 arg4 harg4 arg5 harg5 arg6 harg6 arg7 harg7 arg8 harg8 arg9 harg9 arg10 harg10) K } := by
  refine ⟨?_, ?_, fun E K => ?run⟩
  case run =>
    simp only [cc1_path_kernel_eq_skeleton]; unfold cc1_path_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.Kernel.Path

end
-- ==== Proof.KB.PathInv.lean ====
/-
  The path-update region: the class invariant spelled out. A core's scoped buffers that are no staging buffer of
  this launch are the other launch's staging buffers and accumulator and, last, this launch's accumulator; the class
  invariant holds each whole at some contents, beside the generator register at some state. Here the accumulator is
  brought to the front, so that the region's proof data read as the other region's do.
-/
import proofs.«138023_j44126493999752_1_alg».proof.Proof.KB.PathBase

set_option maxRecDepth 16384

noncomputable section

namespace Cert.Kernel.Path

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The other launch's staging buffers and accumulator, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f))

/-- The accumulator at some contents, the other scoped buffers, the generator register at some state. -/
abbrev PhiOpen1 (c : Dev nD) : sProp 𝕄 :=
  iprop(iprop((∃ d, owns (c : Thread nD τ) scM1 fullShare d) ∗ others1 (F := F) c) ∗ (∃ r, prngReg c r))

theorem PhiA1_open (c : Dev nD) : (Pipeline.ΦA spec1 c : sProp 𝕄) ⊢ PhiOpen1 (F := F) c := by
  unfold Pipeline.ΦA PhiOpen1 others1; rw [scopedRest1_eq]; simp only [scM1, owns_whole]
  iintro ⟨⟨H0, H1, H2, H3, H4, H5, H6, H7, H8, H9, H10, H11, H12, HS⟩, Hg⟩
  isplitr [Hg]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iexact Hg

theorem PhiA1_close (c : Dev nD) : PhiOpen1 (F := F) c ⊢ (Pipeline.ΦA spec1 c : sProp 𝕄) := by
  unfold Pipeline.ΦA PhiOpen1 others1; rw [scopedRest1_eq]; simp only [scM1, owns_whole]
  iintro ⟨⟨HS, H0, H1, H2, H3, H4, H5, H6, H7, H8, H9, H10, H11, H12⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HS
  · iexact Hg

end Cert.Kernel.Path

end
-- ==== Proof.KB.PathData.lean ====
/-
  The path-update region: its proof data and body obligation.

  After point n the accumulator holds what the case of n leaves in it: at tile 0 the tile's partial product over
  zero, at the other tiles the partial product over what the point before left. The region invariant carries the
  accumulator at these contents from one point to the next (before the first point, and when the region is left,
  at anything). The output window's staging buffer holds the gated update after a point of tile 3, and is idle at
  the other points.
-/
import proofs.«138023_j44126493999752_1_alg».proof.Proof.KB.PathRunC
import proofs.«138023_j44126493999752_1_alg».proof.Proof.KB.PathInv

set_option maxRecDepth 16384

noncomputable section

namespace Cert.Kernel.Path

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases' runs at a point -/

abbrev runA (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _)
    ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)
abbrev runB (c : Dev nD) (t : Fin cfg1.N) (h0 : ¬t.val % 4 = 0) (h1 : ¬t.val % 4 = 3) (xs : Vec F S2048x32 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _)
    (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) xs
abbrev runC (c : Dev nD) (t : Fin cfg1.N) (h0 : ¬t.val % 4 = 0) (h1 : t.val % 4 = 3) (xs : Vec F S2048x32 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _)
    (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs

/-! ## The stores of each case cover the buffer they go to -/

theorem scoverA (c : Dev nD) (t : Fin cfg1.N) (h0 : t.val % 4 = 0) (h1 : ¬t.val % 4 = 3) (y : S2048x32.Idx) :
    ∃ pc ∈ (runA V c t h0 h1).2.1, y ∈ pc.1.set :=
  View.cover_of_tiledL (runA V c t h0 h1).2.1 S2048x32.size (by sl_kernel_rfl) y
theorem scoverB (c : Dev nD) (t : Fin cfg1.N) (h0 : ¬t.val % 4 = 0) (h1 : ¬t.val % 4 = 3) (xs : Vec F S2048x32 .f32) (y : S2048x32.Idx) :
    ∃ pc ∈ (runB V c t h0 h1 xs).2.1, y ∈ pc.1.set :=
  View.cover_of_tiledL (runB V c t h0 h1 xs).2.1 S2048x32.size (by sl_kernel_rfl) y
theorem scoverC (c : Dev nD) (t : Fin cfg1.N) (h0 : ¬t.val % 4 = 0) (h1 : t.val % 4 = 3) (xs : Vec F S2048x32 .f32) (y : S2048x32.Idx) :
    ∃ pc ∈ (runC V c t h0 h1 xs).2.1, y ∈ pc.1.set :=
  View.cover_of_tiledL (runC V c t h0 h1 xs).2.1 S2048x32.size (by sl_kernel_rfl) y
theorem ocoverC (c : Dev nD) (t : Fin cfg1.N) (h0 : ¬t.val % 4 = 0) (h1 : t.val % 4 = 3) (xs : Vec F S2048x32 .f32) (y : S1x2048x32.Idx) :
    ∃ pc ∈ (runC V c t h0 h1 xs).1, y ∈ pc.1.set :=
  View.cover_of_tiledL (runC V c t h0 h1 xs).1 S1x2048x32.size (by sl_kernel_rfl) y

/-! ## What each case leaves -/

/-- The accumulator after a point of tile 0. -/
def accA (c : Dev nD) (t : Fin cfg1.N) (h0 : t.val % 4 = 0) (h1 : ¬t.val % 4 = 3) : Vec F S2048x32 .f32 :=
  VS1.read (Elt F) (VS1.writes (Elt F) VS1.junk (runA V c t h0 h1).2.1)
/-- The accumulator after a point of tile 1 or 2, over what the point before left. -/
def accB (c : Dev nD) (t : Fin cfg1.N) (h0 : ¬t.val % 4 = 0) (h1 : ¬t.val % 4 = 3) (xs : Vec F S2048x32 .f32) : Vec F S2048x32 .f32 :=
  VS1.read (Elt F) (VS1.writes (Elt F) VS1.junk (runB V c t h0 h1 xs).2.1)
/-- The accumulator after a point of tile 3, over what the point before left. -/
def accC (c : Dev nD) (t : Fin cfg1.N) (h0 : ¬t.val % 4 = 0) (h1 : t.val % 4 = 3) (xs : Vec F S2048x32 .f32) : Vec F S2048x32 .f32 :=
  VS1.read (Elt F) (VS1.writes (Elt F) VS1.junk (runC V c t h0 h1 xs).2.1)
/-- The output window's staging buffer after a point of tile 3. -/
def outC (c : Dev nD) (t : Fin cfg1.N) (h0 : ¬t.val % 4 = 0) (h1 : t.val % 4 = 3) (xs : Vec F S2048x32 .f32) : Vec F S1x2048x32 .f32 :=
  VO1.read (Elt F) (VO1.writes (Elt F) VO1.junk (runC V c t h0 h1 xs).1)

/-! ## The accumulator point by point -/

/-- What the accumulator holds after the body at position n. -/
def accAt1 (c : Dev nD) : (n : ℕ) → n < cfg1.N → Vec F S2048x32 .f32
  | 0, hn => accA V c ⟨0, hn⟩ (Nat.zero_mod _) (show ¬(0 : ℕ) % 4 = 3 by decide)
  | n + 1, hn =>
    if h0 : (n + 1) % 4 = 0 then
      if h1 : (n + 1) % 4 = 3 then False.elim (by omega)
      else accA V c ⟨n + 1, hn⟩ h0 h1
    else
      if h1 : (n + 1) % 4 = 3 then accC V c ⟨n + 1, hn⟩ h0 h1 (accAt1 c n (Nat.lt_of_succ_lt hn))
      else accB V c ⟨n + 1, hn⟩ h0 h1 (accAt1 c n (Nat.lt_of_succ_lt hn))

/-- What the point before t left in the accumulator (t not the first point). -/
abbrev accBefore1 (c : Dev nD) (t : Fin cfg1.N) : Vec F S2048x32 .f32 :=
  accAt1 V c (t.val - 1) (Nat.lt_of_le_of_lt (Nat.sub_le _ _) t.isLt)

theorem accAt1_A (c : Dev nD) (t : Fin cfg1.N) (h0 : t.val % 4 = 0) (h1 : ¬t.val % 4 = 3) :
    accAt1 V c t.val t.isLt = accA V c t h0 h1 := by
  obtain ⟨n, hn⟩ := t
  cases n with
  | zero => exact rfl
  | succ n => exact (dif_pos h0).trans ((dif_neg h1).trans rfl)
theorem accAt1_B (c : Dev nD) (t : Fin cfg1.N) (h0 : ¬t.val % 4 = 0) (h1 : ¬t.val % 4 = 3) :
    accAt1 V c t.val t.isLt = accB V c t h0 h1 (accBefore1 V c t) := by
  obtain ⟨n, hn⟩ := t
  cases n with
  | zero => exact (by exfalso; (try dsimp only at h0); exact absurd (Nat.zero_mod _) h0)
  | succ n => exact (dif_neg h0).trans ((dif_neg h1).trans rfl)
theorem accAt1_C (c : Dev nD) (t : Fin cfg1.N) (h0 : ¬t.val % 4 = 0) (h1 : t.val % 4 = 3) :
    accAt1 V c t.val t.isLt = accC V c t h0 h1 (accBefore1 V c t) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point t: the gated update at tile 3; at the
    other tiles the window is idle and this value is consulted by nothing. -/
def outAt1 (c : Dev nD) (t : Fin cfg1.N) : Vec F S1x2048x32 .f32 :=
  if h1 : t.val % 4 = 3 then outC V c t (by omega) h1 (accBefore1 V c t)
  else VO1.read (Elt F) (VO1.writes (Elt F) VO1.junk [])
theorem outAt1_C (c : Dev nD) (t : Fin cfg1.N) (h0 : ¬t.val % 4 = 0) (h1 : t.val % 4 = 3) :
    outAt1 V c t = outC V c t h0 h1 (accBefore1 V c t) := dif_pos h1

/-! ## The region invariant -/

/-- Before position n: at the first point the class invariant (the accumulator at anything); afterwards the
    accumulator at what the point before left, the other scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ others1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (accAt1 V c n hn) ∗ others1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1 fullShare (accAt1 V c (n - 1) (by omega)) ∗ others1 (F := F) c) ∗ (∃ r, prngReg c r)) := by
  cases n with
  | zero => exact absurd rfl hz
  | succ n => rfl

/-! ## The proof data -/

/-- The arrays as the region finds them; after the body each input's buffer at its block and the output's at
    `outAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
/-- The body at any point: the inputs' buffers hold their blocks; the tile index says which case runs; the
    invariant hands the accumulator over at what the point before left and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 4 = 0
  · have h1 : ¬t.val % 4 = 3 := by omega
    rw [Dat.leavesExact_idle (dat1 V c) 7 t (idleAt1_7 t (fun h => h1 ((hcond1_1 t).mp h))) (noFlush1_7 t (fun h => h1 ((hcond1_1 t).mp h)))]
    rw [accAt1_A V c t h0 h1]
    unfold accA; (try dsimp only)
    by_cases hz : t.val = 0
    · rw [PhiS1_castSucc V c t, PhiS1_zero V c _ _ hz]
      refine (sep_mono (PhiA1_open c) .rfl).trans ?_
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverA V c t h0 h1)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverA V c t h0 h1)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    by_cases h1 : t.val % 4 = 3
    · rw [show (dat1 V c).leavesExact 7 t = owns (c : Thread nD τ) (ms1_7 t) fullShare ((dat1 V c).after 7 t) from by
        unfold Dat.leavesExact; rw [liveAt1_7 t ((hcond1_1 t).mpr h1)], after1_7]
      rw [accAt1_C V c t h0 h1, outAt1_C V c t h0 h1]
      unfold accC outC; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC V c t h0 h1 (accBefore1 V c t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverC V c t h0 h1 _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (ocoverC V c t h0 h1 _)
    · rw [Dat.leavesExact_idle (dat1 V c) 7 t (idleAt1_7 t (fun h => h1 ((hcond1_1 t).mp h))) (noFlush1_7 t (fun h => h1 ((hcond1_1 t).mp h)))]
      rw [accAt1_B V c t h0 h1]
      unfold accB; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB V c t h0 h1 (accBefore1 V c t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverB V c t h0 h1 _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ ht]
  refine BIBase.Entails.trans ?_ (PhiA1_close c)
  iintro ⟨⟨HS, Hoth⟩, Hg⟩
  isplitl [HS Hoth]
  · isplitl [HS]
    · iexists _; iexact HS
    iexact Hoth
  iexact Hg

end Cert.Kernel.Path

end
-- ==== Proof.LibRegionHeld.lean ====
/-
  A kernel region of a TensorCore program whose main function is followed through ONE valuation of the core's
  unscoped buffers.

  Between two items of such a program (a stretch of host operations, a kernel region) a core holds every unscoped
  TensorCore buffer whole, at a valuation `W c`, beside its generator register at some state and the fact that it
  owes nothing. A stretch of host operations moves the valuation along its fold. This file says what a kernel region
  does to it, as the pipeline library's region record:

    * at the entry the windows' arrays are cut out of the unscoped buffers, at the contents the proof data name
      for them (`hA`), the other unscoped buffers bypassing the region;
    * the generator register and the scoped buffers no window stages travel through the class invariant `ΦA`, from
      which the proof data's own invariant is reached at the first point (`hΦin`) and into which it falls back at
      the last (`hΦout`);
    * the body owes nothing at any point, holds every input array whole, and the kernel has no cell of its own;
    * at the exit the arrays return at what the write-backs leave, `Dat.arrAt · N`, and with the bypassing buffers
      they are the unscoped buffers again, whole at any valuation `W' c` that has the arrays there (`hF`) and
      agrees with `W c` everywhere else (`hrest`).

  The region is then entered from "the unscoped buffers at `W`" and left at "the unscoped buffers at `W'`", the
  same shape a host stretch is entered from and left at, so that the items of a main function chain by reflexivity.
-/
import Idealize.ShloMosaic.Lib.Pipeline.Kit
import Idealize.ShloMosaic.Lib.Pipeline.Frame
import Idealize.ShloMosaic.Lib.Pipeline.FrameSuffix
import Idealize.ShloMosaic.Lib.Pipeline.Regions
import Idealize.ShloMosaic.Lib.Pipeline.RegionsLoop

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

namespace Pipeline

open PCS
open Idealize.ShloMosaic.Rounds

variable {nD : Nat} {τ : Topo} {sig : RefSig} {Val : EltTy → Type} {Λ₀ : SL.Sem.Labels}

/-! ## A core that owes nothing, and a proof data's account of what it owes -/

section Owing

variable {Ix : Type} [DecidableEq Ix] {Name : Type} [DecidableEq Name] {U : Type} [URA U] {Lvl : Type}
variable {cfg : Cfg sig Λ₀} {c : Dev nD} (dat : Dat τ Val Ix Name U Lvl cfg c)

local notation "𝕄" => MT nD τ sig Ix Val Name U Lvl

/-- A core that owes nothing, whatever pairs its waits have recorded, is the proof data's account before point `t`
    when the data owe nothing there and put no bound on the recorded pairs. -/
theorem Dat.owesAt_of_owes_nothing (ι : Ix) (t : Fin (cfg.N + 1)) (h0 : dat.owed t = 0) (hrec : dat.recorded t = Set.univ) :
    (iprop(∃ S, owes (c : Thread nD τ) (0 : CellTallies nD τ sig Ix) S) : sProp 𝕄) ⊢ dat.owesAt ι t := by
  unfold Dat.owesAt owesWithin
  rw [h0]
  iintro ⟨%S, Howe⟩
  iexists S
  isplitr
  · ipureintro
    intro x _
    exact Or.inl (by rw [hrec]; exact Set.mem_univ x)
  iexact Howe

/-- Conversely the account before a point where the data owe nothing is a core that owes nothing. -/
theorem Dat.owes_nothing_of_owesAt (ι : Ix) (t : Fin (cfg.N + 1)) (h0 : dat.owed t = 0) :
    dat.owesAt ι t ⊢ (iprop(∃ S, owes (c : Thread nD τ) (0 : CellTallies nD τ sig Ix) S) : sProp 𝕄) := by
  unfold Dat.owesAt owesWithin
  rw [h0]
  iintro ⟨%S, -, Howe⟩
  iexists S
  iexact Howe

/-- A pipeline with no prefetched table holds none: there is nothing to ask for. -/
theorem emp_prefHeld_of_no_table (pre : Prefetch sig) (hK : pre.K = 0) (c : Dev nD) (q : Fin pre.K → PosShare TreeShare)
    (V : pre.Contents Val) : (BI.emp : sProp 𝕄) ⊢ prefHeld pre c q V := by
  haveI : IsEmpty (Fin pre.K) := ⟨fun k => absurd k.isLt (by omega)⟩
  unfold prefHeld
  rw [Finset.univ_eq_empty, BI.bigSep_empty]

end Owing

/-! ## The exit valuation: the entry valuation with the arrays replaced -/

section Exit

variable {gr : Nat} {Wn : Nat} (win : Fin Wn → WinSpec sig gr) (c : Dev nD) (V : Valuation τ sig Val)
  (A : (w : Fin Wn) → Buf Val ((win w).arr.view.loc (c : Thread nD τ)))

/-- `withArrays` has each array at the contents given for it (the arrays being distinct buffers), -/
theorem withArrays_hF (hinj : Function.Injective (arrRef win)) (w : Fin Wn) :
    A w = withArrays win c V A (Proc.devRef .tc (arrRef win w)) :=
  (withArrays_arr win hinj c V A w).symm

/-- and every buffer that is no window's array at the valuation it started from. -/
theorem withArrays_hrest (b : Ref sig .tc) (hb : b ∉ Finset.univ.image (arrRef win)) :
    withArrays win c V A (Proc.devRef .tc b) = V (Proc.devRef .tc b) :=
  withArrays_of_ne win c V A b fun w e => hb (Finset.mem_image.mpr ⟨w, Finset.mem_univ w, e⟩)

end Exit

/-! ## The thread state between two items, and the region over it -/

section Held

variable {U : Type} [URA U] {P : Type} [Fintype P]

local notation "𝕄" => MT nD τ sig Unit Val ℕ U ℕ

/-- What rides beside the unscoped buffers between two items of the main function: the core's generator register at
    some state, and the core owing nothing. -/
abbrev idleRest (c : Dev nD) : sProp 𝕄 :=
  iprop((∃ r, prngReg c r) ∗ ∃ S, owes (c : Thread nD τ) (0 : CellTallies nD τ sig Unit) S)

/-- The thread state between two items: every unscoped TensorCore buffer whole at the valuation, beside `idleRest`. -/
abbrev heldIdle (W : Dev nD → Valuation τ sig Val) (c : Dev nD) : sProp 𝕄 :=
  iprop(StableHlo.held (c : Thread nD τ) (ucRefs τ sig) (W c) ∗ idleRest c)

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

-- the library's lemmas on the arrays are stated over `pin pcs a p`; meeting them from a goal that names the pipeline's
-- own fields takes unfolding plain definitions inside types
set_option backward.isDefEq.respectTransparency.types false in
/-- THE REGION OVER A HELD VALUATION. Pipeline `p`'s region, entered from `heldIdle W` and left at `heldIdle W'`:
    given the layout the launch decides (`hw`, `hpos`, `harr`, `hstage`), no prefetched table to hold (`hpre`), the
    body obligation of proof data that hold every input array whole (`hq`), owe nothing (`howed`, `hrec`), enter
    at the arrays' contents under `W` (`hA`) and reach `W'` (`hF`, `hrest`), and whose invariant begins below and ends
    above the class invariant `ΦA` (`hΦin`, `hΦout`). The kernel has no semaphore of its own. -/
def RegionSeg.ofHeld (p : P)
    (hw : WinFacts (pin pcs a p).spec)
    (hpos : ∀ w : Fin (pin pcs a p).W, 0 < ((pin pcs a p).spec w).block.numel)
    (harr : ∀ w : Fin (pin pcs a p).W, ((pin pcs a p).spec w).arr.IsWhole)
    (hstage : ∀ (w : Fin (pin pcs a p).W) (s : Fin ((pin pcs a p).spec w).nbuf), (((pin pcs a p).spec w).stage s).IsWhole)
    (hpre : ∀ c : Dev nD, (BI.emp : sProp 𝕄) ⊢ prefHeld (pcs p).pre c (fun _ => fullShare) (a p).1)
    (hbody : ∀ c : Dev nD, BodyObligation (pdats p c) defs₀ 𝒱₀ () Set.univ)
    (hq : ∀ (c : Dev nD) (w : Fin (pin pcs a p).W), (pdats p c).q w = fullShare)
    (howed : ∀ (c : Dev nD) (t : Fin ((pin pcs a p).N + 1)), (pdats p c).owed t = 0)
    (hrec : ∀ c : Dev nD, (pdats p c).recorded 0 = Set.univ)
    (W W' : Dev nD → Valuation τ sig Val)
    (hA : ∀ (c : Dev nD) (w : Fin (pin pcs a p).W), (pdats p c).A w = W c (Proc.devRef .tc (arrRef (pin pcs a p).spec w)))
    (hF : ∀ (c : Dev nD) (w : Fin (pin pcs a p).W),
      (pdats p c).arrAt w (pin pcs a p).N = W' c (Proc.devRef .tc (arrRef (pin pcs a p).spec w)))
    (hrest : ∀ (c : Dev nD) (b : Ref sig .tc), b ∉ Finset.univ.image (arrRef (pin pcs a p).spec) →
      W' c (Proc.devRef .tc b) = W c (Proc.devRef .tc b))
    (hΦin : ∀ c : Dev nD, (ΦA (pin pcs a p).spec c : sProp 𝕄) ⊢ (pdats p c).Φ 0)
    (hΦout : ∀ c : Dev nD, (pdats p c).Φ (Fin.last (pin pcs a p).N) ⊢ (ΦA (pin pcs a p).spec c : sProp 𝕄)) :
    RegionSeg pcs a pdats () defs₀ 𝒱₀ L lv p where
  win := hw.to₀
  block_pos := hpos
  stage_whole := hstage
  K := PEmpty
  osem k := k.elim
  ho := OwnSemFacts.none _
  hbody c := (hbody c).loose
  hwaits := hwaits_of_owed_zero pcs a pdats () L lv p howed
  pre := heldIdle W
  post := heldIdle W'
  -- into the invariant and out of it: the generator register
  X c := iprop(∃ r, prngReg c r)
  Y c := iprop(∃ r, prngReg c r)
  -- past the region: the unscoped buffers that are no window's array, as entered
  Z c := unscopedRest (Ix := Unit) (Name := ℕ) (U := U) (Lvl := ℕ) (pin pcs a p).spec c (fun b => W c (Proc.devRef .tc b))
  hentry c := by
    have hcut : (StableHlo.held (c : Thread nD τ) (ucRefs τ sig) (W c) : sProp 𝕄)
        ⊢ iprop((pdats p c).arrays ((pdats p c).arrAt · 0)
            ∗ unscopedRest (pin pcs a p).spec c (fun b => W c (Proc.devRef .tc b))) := by
      rw [← unscopedBufs_held]
      exact arrays_of_unscopedBufs pcs a pdats hw harr c ((pdats p c).share_full (hq c))
        (fun b => W c (Proc.devRef .tc b)) (hA c)
    iintro ⟨⟨Hbufs, Hgen, Howe⟩, -, -⟩
    ihave Hsplit := hcut $$ Hbufs
    icases Hsplit with ⟨Harr, Hby⟩
    imodintro
    isplitl [Harr]; · iexact Harr
    isplitr
    · iapply (hpre c); iempintro
    isplitl [Howe]
    · iapply ((pdats p c).owesAt_of_owes_nothing () 0 (howed c 0) (hrec c)); iexact Howe
    isplitl [Hgen]; · iexact Hgen
    iexact Hby
  hin c := by
    refine Entails.trans ?_ (hΦin c)
    unfold ΦA
    iintro ⟨Hgen, -, Hsc⟩
    isplitl [Hsc]; · iexact Hsc
    iexact Hgen
  hout c := by
    refine (hΦout c).trans ?_
    rw [ownSems0_none]
    unfold ΦA
    iintro ⟨Hsc, Hgen⟩
    isplitl [Hgen]; · iexact Hgen
    isplitr; · iempintro
    iexact Hsc
  hexit c := by
    have hglue : iprop((pdats p c).arrays ((pdats p c).arrAt · (pin pcs a p).N)
            ∗ unscopedRest (pin pcs a p).spec c (fun b => W c (Proc.devRef .tc b)))
        ⊢ (StableHlo.held (c : Thread nD τ) (ucRefs τ sig) (W' c) : sProp 𝕄) := by
      rw [← unscopedBufs_held]
      exact unscopedBufs_of_arrays pcs a hw harr c pdats ((pdats p c).share_full (hq c))
        (fun b => W c (Proc.devRef .tc b)) (fun b => W' c (Proc.devRef .tc b))
        ((pdats p c).arrAt · (pin pcs a p).N) (hF c) (hrest c)
    iintro ⟨Harr, Howe, Hgen, Hby⟩
    imodintro
    isplitl [Harr Hby]
    · iapply hglue; isplitl [Harr] <;> iassumption
    isplitl [Hgen]; · iexact Hgen
    iapply ((pdats p c).owes_nothing_of_owesAt () _ (howed c _)); iexact Howe

end Held

end Pipeline

end Idealize.ShloMosaic

end
-- ==== Proof.KB.TwoRegions.lean ====
/-
  The two regions run one after the other.

  Between two items of the main function a core holds every unscoped buffer whole at a valuation. The launch
  contents W0 are moved by the host operations (two transposes and two reshapes per cell) to W1; the channel-update
  region replaces its output array (the new channel states) by what its write-backs leave, giving W2; the path-update
  region, which reads that array through an input window, replaces its own output array, giving W3. No item writes
  an argument. The run of the main function ends with every unscoped buffer at W3.
-/
import proofs.«138023_j44126493999752_1_alg».proof.Proof.KB.ChanData
import proofs.«138023_j44126493999752_1_alg».proof.Proof.KB.PathData
import proofs.«138023_j44126493999752_1_alg».proof.Proof.LibRegionHeld
import proofs.«138023_j44126493999752_1_alg».proof.Proof.Gen.Kernel.Regions

set_option maxRecDepth 16384

noncomputable section

namespace Cert.Kernel.Both

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Chan Cert.Kernel.Path
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the segment boundaries -/

/-- At launch. -/
abbrev W0 : Dev nD → Valuation τ sig (Elt F) := fun c b => m (c, b)
/-- After the host operations: the channel-update region's entry. -/
abbrev W1 : Dev nD → Valuation τ sig (Elt F) := fun c => StableHlo.after hostOps0 (W0 m c)
abbrev R1 : (c : Dev nD) → (b : Ref sig .tc) → Buf (Elt F) ((c : Thread nD τ).loc b) := fun c b => W1 m c b
/-- After the channel-update region: its arrays at what the pipeline leaves, every other buffer as entered. -/
def W2 (c : Dev nD) : Valuation τ sig (Elt F) :=
  Pipeline.withArrays spec0 c (W1 m c) fun w => (dat0 (R1 m) c).arrAt w cfg0.N
theorem W2_arr (c : Dev nD) (w : Fin cfg0.W) :
    W2 m c (Proc.devRef .tc (Pipeline.arrRef spec0 w)) = (dat0 (R1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev R2 : (c : Dev nD) → (b : Ref sig .tc) → Buf (Elt F) ((c : Thread nD τ).loc b) := fun c b => W2 m c b
/-- After the path-update region. -/
def W3 (c : Dev nD) : Valuation τ sig (Elt F) :=
  Pipeline.withArrays spec1 c (W2 m c) fun w => (dat1 (R2 m) c).arrAt w cfg1.N
theorem W3_arr (c : Dev nD) (w : Fin cfg1.W) :
    W3 m c (Proc.devRef .tc (Pipeline.arrRef spec1 w)) = (dat1 (R2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- An input window's array is left as the region found it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (R1 m) c).arrAt_in w hw _).trans (A_eq0 (R1 m) c w))
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (R2 m) c).arrAt_in w hw _).trans (A_eq1 (R2 m) c w))

/-! ## The arguments end as launched, and the results are the regions' output arrays -/

theorem W3_main_arg0 (c : Dev nD) : W3 m c (Proc.devRef .tc main_arg0) = m ((c : Thread nD τ).loc main_arg0) :=
  (W3_in m c 2 rfl).trans <| (W2_in m c 1 rfl).trans <| (V1_of m c main_arg0 (by decide)).trans rfl
theorem W3_main_arg1 (c : Dev nD) : W3 m c (Proc.devRef .tc main_arg1) = m ((c : Thread nD τ).loc main_arg1) :=
  (W3_of_ne m c main_arg1 (by decide)).trans <| (W2_in m c 2 rfl).trans <| (V1_of m c main_arg1 (by decide)).trans rfl
theorem W3_main_arg2 (c : Dev nD) : W3 m c (Proc.devRef .tc main_arg2) = m ((c : Thread nD τ).loc main_arg2) :=
  (W3_in m c 0 rfl).trans <| (W2_in m c 0 rfl).trans <| (V1_of m c main_arg2 (by decide)).trans rfl
theorem W3_main_arg3 (c : Dev nD) : W3 m c (Proc.devRef .tc main_arg3) = m ((c : Thread nD τ).loc main_arg3) :=
  (W3_of_ne m c main_arg3 (by decide)).trans <| (W2_of_ne m c main_arg3 (by decide)).trans <| (V1_of m c main_arg3 (by decide)).trans rfl
theorem W3_main_arg4 (c : Dev nD) : W3 m c (Proc.devRef .tc main_arg4) = m ((c : Thread nD τ).loc main_arg4) :=
  (W3_of_ne m c main_arg4 (by decide)).trans <| (W2_of_ne m c main_arg4 (by decide)).trans <| (V1_of m c main_arg4 (by decide)).trans rfl
theorem W3_main_arg5 (c : Dev nD) : W3 m c (Proc.devRef .tc main_arg5) = m ((c : Thread nD τ).loc main_arg5) :=
  (W3_of_ne m c main_arg5 (by decide)).trans <| (W2_of_ne m c main_arg5 (by decide)).trans <| (V1_of m c main_arg5 (by decide)).trans rfl
theorem W3_main_arg6 (c : Dev nD) : W3 m c (Proc.devRef .tc main_arg6) = m ((c : Thread nD τ).loc main_arg6) :=
  (W3_of_ne m c main_arg6 (by decide)).trans <| (W2_of_ne m c main_arg6 (by decide)).trans <| (V1_of m c main_arg6 (by decide)).trans rfl
theorem W3_main_arg7 (c : Dev nD) : W3 m c (Proc.devRef .tc main_arg7) = m ((c : Thread nD τ).loc main_arg7) :=
  (W3_of_ne m c main_arg7 (by decide)).trans <| (W2_of_ne m c main_arg7 (by decide)).trans <| (V1_of m c main_arg7 (by decide)).trans rfl
theorem W3_main_arg8 (c : Dev nD) : W3 m c (Proc.devRef .tc main_arg8) = m ((c : Thread nD τ).loc main_arg8) :=
  (W3_of_ne m c main_arg8 (by decide)).trans <| (W2_of_ne m c main_arg8 (by decide)).trans <| (V1_of m c main_arg8 (by decide)).trans rfl
theorem W3_main_arg9 (c : Dev nD) : W3 m c (Proc.devRef .tc main_arg9) = m ((c : Thread nD τ).loc main_arg9) :=
  (W3_of_ne m c main_arg9 (by decide)).trans <| (W2_of_ne m c main_arg9 (by decide)).trans <| (V1_of m c main_arg9 (by decide)).trans rfl
theorem W3_main_arg10 (c : Dev nD) : W3 m c (Proc.devRef .tc main_arg10) = m ((c : Thread nD τ).loc main_arg10) :=
  (W3_of_ne m c main_arg10 (by decide)).trans <| (W2_of_ne m c main_arg10 (by decide)).trans <| (V1_of m c main_arg10 (by decide)).trans rfl

/-- The second result is the channel-update region's output array: the path-update region reads it and leaves it. -/
theorem W3_main_v8 (c : Dev nD) : W3 m c (Proc.devRef .tc main_v8) = (dat0 (R1 m) c).arrAt 7 cfg0.N :=
  (W3_in m c 1 rfl).trans (W2_arr m c 7)
/-- The first result is the path-update region's output array. -/
theorem W3_main_v9 (c : Dev nD) : W3 m c (Proc.devRef .tc main_v9) = (dat1 (R2 m) c).arrAt 7 cfg1.N :=
  W3_arr m c 7

/-! ## The proof data family and the segments -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R2 m) c
abbrev 𝒱₀ : Variants := Variants.none
abbrev L : GSem nD τ sig → Finset Unit := fun _ => ∅
abbrev lv : GSem nD τ sig → Unit → ℕ := fun _ _ => 0

/-- The host operations as a segment, the generator register and the core's empty debt riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Pipeline.idleRest

set_option backward.isDefEq.respectTransparency.types false in
/-- The channel-update region, entered at W1 and left at W2. -/
def reg0 : Pipeline.RegionSeg (pcfgs (F := F)) adm (pdats m) () defs₀ 𝒱₀ L lv 0 :=
  Pipeline.RegionSeg.ofHeld (pcfgs (F := F)) adm (pdats m) defs₀ 𝒱₀ L lv 0
    launch0.win launch0.block_pos launch0.arr_whole launch0.stage_whole
    (fun c => Pipeline.emp_prefHeld_of_no_table _ rfl c _ _)
    (fun c => body_obligation0 (R1 m) c) (fun _ _ => rfl) (fun _ _ => rfl) (fun _ => rfl)
    (W1 m) (W2 m) (fun _ _ => rfl) (fun c w => (W2_arr m c w).symm)
    (fun c b hb => W2_of_ne m c b fun w e => hb (Finset.mem_image.mpr ⟨w, Finset.mem_univ _, e⟩))
    (fun c => hin0 (R1 m) c) (fun c => hout0 (R1 m) c)

set_option backward.isDefEq.respectTransparency.types false in
/-- The path-update region, entered at W2 and left at W3. -/
def reg1 : Pipeline.RegionSeg (pcfgs (F := F)) adm (pdats m) () defs₀ 𝒱₀ L lv 1 :=
  Pipeline.RegionSeg.ofHeld (pcfgs (F := F)) adm (pdats m) defs₀ 𝒱₀ L lv 1
    launch1.win launch1.block_pos launch1.arr_whole launch1.stage_whole
    (fun c => Pipeline.emp_prefHeld_of_no_table _ rfl c _ _)
    (fun c => body_obligation1 (R2 m) c) (fun _ _ => rfl) (fun _ _ => rfl) (fun _ => rfl)
    (W2 m) (W3 m) (fun _ _ => rfl) (fun c w => (W3_arr m c w).symm)
    (fun c b hb => W3_of_ne m c b fun w e => hb (Finset.mem_image.mpr ⟨w, Finset.mem_univ _, e⟩))
    (fun c => hin1 (R2 m) c) (fun c => hout1 (R2 m) c)

/-- The main function's three segments in order. -/
abbrev segs : List (Pipeline.Seg (pcfgs (F := F)) adm (pdats m) () defs₀ 𝒱₀ L lv) :=
  [ .host (hseg hostOps0 hostOps0_sub hostOps0_fresh (W0 m)), .region (reg0 m), .region (reg1 m) ]

theorem main_run (c : Dev nD) : main (F := F) c = Pipeline.Seg.run (segs m) :=
  main_segs adm (pdats m) () 𝒱₀ L lv _ (reg0 m) (reg1 m) rfl c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debt. -/
abbrev Tlast (c : Dev nD) : sProp 𝕄 := iprop(StableHlo.held (c : Thread nD τ) (Pipeline.ucRefs τ sig) (W3 m c) ∗ ∃ r, prngReg c r)

theorem hlast (c : Dev nD) : (Pipeline.heldIdle (U := UR sig nD τ) (W3 m) c : sProp 𝕄)
    ⊢ iprop(Tlast m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The run -/

set_option backward.isDefEq.respectTransparency.types false in
/-- From any memory with zero counters every weakly fair execution of the main function terminates, nothing
    faulting, and the final memory holds every unscoped buffer at W3. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Pipeline.idleRest c)) (Tₙ := Tlast m)
    (hch := ⟨fun _ => .rfl, fun _ => .rfl, fun _ => .rfl, fun c => hlast m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The run with both results named and every argument as launched. -/
theorem run_named : θ_run defs (onTc (τ := τ) (main (F := F))) ⟨m, fun _ => 0, ρ⟩ (fun r => ∀ c : Dev nD,
      r.2.mem ((c.tc : Thread nD τ).loc main_v9) = (dat1 (R2 m) c).arrAt 7 cfg1.N
      ∧ r.2.mem ((c.tc : Thread nD τ).loc main_v8) = (dat0 (R1 m) c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v9 (by decide))).trans (W3_main_v9 m c),
     (h c _ (mem_uc main_v8 (by decide))).trans (W3_main_v8 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c),
     (h c _ (mem_uc main_arg9 (by decide))).trans (W3_main_arg9 m c),
     (h c _ (mem_uc main_arg10 (by decide))).trans (W3_main_arg10 m c)⟩) (run_all m ρ)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2.2) (run_named m ρ)

end Cert.Kernel.Both

end
-- ==== Proof.KI.ChanBase.lean ====
/-
  The channel-update region (the first kernel launch): what its three control cases are stated over.

  The grid is 16 batches by 4 row tiles of the adjacency matrix, 64 points in row-major order, so the tile
  index of point t is t mod 4. The body zeroes its accumulator at tile 0, adds the tile's partial product at
  every tile, and at tile 3 turns the accumulated message into the new channel state. The output window is
  idle (neither stored nor written back) at tiles 0, 1, 2. Everything here is stated at a parameter V, the
  contents of the unscoped buffers when the region is entered.
-/
import proofs.«138023_j44126493999752_1_alg».proof.Proof.Gen.KernelIdeal.Launch
import proofs.«138023_j44126493999752_1_alg».proof.Proof.Gen.KernelIdeal.Skeleton
import proofs.«138023_j44126493999752_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Chan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it
    there or kept it from an earlier point (the block index has then not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, decided over the grid -/

/-- The accumulator is reset: the tile index is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The gated update is computed and stored: the tile index is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Off the last tile the output window is idle and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At the last tile it is live. -/
theorem liveAt0_7 : ∀ t : Fin cfg0.N, cond0_1 (grid0.coords t) → cfg0.idle 7 (grid0.coords t) = false := by decide +kernel

/-! ## The staging memrefs at a point, and the accumulator -/

abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x96 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x96 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x96 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x96 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x32 .f32 := win0_7.stage (cfg0.slots t 7)
abbrev hs0_7 (t : Fin cfg0.N) : (ms0_7 t).IsWhole := hstage0_7 ((cfg0.slots t 7).cast nbuf0_7)
/-- The accumulator: a whole scoped buffer of the kernel's own. -/
abbrev scM0 : Memref sig .tc .vmem S32x2048 .f32 := Memref.whole cc0_scratch0
abbrev VS0 : View sig .tc .vmem S32x2048 .f32 := scM0.view
/-- One staging buffer of the output window, through which its contents are stated. -/
abbrev VO0 : View sig .tc .vmem S1x2048x32 .f32 := (Memref.whole cc0_stg7_0 : Memref sig .tc .vmem S1x2048x32 .f32).view

end Cert.KernelIdeal.Chan

end
-- ==== Proof.KI.ChanRunA.lean ====
/-
  The channel-update body at the first row tile of a batch (tile index 0): the accumulator is zeroed, then the
  tile's partial product is added to it; the output window is left untouched. What the stores leave in the
  accumulator is found by running the body.
-/
import proofs.«138023_j44126493999752_1_alg».proof.Proof.KI.ChanBase

set_option maxRecDepth 16384

noncomputable section

namespace Cert.KernelIdeal.Chan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x512x2048 .f32) (harg2 : arg2.IsWhole) (arg3 : Memref sig .tc .vmem S1x512x32 .f32) (harg3 : arg3.IsWhole) (arg4 : Memref sig .tc .vmem S1x2048x32 .f32) (harg4 : arg4.IsWhole) (arg5 : Memref sig .tc .vmem S32x96 .f32) (harg5 : arg5.IsWhole) (arg6 : Memref sig .tc .vmem S32x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x2048x32 .f32) (harg9 : arg9.IsWhole) (arg10 : Memref sig .tc .vmem S32x2048 .f32) (harg10 : arg10.IsWhole) (hc0 : cond0_0 i) (hc1 : ¬cond0_1 i)
    (x0 : Vec F S1x512x2048 .f32) (x1 : Vec F S1x512x32 .f32) (x2 : Vec F S1x2048x32 .f32) (x3 : Vec F S32x96 .f32) (x4 : Vec F S32x96 .f32) (x5 : Vec F S1x96 .f32) (x6 : Vec F S1x96 .f32) :
    Σ' (LO : List (View.Piece (Elt F) S1x2048x32 .f32)), { LS : List (View.Piece (Elt F) S32x2048 .f32) //
      ∀ (xi : Vec F S1x2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ (∃ f, arg10.view.loc (c : Thread nD τ) ↦[arg10.view.set]{fullShare} arg10.view.writes (Elt F) f LS)) -∗ K ⟨⟩))
          ⊢ wp frame (wpE (defs₀ (F := F)) Variants.none c none) E (cc0_channel_kernel i arg2 harg2 arg3 harg3 arg4 harg4 arg5 harg5 arg6 harg6 arg7 harg7 arg8 harg8 arg9 harg9 arg10 harg10) K } := by
  refine ⟨[], ?_, fun xi E K => ?run⟩
  case run =>
    simp only [cc0_channel_kernel_eq_skeleton]; unfold cc0_channel_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.KernelIdeal.Chan

end
-- ==== Proof.KI.ChanRunB.lean ====
/-
  The channel-update body at a middle row tile (tile index 1 or 2): the tile's partial product is added to
  the accumulator the tile before left; the output window is left untouched.
-/
import proofs.«138023_j44126493999752_1_alg».proof.Proof.KI.ChanRunA

set_option maxRecDepth 16384

noncomputable section

namespace Cert.KernelIdeal.Chan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x512x2048 .f32) (harg2 : arg2.IsWhole) (arg3 : Memref sig .tc .vmem S1x512x32 .f32) (harg3 : arg3.IsWhole) (arg4 : Memref sig .tc .vmem S1x2048x32 .f32) (harg4 : arg4.IsWhole) (arg5 : Memref sig .tc .vmem S32x96 .f32) (harg5 : arg5.IsWhole) (arg6 : Memref sig .tc .vmem S32x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x2048x32 .f32) (harg9 : arg9.IsWhole) (arg10 : Memref sig .tc .vmem S32x2048 .f32) (harg10 : arg10.IsWhole) (hc0 : ¬cond0_0 i) (hc1 : ¬cond0_1 i)
    (x0 : Vec F S1x512x2048 .f32) (x1 : Vec F S1x512x32 .f32) (x2 : Vec F S1x2048x32 .f32) (x3 : Vec F S32x96 .f32) (x4 : Vec F S32x96 .f32) (x5 : Vec F S1x96 .f32) (x6 : Vec F S1x96 .f32) (xs : Vec F S32x2048 .f32) :
    Σ' (LO : List (View.Piece (Elt F) S1x2048x32 .f32)), { LS : List (View.Piece (Elt F) S32x2048 .f32) //
      ∀ (xi : Vec F S1x2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ (∃ f, arg10.view.loc (c : Thread nD τ) ↦[arg10.view.set]{fullShare} arg10.view.writes (Elt F) f LS)) -∗ K ⟨⟩))
          ⊢ wp frame (wpE (defs₀ (F := F)) Variants.none c none) E (cc0_channel_kernel i arg2 harg2 arg3 harg3 arg4 harg4 arg5 harg5 arg6 harg6 arg7 harg7 arg8 harg8 arg9 harg9 arg10 harg10) K } := by
  refine ⟨[], ?_, fun xi E K => ?run⟩
  case run =>
    simp only [cc0_channel_kernel_eq_skeleton]; unfold cc0_channel_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.KernelIdeal.Chan

end
-- ==== Proof.KI.ChanRunC.lean ====
/-
  The channel-update body at the last row tile of a batch (tile index 3): the tile's partial product is added
  to the accumulator, and the gated update of the channel states by the accumulated message is stored into the
  output window.
-/
import proofs.«138023_j44126493999752_1_alg».proof.Proof.KI.ChanRunB

set_option maxRecDepth 16384

noncomputable section

namespace Cert.KernelIdeal.Chan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1x512x2048 .f32) (harg2 : arg2.IsWhole) (arg3 : Memref sig .tc .vmem S1x512x32 .f32) (harg3 : arg3.IsWhole) (arg4 : Memref sig .tc .vmem S1x2048x32 .f32) (harg4 : arg4.IsWhole) (arg5 : Memref sig .tc .vmem S32x96 .f32) (harg5 : arg5.IsWhole) (arg6 : Memref sig .tc .vmem S32x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x2048x32 .f32) (harg9 : arg9.IsWhole) (arg10 : Memref sig .tc .vmem S32x2048 .f32) (harg10 : arg10.IsWhole) (hc0 : ¬cond0_0 i) (hc1 : cond0_1 i)
    (x0 : Vec F S1x512x2048 .f32) (x1 : Vec F S1x512x32 .f32) (x2 : Vec F S1x2048x32 .f32) (x3 : Vec F S32x96 .f32) (x4 : Vec F S32x96 .f32) (x5 : Vec F S1x96 .f32) (x6 : Vec F S1x96 .f32) (xs : Vec F S32x2048 .f32) :
    Σ' (LO : List (View.Piece (Elt F) S1x2048x32 .f32)), { LS : List (View.Piece (Elt F) S32x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LS)) -∗ K ⟨⟩))
          ⊢ wp frame (wpE (defs₀ (F := F)) Variants.none c none) E (cc0_channel_kernel i arg2 harg2 arg3 harg3 arg4 harg4 arg5 harg5 arg6 harg6 arg7 harg7 arg8 harg8 arg9 harg9 arg10 harg10) K } := by
  refine ⟨?_, ?_, fun E K => ?run⟩
  case run =>
    simp only [cc0_channel_kernel_eq_skeleton]; unfold cc0_channel_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.KernelIdeal.Chan

end
-- ==== Proof.KI.ChanInv.lean ====
/-
  The channel-update region: the class invariant spelled out. A core's scoped buffers that are no staging buffer of
  this launch are its accumulator and the other launch's staging buffers and accumulator; the class invariant holds
  each whole at some contents, beside the generator register at some state.
-/
import proofs.«138023_j44126493999752_1_alg».proof.Proof.KI.ChanBase

set_option maxRecDepth 16384

noncomputable section

namespace Cert.KernelIdeal.Chan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The other launch's staging buffers and accumulator, each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f))

/-- The accumulator at some contents, the other scoped buffers, the generator register at some state. -/
abbrev PhiOpen0 (c : Dev nD) : sProp 𝕄 :=
  iprop(iprop((∃ d, owns (c : Thread nD τ) scM0 fullShare d) ∗ others0 (F := F) c) ∗ (∃ r, prngReg c r))

theorem PhiA0_eq (c : Dev nD) : (Pipeline.ΦA spec0 c : sProp 𝕄) = PhiOpen0 (F := F) c := by
  unfold Pipeline.ΦA PhiOpen0 others0; rw [scopedRest0_eq]; simp only [scM0, owns_whole]; try rfl

theorem PhiA0_open (c : Dev nD) : (Pipeline.ΦA spec0 c : sProp 𝕄) ⊢ PhiOpen0 (F := F) c := Entails.of_eq (PhiA0_eq c)
theorem PhiA0_close (c : Dev nD) : PhiOpen0 (F := F) c ⊢ (Pipeline.ΦA spec0 c : sProp 𝕄) := Entails.of_eq (PhiA0_eq c).symm

end Cert.KernelIdeal.Chan

end
-- ==== Proof.KI.ChanData.lean ====
/-
  The channel-update region: its proof data and body obligation.

  After point n the accumulator holds what the case of n leaves in it: at tile 0 the tile's partial product over
  zero, at the other tiles the partial product over what the point before left. The region invariant carries the
  accumulator at these contents from one point to the next (before the first point, and when the region is left,
  at anything). The output window's staging buffer holds the gated update after a point of tile 3, and is idle at
  the other points.
-/
import proofs.«138023_j44126493999752_1_alg».proof.Proof.KI.ChanRunC
import proofs.«138023_j44126493999752_1_alg».proof.Proof.KI.ChanInv

set_option maxRecDepth 16384

noncomputable section

namespace Cert.KernelIdeal.Chan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases' runs at a point -/

abbrev runA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _)
    ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)
abbrev runB (c : Dev nD) (t : Fin cfg0.N) (h0 : ¬t.val % 4 = 0) (h1 : ¬t.val % 4 = 3) (xs : Vec F S32x2048 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _)
    (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) xs
abbrev runC (c : Dev nD) (t : Fin cfg0.N) (h0 : ¬t.val % 4 = 0) (h1 : t.val % 4 = 3) (xs : Vec F S32x2048 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _)
    (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) xs

/-! ## The stores of each case cover the buffer they go to -/

theorem scoverA (c : Dev nD) (t : Fin cfg0.N) (h0 : t.val % 4 = 0) (h1 : ¬t.val % 4 = 3) (y : S32x2048.Idx) :
    ∃ pc ∈ (runA V c t h0 h1).2.1, y ∈ pc.1.set :=
  View.cover_of_tiledL (runA V c t h0 h1).2.1 S32x2048.size (by sl_kernel_rfl) y
theorem scoverB (c : Dev nD) (t : Fin cfg0.N) (h0 : ¬t.val % 4 = 0) (h1 : ¬t.val % 4 = 3) (xs : Vec F S32x2048 .f32) (y : S32x2048.Idx) :
    ∃ pc ∈ (runB V c t h0 h1 xs).2.1, y ∈ pc.1.set :=
  View.cover_of_tiledL (runB V c t h0 h1 xs).2.1 S32x2048.size (by sl_kernel_rfl) y
theorem scoverC (c : Dev nD) (t : Fin cfg0.N) (h0 : ¬t.val % 4 = 0) (h1 : t.val % 4 = 3) (xs : Vec F S32x2048 .f32) (y : S32x2048.Idx) :
    ∃ pc ∈ (runC V c t h0 h1 xs).2.1, y ∈ pc.1.set :=
  View.cover_of_tiledL (runC V c t h0 h1 xs).2.1 S32x2048.size (by sl_kernel_rfl) y
theorem ocoverC (c : Dev nD) (t : Fin cfg0.N) (h0 : ¬t.val % 4 = 0) (h1 : t.val % 4 = 3) (xs : Vec F S32x2048 .f32) (y : S1x2048x32.Idx) :
    ∃ pc ∈ (runC V c t h0 h1 xs).1, y ∈ pc.1.set :=
  View.cover_of_tiledL (runC V c t h0 h1 xs).1 S1x2048x32.size (by sl_kernel_rfl) y

/-! ## What each case leaves -/

/-- The accumulator after a point of tile 0. -/
def accA (c : Dev nD) (t : Fin cfg0.N) (h0 : t.val % 4 = 0) (h1 : ¬t.val % 4 = 3) : Vec F S32x2048 .f32 :=
  VS0.read (Elt F) (VS0.writes (Elt F) VS0.junk (runA V c t h0 h1).2.1)
/-- The accumulator after a point of tile 1 or 2, over what the point before left. -/
def accB (c : Dev nD) (t : Fin cfg0.N) (h0 : ¬t.val % 4 = 0) (h1 : ¬t.val % 4 = 3) (xs : Vec F S32x2048 .f32) : Vec F S32x2048 .f32 :=
  VS0.read (Elt F) (VS0.writes (Elt F) VS0.junk (runB V c t h0 h1 xs).2.1)
/-- The accumulator after a point of tile 3, over what the point before left. -/
def accC (c : Dev nD) (t : Fin cfg0.N) (h0 : ¬t.val % 4 = 0) (h1 : t.val % 4 = 3) (xs : Vec F S32x2048 .f32) : Vec F S32x2048 .f32 :=
  VS0.read (Elt F) (VS0.writes (Elt F) VS0.junk (runC V c t h0 h1 xs).2.1)
/-- The output window's staging buffer after a point of tile 3. -/
def outC (c : Dev nD) (t : Fin cfg0.N) (h0 : ¬t.val % 4 = 0) (h1 : t.val % 4 = 3) (xs : Vec F S32x2048 .f32) : Vec F S1x2048x32 .f32 :=
  VO0.read (Elt F) (VO0.writes (Elt F) VO0.junk (runC V c t h0 h1 xs).1)

/-! ## The accumulator point by point -/

/-- What the accumulator holds after the body at position n. -/
def accAt0 (c : Dev nD) : (n : ℕ) → n < cfg0.N → Vec F S32x2048 .f32
  | 0, hn => accA V c ⟨0, hn⟩ (Nat.zero_mod _) (show ¬(0 : ℕ) % 4 = 3 by decide)
  | n + 1, hn =>
    if h0 : (n + 1) % 4 = 0 then
      if h1 : (n + 1) % 4 = 3 then False.elim (by omega)
      else accA V c ⟨n + 1, hn⟩ h0 h1
    else
      if h1 : (n + 1) % 4 = 3 then accC V c ⟨n + 1, hn⟩ h0 h1 (accAt0 c n (Nat.lt_of_succ_lt hn))
      else accB V c ⟨n + 1, hn⟩ h0 h1 (accAt0 c n (Nat.lt_of_succ_lt hn))

/-- What the point before t left in the accumulator (t not the first point). -/
abbrev accBefore0 (c : Dev nD) (t : Fin cfg0.N) : Vec F S32x2048 .f32 :=
  accAt0 V c (t.val - 1) (Nat.lt_of_le_of_lt (Nat.sub_le _ _) t.isLt)

theorem accAt0_A (c : Dev nD) (t : Fin cfg0.N) (h0 : t.val % 4 = 0) (h1 : ¬t.val % 4 = 3) :
    accAt0 V c t.val t.isLt = accA V c t h0 h1 := by
  obtain ⟨n, hn⟩ := t
  cases n with
  | zero => exact rfl
  | succ n => exact (dif_pos h0).trans ((dif_neg h1).trans rfl)
theorem accAt0_B (c : Dev nD) (t : Fin cfg0.N) (h0 : ¬t.val % 4 = 0) (h1 : ¬t.val % 4 = 3) :
    accAt0 V c t.val t.isLt = accB V c t h0 h1 (accBefore0 V c t) := by
  obtain ⟨n, hn⟩ := t
  cases n with
  | zero => exact (by exfalso; (try dsimp only at h0); exact absurd (Nat.zero_mod _) h0)
  | succ n => exact (dif_neg h0).trans ((dif_neg h1).trans rfl)
theorem accAt0_C (c : Dev nD) (t : Fin cfg0.N) (h0 : ¬t.val % 4 = 0) (h1 : t.val % 4 = 3) :
    accAt0 V c t.val t.isLt = accC V c t h0 h1 (accBefore0 V c t) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point t: the gated update at tile 3; at the
    other tiles the window is idle and this value is consulted by nothing. -/
def outAt0 (c : Dev nD) (t : Fin cfg0.N) : Vec F S1x2048x32 .f32 :=
  if h1 : t.val % 4 = 3 then outC V c t (by omega) h1 (accBefore0 V c t)
  else VO0.read (Elt F) (VO0.writes (Elt F) VO0.junk [])
theorem outAt0_C (c : Dev nD) (t : Fin cfg0.N) (h0 : ¬t.val % 4 = 0) (h1 : t.val % 4 = 3) :
    outAt0 V c t = outC V c t h0 h1 (accBefore0 V c t) := dif_pos h1

/-! ## The region invariant -/

/-- Before position n: at the first point the class invariant (the accumulator at anything); afterwards the
    accumulator at what the point before left, the other scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (accAt0 V c n hn) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare (accAt0 V c (n - 1) (by omega)) ∗ others0 (F := F) c) ∗ (∃ r, prngReg c r)) := by
  cases n with
  | zero => exact absurd rfl hz
  | succ n => rfl

/-! ## The proof data -/

/-- The arrays as the region finds them; after the body each input's buffer at its block and the output's at
    `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the inputs' buffers hold their blocks; the tile index says which case runs; the
    invariant hands the accumulator over at what the point before left and takes it back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases h0 : t.val % 4 = 0
  · have h1 : ¬t.val % 4 = 3 := by omega
    rw [Dat.leavesExact_idle (dat0 V c) 7 t (idleAt0_7 t (fun h => h1 ((hcond0_1 t).mp h))) (noFlush0_7 t (fun h => h1 ((hcond0_1 t).mp h)))]
    rw [accAt0_A V c t h0 h1]
    unfold accA; (try dsimp only)
    by_cases hz : t.val = 0
    · rw [PhiS0_castSucc V c t, PhiS0_zero V c _ _ hz]
      refine (sep_mono (PhiA0_open c) .rfl).trans ?_
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverA V c t h0 h1)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverA V c t h0 h1)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    by_cases h1 : t.val % 4 = 3
    · rw [show (dat0 V c).leavesExact 7 t = owns (c : Thread nD τ) (ms0_7 t) fullShare ((dat0 V c).after 7 t) from by
        unfold Dat.leavesExact; rw [liveAt0_7 t ((hcond0_1 t).mpr h1)], after0_7]
      rw [accAt0_C V c t h0 h1, outAt0_C V c t h0 h1]
      unfold accC outC; (try dsimp only)
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC V c t h0 h1 (accBefore0 V c t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverC V c t h0 h1 _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (ocoverC V c t h0 h1 _)
    · rw [Dat.leavesExact_idle (dat0 V c) 7 t (idleAt0_7 t (fun h => h1 ((hcond0_1 t).mp h))) (noFlush0_7 t (fun h => h1 ((hcond0_1 t).mp h)))]
      rw [accAt0_B V c t h0 h1]
      unfold accB; (try dsimp only)
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB V c t h0 h1 (accBefore0 V c t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverB V c t h0 h1 _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ ht]
  refine BIBase.Entails.trans ?_ (PhiA0_close c)
  iintro ⟨⟨HS, Hoth⟩, Hg⟩
  isplitl [HS Hoth]
  · isplitl [HS]
    · iexists _; iexact HS
    iexact Hoth
  iexact Hg

end Cert.KernelIdeal.Chan

end
-- ==== Proof.KI.PathBase.lean ====
/-
  The path-update region (the second kernel launch): what its three control cases are stated over.

  The grid is 16 batches by 4 column tiles of the adjacency matrix, 64 points in row-major order, so the tile
  index of point t is t mod 4. The body zeroes its accumulator at tile 0, adds the tile's partial product at
  every tile, and at tile 3 turns the accumulated message into the new path state. The output window is
  idle (neither stored nor written back) at tiles 0, 1, 2. Everything here is stated at a parameter V, the
  contents of the unscoped buffers when the region is entered.
-/
import proofs.«138023_j44126493999752_1_alg».proof.Proof.Gen.KernelIdeal.Launch
import proofs.«138023_j44126493999752_1_alg».proof.Proof.Gen.KernelIdeal.Skeleton
import proofs.«138023_j44126493999752_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Path

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it
    there or kept it from an earlier point (the block index has then not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, decided over the grid -/

/-- The accumulator is reset: the tile index is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The gated update is computed and stored: the tile index is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Off the last tile the output window is idle and not written back. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
/-- At the last tile it is live. -/
theorem liveAt1_7 : ∀ t : Fin cfg1.N, cond1_1 (grid1.coords t) → cfg1.idle 7 (grid1.coords t) = false := by decide +kernel

/-! ## The staging memrefs at a point, and the accumulator -/

abbrev ms1_0 (t : Fin cfg1.N) : Memref sig .tc .vmem S1x2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x96 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S32x96 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x96 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x96 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x2048x32 .f32 := win1_7.stage (cfg1.slots t 7)
abbrev hs1_7 (t : Fin cfg1.N) : (ms1_7 t).IsWhole := hstage1_7 ((cfg1.slots t 7).cast nbuf1_7)
/-- The accumulator: a whole scoped buffer of the kernel's own. -/
abbrev scM1 : Memref sig .tc .vmem S2048x32 .f32 := Memref.whole cc1_scratch0
abbrev VS1 : View sig .tc .vmem S2048x32 .f32 := scM1.view
/-- One staging buffer of the output window, through which its contents are stated. -/
abbrev VO1 : View sig .tc .vmem S1x2048x32 .f32 := (Memref.whole cc1_stg7_0 : Memref sig .tc .vmem S1x2048x32 .f32).view

end Cert.KernelIdeal.Path

end
-- ==== Proof.KI.PathRunA.lean ====
/-
  The path-update body at the first column tile of a batch (tile index 0): the accumulator is zeroed, then the
  tile's partial product is added to it; the output window is left untouched. What the stores leave in the
  accumulator is found by running the body.
-/
import proofs.«138023_j44126493999752_1_alg».proof.Proof.KI.PathBase

set_option maxRecDepth 16384

noncomputable section

namespace Cert.KernelIdeal.Path

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1x2048x512 .f32) (harg2 : arg2.IsWhole) (arg3 : Memref sig .tc .vmem S1x512x32 .f32) (harg3 : arg3.IsWhole) (arg4 : Memref sig .tc .vmem S1x2048x32 .f32) (harg4 : arg4.IsWhole) (arg5 : Memref sig .tc .vmem S32x96 .f32) (harg5 : arg5.IsWhole) (arg6 : Memref sig .tc .vmem S32x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x2048x32 .f32) (harg9 : arg9.IsWhole) (arg10 : Memref sig .tc .vmem S2048x32 .f32) (harg10 : arg10.IsWhole) (hc0 : cond1_0 i) (hc1 : ¬cond1_1 i)
    (x0 : Vec F S1x2048x512 .f32) (x1 : Vec F S1x512x32 .f32) (x2 : Vec F S1x2048x32 .f32) (x3 : Vec F S32x96 .f32) (x4 : Vec F S32x96 .f32) (x5 : Vec F S1x96 .f32) (x6 : Vec F S1x96 .f32) :
    Σ' (LO : List (View.Piece (Elt F) S1x2048x32 .f32)), { LS : List (View.Piece (Elt F) S2048x32 .f32) //
      ∀ (xi : Vec F S1x2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ (∃ f, arg10.view.loc (c : Thread nD τ) ↦[arg10.view.set]{fullShare} arg10.view.writes (Elt F) f LS)) -∗ K ⟨⟩))
          ⊢ wp frame (wpE (defs₀ (F := F)) Variants.none c none) E (cc1_path_kernel i arg2 harg2 arg3 harg3 arg4 harg4 arg5 harg5 arg6 harg6 arg7 harg7 arg8 harg8 arg9 harg9 arg10 harg10) K } := by
  refine ⟨[], ?_, fun xi E K => ?run⟩
  case run =>
    simp only [cc1_path_kernel_eq_skeleton]; unfold cc1_path_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.KernelIdeal.Path

end
-- ==== Proof.KI.PathRunB.lean ====
/-
  The path-update body at a middle column tile (tile index 1 or 2): the tile's partial product is added to
  the accumulator the tile before left; the output window is left untouched.
-/
import proofs.«138023_j44126493999752_1_alg».proof.Proof.KI.PathRunA

set_option maxRecDepth 16384

noncomputable section

namespace Cert.KernelIdeal.Path

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1x2048x512 .f32) (harg2 : arg2.IsWhole) (arg3 : Memref sig .tc .vmem S1x512x32 .f32) (harg3 : arg3.IsWhole) (arg4 : Memref sig .tc .vmem S1x2048x32 .f32) (harg4 : arg4.IsWhole) (arg5 : Memref sig .tc .vmem S32x96 .f32) (harg5 : arg5.IsWhole) (arg6 : Memref sig .tc .vmem S32x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x2048x32 .f32) (harg9 : arg9.IsWhole) (arg10 : Memref sig .tc .vmem S2048x32 .f32) (harg10 : arg10.IsWhole) (hc0 : ¬cond1_0 i) (hc1 : ¬cond1_1 i)
    (x0 : Vec F S1x2048x512 .f32) (x1 : Vec F S1x512x32 .f32) (x2 : Vec F S1x2048x32 .f32) (x3 : Vec F S32x96 .f32) (x4 : Vec F S32x96 .f32) (x5 : Vec F S1x96 .f32) (x6 : Vec F S1x96 .f32) (xs : Vec F S2048x32 .f32) :
    Σ' (LO : List (View.Piece (Elt F) S1x2048x32 .f32)), { LS : List (View.Piece (Elt F) S2048x32 .f32) //
      ∀ (xi : Vec F S1x2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ (∃ f, arg10.view.loc (c : Thread nD τ) ↦[arg10.view.set]{fullShare} arg10.view.writes (Elt F) f LS)) -∗ K ⟨⟩))
          ⊢ wp frame (wpE (defs₀ (F := F)) Variants.none c none) E (cc1_path_kernel i arg2 harg2 arg3 harg3 arg4 harg4 arg5 harg5 arg6 harg6 arg7 harg7 arg8 harg8 arg9 harg9 arg10 harg10) K } := by
  refine ⟨[], ?_, fun xi E K => ?run⟩
  case run =>
    simp only [cc1_path_kernel_eq_skeleton]; unfold cc1_path_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.KernelIdeal.Path

end
-- ==== Proof.KI.PathRunC.lean ====
/-
  The path-update body at the last column tile of a batch (tile index 3): the tile's partial product is added
  to the accumulator, and the gated update of the path states by the accumulated message is stored into the
  output window.
-/
import proofs.«138023_j44126493999752_1_alg».proof.Proof.KI.PathRunB

set_option maxRecDepth 16384

noncomputable section

namespace Cert.KernelIdeal.Path

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1x2048x512 .f32) (harg2 : arg2.IsWhole) (arg3 : Memref sig .tc .vmem S1x512x32 .f32) (harg3 : arg3.IsWhole) (arg4 : Memref sig .tc .vmem S1x2048x32 .f32) (harg4 : arg4.IsWhole) (arg5 : Memref sig .tc .vmem S32x96 .f32) (harg5 : arg5.IsWhole) (arg6 : Memref sig .tc .vmem S32x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x2048x32 .f32) (harg9 : arg9.IsWhole) (arg10 : Memref sig .tc .vmem S2048x32 .f32) (harg10 : arg10.IsWhole) (hc0 : ¬cond1_0 i) (hc1 : cond1_1 i)
    (x0 : Vec F S1x2048x512 .f32) (x1 : Vec F S1x512x32 .f32) (x2 : Vec F S1x2048x32 .f32) (x3 : Vec F S32x96 .f32) (x4 : Vec F S32x96 .f32) (x5 : Vec F S1x96 .f32) (x6 : Vec F S1x96 .f32) (xs : Vec F S2048x32 .f32) :
    Σ' (LO : List (View.Piece (Elt F) S1x2048x32 .f32)), { LS : List (View.Piece (Elt F) S2048x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LS)) -∗ K ⟨⟩))
          ⊢ wp frame (wpE (defs₀ (F := F)) Variants.none c none) E (cc1_path_kernel i arg2 harg2 arg3 harg3 arg4 harg4 arg5 harg5 arg6 harg6 arg7 harg7 arg8 harg8 arg9 harg9 arg10 harg10) K } := by
  refine ⟨?_, ?_, fun E K => ?run⟩
  case run =>
    simp only [cc1_path_kernel_eq_skeleton]; unfold cc1_path_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.KernelIdeal.Path

end
-- ==== Proof.KI.PathInv.lean ====
/-
  The path-update region: the class invariant spelled out. A core's scoped buffers that are no staging buffer of
  this launch are the other launch's staging buffers and accumulator and, last, this launch's accumulator; the class
  invariant holds each whole at some contents, beside the generator register at some state. Here the accumulator is
  brought to the front, so that the region's proof data read as the other region's do.
-/
import proofs.«138023_j44126493999752_1_alg».proof.Proof.KI.PathBase

set_option maxRecDepth 16384

noncomputable section

namespace Cert.KernelIdeal.Path

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The other launch's staging buffers and accumulator, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f))

/-- The accumulator at some contents, the other scoped buffers, the generator register at some state. -/
abbrev PhiOpen1 (c : Dev nD) : sProp 𝕄 :=
  iprop(iprop((∃ d, owns (c : Thread nD τ) scM1 fullShare d) ∗ others1 (F := F) c) ∗ (∃ r, prngReg c r))

theorem PhiA1_open (c : Dev nD) : (Pipeline.ΦA spec1 c : sProp 𝕄) ⊢ PhiOpen1 (F := F) c := by
  unfold Pipeline.ΦA PhiOpen1 others1; rw [scopedRest1_eq]; simp only [scM1, owns_whole]
  iintro ⟨⟨H0, H1, H2, H3, H4, H5, H6, H7, H8, H9, H10, H11, H12, HS⟩, Hg⟩
  isplitr [Hg]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iexact Hg

theorem PhiA1_close (c : Dev nD) : PhiOpen1 (F := F) c ⊢ (Pipeline.ΦA spec1 c : sProp 𝕄) := by
  unfold Pipeline.ΦA PhiOpen1 others1; rw [scopedRest1_eq]; simp only [scM1, owns_whole]
  iintro ⟨⟨HS, H0, H1, H2, H3, H4, H5, H6, H7, H8, H9, H10, H11, H12⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HS
  · iexact Hg

end Cert.KernelIdeal.Path

end
-- ==== Proof.KI.PathData.lean ====
/-
  The path-update region: its proof data and body obligation.

  After point n the accumulator holds what the case of n leaves in it: at tile 0 the tile's partial product over
  zero, at the other tiles the partial product over what the point before left. The region invariant carries the
  accumulator at these contents from one point to the next (before the first point, and when the region is left,
  at anything). The output window's staging buffer holds the gated update after a point of tile 3, and is idle at
  the other points.
-/
import proofs.«138023_j44126493999752_1_alg».proof.Proof.KI.PathRunC
import proofs.«138023_j44126493999752_1_alg».proof.Proof.KI.PathInv

set_option maxRecDepth 16384

noncomputable section

namespace Cert.KernelIdeal.Path

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases' runs at a point -/

abbrev runA (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _)
    ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)
abbrev runB (c : Dev nD) (t : Fin cfg1.N) (h0 : ¬t.val % 4 = 0) (h1 : ¬t.val % 4 = 3) (xs : Vec F S2048x32 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _)
    (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) xs
abbrev runC (c : Dev nD) (t : Fin cfg1.N) (h0 : ¬t.val % 4 = 0) (h1 : t.val % 4 = 3) (xs : Vec F S2048x32 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _)
    (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs

/-! ## The stores of each case cover the buffer they go to -/

theorem scoverA (c : Dev nD) (t : Fin cfg1.N) (h0 : t.val % 4 = 0) (h1 : ¬t.val % 4 = 3) (y : S2048x32.Idx) :
    ∃ pc ∈ (runA V c t h0 h1).2.1, y ∈ pc.1.set :=
  View.cover_of_tiledL (runA V c t h0 h1).2.1 S2048x32.size (by sl_kernel_rfl) y
theorem scoverB (c : Dev nD) (t : Fin cfg1.N) (h0 : ¬t.val % 4 = 0) (h1 : ¬t.val % 4 = 3) (xs : Vec F S2048x32 .f32) (y : S2048x32.Idx) :
    ∃ pc ∈ (runB V c t h0 h1 xs).2.1, y ∈ pc.1.set :=
  View.cover_of_tiledL (runB V c t h0 h1 xs).2.1 S2048x32.size (by sl_kernel_rfl) y
theorem scoverC (c : Dev nD) (t : Fin cfg1.N) (h0 : ¬t.val % 4 = 0) (h1 : t.val % 4 = 3) (xs : Vec F S2048x32 .f32) (y : S2048x32.Idx) :
    ∃ pc ∈ (runC V c t h0 h1 xs).2.1, y ∈ pc.1.set :=
  View.cover_of_tiledL (runC V c t h0 h1 xs).2.1 S2048x32.size (by sl_kernel_rfl) y
theorem ocoverC (c : Dev nD) (t : Fin cfg1.N) (h0 : ¬t.val % 4 = 0) (h1 : t.val % 4 = 3) (xs : Vec F S2048x32 .f32) (y : S1x2048x32.Idx) :
    ∃ pc ∈ (runC V c t h0 h1 xs).1, y ∈ pc.1.set :=
  View.cover_of_tiledL (runC V c t h0 h1 xs).1 S1x2048x32.size (by sl_kernel_rfl) y

/-! ## What each case leaves -/

/-- The accumulator after a point of tile 0. -/
def accA (c : Dev nD) (t : Fin cfg1.N) (h0 : t.val % 4 = 0) (h1 : ¬t.val % 4 = 3) : Vec F S2048x32 .f32 :=
  VS1.read (Elt F) (VS1.writes (Elt F) VS1.junk (runA V c t h0 h1).2.1)
/-- The accumulator after a point of tile 1 or 2, over what the point before left. -/
def accB (c : Dev nD) (t : Fin cfg1.N) (h0 : ¬t.val % 4 = 0) (h1 : ¬t.val % 4 = 3) (xs : Vec F S2048x32 .f32) : Vec F S2048x32 .f32 :=
  VS1.read (Elt F) (VS1.writes (Elt F) VS1.junk (runB V c t h0 h1 xs).2.1)
/-- The accumulator after a point of tile 3, over what the point before left. -/
def accC (c : Dev nD) (t : Fin cfg1.N) (h0 : ¬t.val % 4 = 0) (h1 : t.val % 4 = 3) (xs : Vec F S2048x32 .f32) : Vec F S2048x32 .f32 :=
  VS1.read (Elt F) (VS1.writes (Elt F) VS1.junk (runC V c t h0 h1 xs).2.1)
/-- The output window's staging buffer after a point of tile 3. -/
def outC (c : Dev nD) (t : Fin cfg1.N) (h0 : ¬t.val % 4 = 0) (h1 : t.val % 4 = 3) (xs : Vec F S2048x32 .f32) : Vec F S1x2048x32 .f32 :=
  VO1.read (Elt F) (VO1.writes (Elt F) VO1.junk (runC V c t h0 h1 xs).1)

/-! ## The accumulator point by point -/

/-- What the accumulator holds after the body at position n. -/
def accAt1 (c : Dev nD) : (n : ℕ) → n < cfg1.N → Vec F S2048x32 .f32
  | 0, hn => accA V c ⟨0, hn⟩ (Nat.zero_mod _) (show ¬(0 : ℕ) % 4 = 3 by decide)
  | n + 1, hn =>
    if h0 : (n + 1) % 4 = 0 then
      if h1 : (n + 1) % 4 = 3 then False.elim (by omega)
      else accA V c ⟨n + 1, hn⟩ h0 h1
    else
      if h1 : (n + 1) % 4 = 3 then accC V c ⟨n + 1, hn⟩ h0 h1 (accAt1 c n (Nat.lt_of_succ_lt hn))
      else accB V c ⟨n + 1, hn⟩ h0 h1 (accAt1 c n (Nat.lt_of_succ_lt hn))

/-- What the point before t left in the accumulator (t not the first point). -/
abbrev accBefore1 (c : Dev nD) (t : Fin cfg1.N) : Vec F S2048x32 .f32 :=
  accAt1 V c (t.val - 1) (Nat.lt_of_le_of_lt (Nat.sub_le _ _) t.isLt)

theorem accAt1_A (c : Dev nD) (t : Fin cfg1.N) (h0 : t.val % 4 = 0) (h1 : ¬t.val % 4 = 3) :
    accAt1 V c t.val t.isLt = accA V c t h0 h1 := by
  obtain ⟨n, hn⟩ := t
  cases n with
  | zero => exact rfl
  | succ n => exact (dif_pos h0).trans ((dif_neg h1).trans rfl)
theorem accAt1_B (c : Dev nD) (t : Fin cfg1.N) (h0 : ¬t.val % 4 = 0) (h1 : ¬t.val % 4 = 3) :
    accAt1 V c t.val t.isLt = accB V c t h0 h1 (accBefore1 V c t) := by
  obtain ⟨n, hn⟩ := t
  cases n with
  | zero => exact (by exfalso; (try dsimp only at h0); exact absurd (Nat.zero_mod _) h0)
  | succ n => exact (dif_neg h0).trans ((dif_neg h1).trans rfl)
theorem accAt1_C (c : Dev nD) (t : Fin cfg1.N) (h0 : ¬t.val % 4 = 0) (h1 : t.val % 4 = 3) :
    accAt1 V c t.val t.isLt = accC V c t h0 h1 (accBefore1 V c t) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point t: the gated update at tile 3; at the
    other tiles the window is idle and this value is consulted by nothing. -/
def outAt1 (c : Dev nD) (t : Fin cfg1.N) : Vec F S1x2048x32 .f32 :=
  if h1 : t.val % 4 = 3 then outC V c t (by omega) h1 (accBefore1 V c t)
  else VO1.read (Elt F) (VO1.writes (Elt F) VO1.junk [])
theorem outAt1_C (c : Dev nD) (t : Fin cfg1.N) (h0 : ¬t.val % 4 = 0) (h1 : t.val % 4 = 3) :
    outAt1 V c t = outC V c t h0 h1 (accBefore1 V c t) := dif_pos h1

/-! ## The region invariant -/

/-- Before position n: at the first point the class invariant (the accumulator at anything); afterwards the
    accumulator at what the point before left, the other scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ others1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (accAt1 V c n hn) ∗ others1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1 fullShare (accAt1 V c (n - 1) (by omega)) ∗ others1 (F := F) c) ∗ (∃ r, prngReg c r)) := by
  cases n with
  | zero => exact absurd rfl hz
  | succ n => rfl

/-! ## The proof data -/

/-- The arrays as the region finds them; after the body each input's buffer at its block and the output's at
    `outAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
/-- The body at any point: the inputs' buffers hold their blocks; the tile index says which case runs; the
    invariant hands the accumulator over at what the point before left and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 4 = 0
  · have h1 : ¬t.val % 4 = 3 := by omega
    rw [Dat.leavesExact_idle (dat1 V c) 7 t (idleAt1_7 t (fun h => h1 ((hcond1_1 t).mp h))) (noFlush1_7 t (fun h => h1 ((hcond1_1 t).mp h)))]
    rw [accAt1_A V c t h0 h1]
    unfold accA; (try dsimp only)
    by_cases hz : t.val = 0
    · rw [PhiS1_castSucc V c t, PhiS1_zero V c _ _ hz]
      refine (sep_mono (PhiA1_open c) .rfl).trans ?_
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverA V c t h0 h1)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverA V c t h0 h1)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    by_cases h1 : t.val % 4 = 3
    · rw [show (dat1 V c).leavesExact 7 t = owns (c : Thread nD τ) (ms1_7 t) fullShare ((dat1 V c).after 7 t) from by
        unfold Dat.leavesExact; rw [liveAt1_7 t ((hcond1_1 t).mpr h1)], after1_7]
      rw [accAt1_C V c t h0 h1, outAt1_C V c t h0 h1]
      unfold accC outC; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC V c t h0 h1 (accBefore1 V c t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverC V c t h0 h1 _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (ocoverC V c t h0 h1 _)
    · rw [Dat.leavesExact_idle (dat1 V c) 7 t (idleAt1_7 t (fun h => h1 ((hcond1_1 t).mp h))) (noFlush1_7 t (fun h => h1 ((hcond1_1 t).mp h)))]
      rw [accAt1_B V c t h0 h1]
      unfold accB; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB V c t h0 h1 (accBefore1 V c t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverB V c t h0 h1 _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ ht]
  refine BIBase.Entails.trans ?_ (PhiA1_close c)
  iintro ⟨⟨HS, Hoth⟩, Hg⟩
  isplitl [HS Hoth]
  · isplitl [HS]
    · iexists _; iexact HS
    iexact Hoth
  iexact Hg

end Cert.KernelIdeal.Path

end
-- ==== Proof.KI.TwoRegions.lean ====
/-
  The two regions run one after the other.

  Between two items of the main function a core holds every unscoped buffer whole at a valuation. The launch
  contents W0 are moved by the host operations (two transposes and two reshapes per cell) to W1; the channel-update
  region replaces its output array (the new channel states) by what its write-backs leave, giving W2; the path-update
  region, which reads that array through an input window, replaces its own output array, giving W3. No item writes
  an argument. The run of the main function ends with every unscoped buffer at W3.
-/
import proofs.«138023_j44126493999752_1_alg».proof.Proof.KI.ChanData
import proofs.«138023_j44126493999752_1_alg».proof.Proof.KI.PathData
import proofs.«138023_j44126493999752_1_alg».proof.Proof.LibRegionHeld
import proofs.«138023_j44126493999752_1_alg».proof.Proof.Gen.KernelIdeal.Regions

set_option maxRecDepth 16384

noncomputable section

namespace Cert.KernelIdeal.Both

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Chan Cert.KernelIdeal.Path
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the segment boundaries -/

/-- At launch. -/
abbrev W0 : Dev nD → Valuation τ sig (Elt F) := fun c b => m (c, b)
/-- After the host operations: the channel-update region's entry. -/
abbrev W1 : Dev nD → Valuation τ sig (Elt F) := fun c => StableHlo.after hostOps0 (W0 m c)
abbrev R1 : (c : Dev nD) → (b : Ref sig .tc) → Buf (Elt F) ((c : Thread nD τ).loc b) := fun c b => W1 m c b
/-- After the channel-update region: its arrays at what the pipeline leaves, every other buffer as entered. -/
def W2 (c : Dev nD) : Valuation τ sig (Elt F) :=
  Pipeline.withArrays spec0 c (W1 m c) fun w => (dat0 (R1 m) c).arrAt w cfg0.N
theorem W2_arr (c : Dev nD) (w : Fin cfg0.W) :
    W2 m c (Proc.devRef .tc (Pipeline.arrRef spec0 w)) = (dat0 (R1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev R2 : (c : Dev nD) → (b : Ref sig .tc) → Buf (Elt F) ((c : Thread nD τ).loc b) := fun c b => W2 m c b
/-- After the path-update region. -/
def W3 (c : Dev nD) : Valuation τ sig (Elt F) :=
  Pipeline.withArrays spec1 c (W2 m c) fun w => (dat1 (R2 m) c).arrAt w cfg1.N
theorem W3_arr (c : Dev nD) (w : Fin cfg1.W) :
    W3 m c (Proc.devRef .tc (Pipeline.arrRef spec1 w)) = (dat1 (R2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- An input window's array is left as the region found it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (R1 m) c).arrAt_in w hw _).trans (A_eq0 (R1 m) c w))
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (R2 m) c).arrAt_in w hw _).trans (A_eq1 (R2 m) c w))

/-! ## The arguments end as launched, and the results are the regions' output arrays -/

theorem W3_main_arg0 (c : Dev nD) : W3 m c (Proc.devRef .tc main_arg0) = m ((c : Thread nD τ).loc main_arg0) :=
  (W3_in m c 2 rfl).trans <| (W2_in m c 1 rfl).trans <| (V1_of m c main_arg0 (by decide)).trans rfl
theorem W3_main_arg1 (c : Dev nD) : W3 m c (Proc.devRef .tc main_arg1) = m ((c : Thread nD τ).loc main_arg1) :=
  (W3_of_ne m c main_arg1 (by decide)).trans <| (W2_in m c 2 rfl).trans <| (V1_of m c main_arg1 (by decide)).trans rfl
theorem W3_main_arg2 (c : Dev nD) : W3 m c (Proc.devRef .tc main_arg2) = m ((c : Thread nD τ).loc main_arg2) :=
  (W3_in m c 0 rfl).trans <| (W2_in m c 0 rfl).trans <| (V1_of m c main_arg2 (by decide)).trans rfl
theorem W3_main_arg3 (c : Dev nD) : W3 m c (Proc.devRef .tc main_arg3) = m ((c : Thread nD τ).loc main_arg3) :=
  (W3_of_ne m c main_arg3 (by decide)).trans <| (W2_of_ne m c main_arg3 (by decide)).trans <| (V1_of m c main_arg3 (by decide)).trans rfl
theorem W3_main_arg4 (c : Dev nD) : W3 m c (Proc.devRef .tc main_arg4) = m ((c : Thread nD τ).loc main_arg4) :=
  (W3_of_ne m c main_arg4 (by decide)).trans <| (W2_of_ne m c main_arg4 (by decide)).trans <| (V1_of m c main_arg4 (by decide)).trans rfl
theorem W3_main_arg5 (c : Dev nD) : W3 m c (Proc.devRef .tc main_arg5) = m ((c : Thread nD τ).loc main_arg5) :=
  (W3_of_ne m c main_arg5 (by decide)).trans <| (W2_of_ne m c main_arg5 (by decide)).trans <| (V1_of m c main_arg5 (by decide)).trans rfl
theorem W3_main_arg6 (c : Dev nD) : W3 m c (Proc.devRef .tc main_arg6) = m ((c : Thread nD τ).loc main_arg6) :=
  (W3_of_ne m c main_arg6 (by decide)).trans <| (W2_of_ne m c main_arg6 (by decide)).trans <| (V1_of m c main_arg6 (by decide)).trans rfl
theorem W3_main_arg7 (c : Dev nD) : W3 m c (Proc.devRef .tc main_arg7) = m ((c : Thread nD τ).loc main_arg7) :=
  (W3_of_ne m c main_arg7 (by decide)).trans <| (W2_of_ne m c main_arg7 (by decide)).trans <| (V1_of m c main_arg7 (by decide)).trans rfl
theorem W3_main_arg8 (c : Dev nD) : W3 m c (Proc.devRef .tc main_arg8) = m ((c : Thread nD τ).loc main_arg8) :=
  (W3_of_ne m c main_arg8 (by decide)).trans <| (W2_of_ne m c main_arg8 (by decide)).trans <| (V1_of m c main_arg8 (by decide)).trans rfl
theorem W3_main_arg9 (c : Dev nD) : W3 m c (Proc.devRef .tc main_arg9) = m ((c : Thread nD τ).loc main_arg9) :=
  (W3_of_ne m c main_arg9 (by decide)).trans <| (W2_of_ne m c main_arg9 (by decide)).trans <| (V1_of m c main_arg9 (by decide)).trans rfl
theorem W3_main_arg10 (c : Dev nD) : W3 m c (Proc.devRef .tc main_arg10) = m ((c : Thread nD τ).loc main_arg10) :=
  (W3_of_ne m c main_arg10 (by decide)).trans <| (W2_of_ne m c main_arg10 (by decide)).trans <| (V1_of m c main_arg10 (by decide)).trans rfl

/-- The second result is the channel-update region's output array: the path-update region reads it and leaves it. -/
theorem W3_main_v8 (c : Dev nD) : W3 m c (Proc.devRef .tc main_v8) = (dat0 (R1 m) c).arrAt 7 cfg0.N :=
  (W3_in m c 1 rfl).trans (W2_arr m c 7)
/-- The first result is the path-update region's output array. -/
theorem W3_main_v9 (c : Dev nD) : W3 m c (Proc.devRef .tc main_v9) = (dat1 (R2 m) c).arrAt 7 cfg1.N :=
  W3_arr m c 7

/-! ## The proof data family and the segments -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R2 m) c
abbrev 𝒱₀ : Variants := Variants.none
abbrev L : GSem nD τ sig → Finset Unit := fun _ => ∅
abbrev lv : GSem nD τ sig → Unit → ℕ := fun _ _ => 0

/-- The host operations as a segment, the generator register and the core's empty debt riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Pipeline.idleRest

set_option backward.isDefEq.respectTransparency.types false in
/-- The channel-update region, entered at W1 and left at W2. -/
def reg0 : Pipeline.RegionSeg (pcfgs (F := F)) adm (pdats m) () defs₀ 𝒱₀ L lv 0 :=
  Pipeline.RegionSeg.ofHeld (pcfgs (F := F)) adm (pdats m) defs₀ 𝒱₀ L lv 0
    launch0.win launch0.block_pos launch0.arr_whole launch0.stage_whole
    (fun c => Pipeline.emp_prefHeld_of_no_table _ rfl c _ _)
    (fun c => body_obligation0 (R1 m) c) (fun _ _ => rfl) (fun _ _ => rfl) (fun _ => rfl)
    (W1 m) (W2 m) (fun _ _ => rfl) (fun c w => (W2_arr m c w).symm)
    (fun c b hb => W2_of_ne m c b fun w e => hb (Finset.mem_image.mpr ⟨w, Finset.mem_univ _, e⟩))
    (fun c => hin0 (R1 m) c) (fun c => hout0 (R1 m) c)

set_option backward.isDefEq.respectTransparency.types false in
/-- The path-update region, entered at W2 and left at W3. -/
def reg1 : Pipeline.RegionSeg (pcfgs (F := F)) adm (pdats m) () defs₀ 𝒱₀ L lv 1 :=
  Pipeline.RegionSeg.ofHeld (pcfgs (F := F)) adm (pdats m) defs₀ 𝒱₀ L lv 1
    launch1.win launch1.block_pos launch1.arr_whole launch1.stage_whole
    (fun c => Pipeline.emp_prefHeld_of_no_table _ rfl c _ _)
    (fun c => body_obligation1 (R2 m) c) (fun _ _ => rfl) (fun _ _ => rfl) (fun _ => rfl)
    (W2 m) (W3 m) (fun _ _ => rfl) (fun c w => (W3_arr m c w).symm)
    (fun c b hb => W3_of_ne m c b fun w e => hb (Finset.mem_image.mpr ⟨w, Finset.mem_univ _, e⟩))
    (fun c => hin1 (R2 m) c) (fun c => hout1 (R2 m) c)

/-- The main function's three segments in order. -/
abbrev segs : List (Pipeline.Seg (pcfgs (F := F)) adm (pdats m) () defs₀ 𝒱₀ L lv) :=
  [ .host (hseg hostOps0 hostOps0_sub hostOps0_fresh (W0 m)), .region (reg0 m), .region (reg1 m) ]

theorem main_run (c : Dev nD) : main (F := F) c = Pipeline.Seg.run (segs m) :=
  main_segs adm (pdats m) () 𝒱₀ L lv _ (reg0 m) (reg1 m) rfl c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debt. -/
abbrev Tlast (c : Dev nD) : sProp 𝕄 := iprop(StableHlo.held (c : Thread nD τ) (Pipeline.ucRefs τ sig) (W3 m c) ∗ ∃ r, prngReg c r)

theorem hlast (c : Dev nD) : (Pipeline.heldIdle (U := UR sig nD τ) (W3 m) c : sProp 𝕄)
    ⊢ iprop(Tlast m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The run -/

set_option backward.isDefEq.respectTransparency.types false in
/-- From any memory with zero counters every weakly fair execution of the main function terminates, nothing
    faulting, and the final memory holds every unscoped buffer at W3. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Pipeline.idleRest c)) (Tₙ := Tlast m)
    (hch := ⟨fun _ => .rfl, fun _ => .rfl, fun _ => .rfl, fun c => hlast m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The run with both results named and every argument as launched. -/
theorem run_named : θ_run defs (onTc (τ := τ) (main (F := F))) ⟨m, fun _ => 0, ρ⟩ (fun r => ∀ c : Dev nD,
      r.2.mem ((c.tc : Thread nD τ).loc main_v9) = (dat1 (R2 m) c).arrAt 7 cfg1.N
      ∧ r.2.mem ((c.tc : Thread nD τ).loc main_v8) = (dat0 (R1 m) c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v9 (by decide))).trans (W3_main_v9 m c),
     (h c _ (mem_uc main_v8 (by decide))).trans (W3_main_v8 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c),
     (h c _ (mem_uc main_arg9 (by decide))).trans (W3_main_arg9 m c),
     (h c _ (mem_uc main_arg10 (by decide))).trans (W3_main_arg10 m c)⟩) (run_all m ρ)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2.2) (run_named m ρ)

end Cert.KernelIdeal.Both

end
-- ==== Proof.KI.ChanPieces.lean ====
/-
  The channel-update region: the stores each control case makes, read back as the body's arithmetic.

  Every store of the body goes through the whole-buffer rectangle at zero offsets, and every load reads a whole
  buffer. So what a case leaves in the accumulator is the tile's update of what the accumulator held (at tile 0, of
  the zero block the case has just stored), and what the last tile leaves in the output window is the gated update
  over the accumulator it has just completed.
-/
import proofs.«138023_j44126493999752_1_alg».proof.Proof.KI.ChanData
import Idealize.ShloMosaic.Lib.Pipeline.Value

set_option maxRecDepth 16384

noncomputable section

namespace Cert.KernelIdeal.Chan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-- The offsets of a whole-buffer rectangle of rank 2 are zero. -/
theorem zero_off2 : (![0, 0] : Fin 2 → Nat) = fun _ => 0 := funext fun a => by fin_cases a <;> rfl
/-- The offsets of a whole-buffer rectangle of rank 3 are zero. -/
theorem zero_off3 : (![0, 0, 0] : Fin 3 → Nat) = fun _ => 0 := funext fun a => by fin_cases a <;> rfl

/-- Tile 0: the accumulator is zeroed, read back, and the tile's partial product added. -/
theorem accA_eq (c : Dev nD) (t : Fin cfg0.N) (h0 : t.val % 4 = 0) (h1 : ¬t.val % 4 = 3) :
    accA V c t h0 h1 = k0_pay2 (iblk0 V c 1 t) (iblk0 V c 0 t) (k0_pay1 (F := F)) := by
  unfold accA
  rw [View.read_writes_eq_canon _ _ _ (scoverA V c t h0 h1)]
  unfold runA kernelRun0_A
  dsimp only
  sl_unfold_words
  rw [View.canon_cons_unit_zero (S := S32x2048) zero_off2, View.readCov_unit_zero (S := S32x2048) _ zero_off2]
  simp only [View.readAt_eq_ld, (hs0_0 t).read_unread, (hs0_1 t).read_unread,
    View.ld_unit_zero (S := S1x512x32) zero_off3, View.ld_unit_zero (S := S1x512x2048) zero_off3]

/-- Tiles 1 and 2: the tile's partial product is added to what the accumulator held. -/
theorem accB_eq (c : Dev nD) (t : Fin cfg0.N) (h0 : ¬t.val % 4 = 0) (h1 : ¬t.val % 4 = 3) (xs : Vec F S32x2048 .f32) :
    accB V c t h0 h1 xs = k0_pay2 (iblk0 V c 1 t) (iblk0 V c 0 t) xs := by
  unfold accB
  rw [View.read_writes_eq_canon _ _ _ (scoverB V c t h0 h1 xs)]
  unfold runB kernelRun0_B
  dsimp only
  sl_unfold_words
  rw [View.canon_unit_zero (S := S32x2048) zero_off2]
  simp only [View.readAt_eq_ld, (hs0_0 t).read_unread, (hs0_1 t).read_unread, (Memref.isWhole_whole cc0_scratch0).read_unread,
    View.ld_unit_zero (S := S1x512x32) zero_off3, View.ld_unit_zero (S := S1x512x2048) zero_off3,
    View.ld_unit_zero (S := S32x2048) zero_off2]

/-- Tile 3, the accumulator: the same update. -/
theorem accC_eq (c : Dev nD) (t : Fin cfg0.N) (h0 : ¬t.val % 4 = 0) (h1 : t.val % 4 = 3) (xs : Vec F S32x2048 .f32) :
    accC V c t h0 h1 xs = k0_pay2 (iblk0 V c 1 t) (iblk0 V c 0 t) xs := by
  unfold accC
  rw [View.read_writes_eq_canon _ _ _ (scoverC V c t h0 h1 xs)]
  unfold runC kernelRun0_C
  dsimp only
  sl_unfold_words

  rw [View.canon_unit_zero (S := S32x2048) zero_off2]
  simp only [View.readAt_eq_ld, (hs0_0 t).read_unread, (hs0_1 t).read_unread, (Memref.isWhole_whole cc0_scratch0).read_unread,
    View.ld_unit_zero (S := S1x512x32) zero_off3, View.ld_unit_zero (S := S1x512x2048) zero_off3,
    View.ld_unit_zero (S := S32x2048) zero_off2]

/-- Tile 3, the output window: the gated update over the completed accumulator, read back from its store. -/
theorem outC_eq (c : Dev nD) (t : Fin cfg0.N) (h0 : ¬t.val % 4 = 0) (h1 : t.val % 4 = 3) (xs : Vec F S32x2048 .f32) :
    outC V c t h0 h1 xs = k0_pay3 (k0_pay4 (k0_pay2 (iblk0 V c 1 t) (iblk0 V c 0 t) xs) (iblk0 V c 2 t) (iblk0 V c 3 t) (iblk0 V c 5 t) (iblk0 V c 4 t) (iblk0 V c 6 t)) := by
  unfold outC
  rw [View.read_writes_eq_canon _ _ _ (ocoverC V c t h0 h1 xs)]
  unfold runC kernelRun0_C
  dsimp only
  sl_unfold_words

  rw [View.canon_unit_zero (S := S1x2048x32) zero_off3]
  simp only [View.readAt_eq_ld, (hs0_0 t).read_unread, (hs0_1 t).read_unread, (hs0_2 t).read_unread, (hs0_3 t).read_unread,
    (hs0_4 t).read_unread, (hs0_5 t).read_unread, (hs0_6 t).read_unread, (Memref.isWhole_whole cc0_scratch0).read_unread,
    View.readCov_unit_zero (S := S32x2048) _ zero_off2,
    View.ld_unit_zero (S := S1x512x32) zero_off3, View.ld_unit_zero (S := S1x512x2048) zero_off3,
    View.ld_unit_zero (S := S1x2048x32) zero_off3, View.ld_unit_zero (S := S32x96) zero_off2,
    View.ld_unit_zero (S := S1x96) zero_off2, View.ld_unit_zero (S := S32x2048) zero_off2]

end Cert.KernelIdeal.Chan

end
-- ==== Proof.Spec.lean ====
/-
  What both programs compute, index by index, on the extended reals.

  A bipartite message-passing step with gated recurrent updates. With adjacency A[b,p,c], path states P[b,p,·]
  and channel states C[b,c,·]:
    * the channel message is  M[b,c,h] = Σ_p A[b,p,c] · P[b,p,h];
    * the new channel state is the gated cell of input C[b,c,·] and hidden state M[b,c,·];
    * the path message is  N[b,p,h] = Σ_c A[b,p,c] · C'[b,c,h]  over the NEW channel states C';
    * the new path state is the gated cell of input P[b,p,·] and hidden state N[b,p,·].
  The gated cell with weights W_i, W_h (96 rows of 32) and biases b_i, b_h (96): with g_i = x·W_iᵀ + b_i and
  g_h = h·W_hᵀ + b_h, each cut into three runs of 32,
    r = σ(g_i¹ + g_h¹),  z = σ(g_i² + g_h²),  n = tanh(g_i³ + r · g_h³),  result = (1 − z) · n + z · h,
  σ the logistic function 1 / (1 + e^(−x)).
-/
import Idealize.ShloMosaic.PureOps.Ideal
import Idealize.ShloMosaic.Lib.ValueIdx

noncomputable section

namespace Cert.Spec

open Idealize.ShloMosaic Idealize.ShloMosaic.ValueIdx

/-- States: 16 batches of 2048 rows of 32. -/
abbrev St : Shape := ⟨3, ![16, 2048, 32]⟩
/-- Adjacency: 16 batches of 2048 paths by 2048 channels. -/
abbrev Adj : Shape := ⟨3, ![16, 2048, 2048]⟩
/-- A cell's weight: 96 rows of 32. -/
abbrev Wt : Shape := ⟨2, ![96, 32]⟩
/-- A cell's bias: 96. -/
abbrev Bi : Shape := ⟨1, ![96]⟩

/-- The literal 1.0, kept as its word. -/
abbrev one : Ideal .f32 := Ideal.ofBits .f32 0x3F800000#32

/-- The three runs of 32 among the 96 gate rows. -/
def lo (e : Fin 32) : Fin 96 := ⟨e.val, by omega⟩
def mid (e : Fin 32) : Fin 96 := ⟨32 + e.val, by omega⟩
def hi (e : Fin 32) : Fin 96 := ⟨64 + e.val, by omega⟩

/-- A gate's pre-activation: row j of the weight applied to x, plus the bias. -/
def gate (x : Fin 32 → Ideal .f32) (w : FVec Ideal Wt .f32) (b : FVec Ideal Bi .f32) (j : Fin 96) : Ideal .f32 :=
  (∑ k : Fin 32, x k * w (ix2 j k)) + b (ix1 j)

/-- The gated recurrent cell at one row: input x, hidden state h, at component e. -/
def cell (x h : Fin 32 → Ideal .f32) (wi wh : FVec Ideal Wt .f32) (bi bh : FVec Ideal Bi .f32) (e : Fin 32) : Ideal .f32 :=
  (one - Ideal.logistic (gate x wi bi (mid e) + gate h wh bh (mid e)))
      * Ideal.tanh (gate x wi bi (hi e) + Ideal.logistic (gate x wi bi (lo e) + gate h wh bh (lo e)) * gate h wh bh (hi e))
    + Ideal.logistic (gate x wi bi (mid e) + gate h wh bh (mid e)) * h e

/-- The channel message: for batch b, channel c, component h, the sum over the paths. -/
def chanMsg (adj : FVec Ideal Adj .f32) (path : FVec Ideal St .f32) (b : Fin 16) (c : Fin 2048) (h : Fin 32) : Ideal .f32 :=
  ∑ p : Fin 2048, adj (ix3 b p c) * path (ix3 b p h)

/-- The new channel states. -/
def newChan (adj : FVec Ideal Adj .f32) (path chan : FVec Ideal St .f32) (wi wh : FVec Ideal Wt .f32) (bi bh : FVec Ideal Bi .f32) :
    FVec Ideal St .f32 := fun i =>
  cell (fun k => chan (ix3 (i 0) (i 1) k)) (fun k => chanMsg adj path (i 0) (i 1) k) wi wh bi bh (i 2)

/-- The path message over given channel states: for batch b, path p, component h, the sum over the channels. -/
def pathMsg (adj : FVec Ideal Adj .f32) (chan' : FVec Ideal St .f32) (b : Fin 16) (p : Fin 2048) (h : Fin 32) : Ideal .f32 :=
  ∑ c : Fin 2048, adj (ix3 b p c) * chan' (ix3 b c h)

/-- The new path states, over the new channel states `chan'`. -/
def newPath (adj : FVec Ideal Adj .f32) (path chan' : FVec Ideal St .f32) (wi wh : FVec Ideal Wt .f32) (bi bh : FVec Ideal Bi .f32) :
    FVec Ideal St .f32 := fun i =>
  cell (fun k => path (ix3 (i 0) (i 1) k)) (fun k => pathMsg adj chan' (i 0) (i 1) k) wi wh bi bh (i 2)

end Cert.Spec

end
-- ==== Proof.KI.ChanCell.lean ====
/-
  The channel-update body's arithmetic read at an index, on the extended reals.

  The accumulator is a 32 × 2048 array indexed (component, channel). One tile adds to entry (h, c) the sum over the
  tile's 512 paths k of  path[k,h] · adj[k,c]  (the path tile transposed, times the adjacency tile; the changes of
  float format are the identity). At the last tile row c of the transposed accumulator is the hidden state of the
  gated cell whose input is row c of the channel states; the weights arrive transposed (32 × 96) and the biases as
  1 × 96 rows.
-/
import proofs.«138023_j44126493999752_1_alg».proof.Proof.Gen.KernelIdeal.Skeleton
import proofs.«138023_j44126493999752_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.ChanCell

open Idealize.ShloMosaic Idealize.ShloMosaic.ValueIdx
open Cert.KernelIdeal Cert.KernelIdeal.Gen

/-! ## The tile product's contraction, axis by axis -/

theorem lhsA_0 (i : S32x2048.Idx) (q : dot_S32x512_S512x2048_S32x2048_1_0_0_1_n_n.contr.Idx) :
    (dot_S32x512_S512x2048_S32x2048_1_0_0_1_n_n.lhsIdx i q 0).val = (i 0).val := by
  unfold DotDims.lhsIdx
  rw [dif_neg (show ¬(0 : Fin S32x512.rank) ∈ dot_S32x512_S512x2048_S32x2048_1_0_0_1_n_n.lhsBatch by decide), dif_pos (show (0 : Fin S32x512.rank) ∈ dot_S32x512_S512x2048_S32x2048_1_0_0_1_n_n.lhsNonContracting by decide)]
  rfl
theorem lhsA_1 (i : S32x2048.Idx) (q : dot_S32x512_S512x2048_S32x2048_1_0_0_1_n_n.contr.Idx) :
    (dot_S32x512_S512x2048_S32x2048_1_0_0_1_n_n.lhsIdx i q 1).val = (q ⟨0, by decide⟩).val :=
  dot_S32x512_S512x2048_S32x2048_1_0_0_1_n_n.lhsIdx_val_of_single rfl i q
theorem rhsA_0 (i : S32x2048.Idx) (q : dot_S32x512_S512x2048_S32x2048_1_0_0_1_n_n.contr.Idx) :
    (dot_S32x512_S512x2048_S32x2048_1_0_0_1_n_n.rhsIdx i q 0).val = (q ⟨0, by decide⟩).val :=
  dot_S32x512_S512x2048_S32x2048_1_0_0_1_n_n.rhsIdx_val_of_single rfl i q
theorem rhsA_1 (i : S32x2048.Idx) (q : dot_S32x512_S512x2048_S32x2048_1_0_0_1_n_n.contr.Idx) :
    (dot_S32x512_S512x2048_S32x2048_1_0_0_1_n_n.rhsIdx i q 1).val = (i 1).val := by
  unfold DotDims.rhsIdx
  rw [dif_neg (show ¬(1 : Fin S512x2048.rank) ∈ dot_S32x512_S512x2048_S32x2048_1_0_0_1_n_n.rhsBatch by decide), dif_pos (show (1 : Fin S512x2048.rank) ∈ dot_S32x512_S512x2048_S32x2048_1_0_0_1_n_n.rhsNonContracting by decide)]
  rfl

/-- The tile product into the zero array at entry (h, c): the sum over the 512 paths. -/
theorem matA_apply (a : FVec Ideal S32x512 .bf16) (b : FVec Ideal S512x2048 .bf16) (h : Fin 32) (cc : Fin 2048) :
    matmul dot_S32x512_S512x2048_S32x2048_1_0_0_1_n_n none a b (constant (F := Ideal) S32x2048 .f32 0x00000000#32) (ix2 h cc)
      = ∑ k : Fin 512, a (ix2 h k) * b (ix2 k cc) := by
  refine (Ideal.matmul_constant_zero_apply dot_S32x512_S512x2048_S32x2048_1_0_0_1_n_n none a b (ix2 h cc)).trans ?_
  rw [← Equiv.sum_comp (contrEquiv1 dot_S32x512_S512x2048_S32x2048_1_0_0_1_n_n 512 rfl rfl).symm]
  refine Finset.sum_congr rfl fun k _ => ?_
  have hk := contrEquiv1_symm_val dot_S32x512_S512x2048_S32x2048_1_0_0_1_n_n 512 rfl rfl k
  have el : dot_S32x512_S512x2048_S32x2048_1_0_0_1_n_n.lhsIdx (ix2 h cc) ((contrEquiv1 dot_S32x512_S512x2048_S32x2048_1_0_0_1_n_n 512 rfl rfl).symm k) = ix2 h k := funext fun a => Fin.ext (by
    match a with
    | ⟨0, _⟩ => exact lhsA_0 _ _
    | ⟨1, _⟩ => exact (lhsA_1 _ _).trans hk)
  have er : dot_S32x512_S512x2048_S32x2048_1_0_0_1_n_n.rhsIdx (ix2 h cc) ((contrEquiv1 dot_S32x512_S512x2048_S32x2048_1_0_0_1_n_n 512 rfl rfl).symm k) = ix2 k cc := funext fun a => Fin.ext (by
    match a with
    | ⟨0, _⟩ => exact (rhsA_0 _ _).trans hk
    | ⟨1, _⟩ => exact rhsA_1 _ _)
  rw [el, er]

/-! ## The gate product's contraction, axis by axis -/

theorem lhsB_0 (i : S2048x96.Idx) (q : dot_S2048x32_S32x96_S2048x96_1_0_0_1_n_n.contr.Idx) :
    (dot_S2048x32_S32x96_S2048x96_1_0_0_1_n_n.lhsIdx i q 0).val = (i 0).val := by
  unfold DotDims.lhsIdx
  rw [dif_neg (show ¬(0 : Fin S2048x32.rank) ∈ dot_S2048x32_S32x96_S2048x96_1_0_0_1_n_n.lhsBatch by decide), dif_pos (show (0 : Fin S2048x32.rank) ∈ dot_S2048x32_S32x96_S2048x96_1_0_0_1_n_n.lhsNonContracting by decide)]
  rfl
theorem lhsB_1 (i : S2048x96.Idx) (q : dot_S2048x32_S32x96_S2048x96_1_0_0_1_n_n.contr.Idx) :
    (dot_S2048x32_S32x96_S2048x96_1_0_0_1_n_n.lhsIdx i q 1).val = (q ⟨0, by decide⟩).val :=
  dot_S2048x32_S32x96_S2048x96_1_0_0_1_n_n.lhsIdx_val_of_single rfl i q
theorem rhsB_0 (i : S2048x96.Idx) (q : dot_S2048x32_S32x96_S2048x96_1_0_0_1_n_n.contr.Idx) :
    (dot_S2048x32_S32x96_S2048x96_1_0_0_1_n_n.rhsIdx i q 0).val = (q ⟨0, by decide⟩).val :=
  dot_S2048x32_S32x96_S2048x96_1_0_0_1_n_n.rhsIdx_val_of_single rfl i q
theorem rhsB_1 (i : S2048x96.Idx) (q : dot_S2048x32_S32x96_S2048x96_1_0_0_1_n_n.contr.Idx) :
    (dot_S2048x32_S32x96_S2048x96_1_0_0_1_n_n.rhsIdx i q 1).val = (i 1).val := by
  unfold DotDims.rhsIdx
  rw [dif_neg (show ¬(1 : Fin S32x96.rank) ∈ dot_S2048x32_S32x96_S2048x96_1_0_0_1_n_n.rhsBatch by decide), dif_pos (show (1 : Fin S32x96.rank) ∈ dot_S2048x32_S32x96_S2048x96_1_0_0_1_n_n.rhsNonContracting by decide)]
  rfl

/-- The gate product into the zero array at entry (r, j): the sum over the 32 components. -/
theorem matB_apply (a : FVec Ideal S2048x32 .bf16) (b : FVec Ideal S32x96 .bf16) (r : Fin 2048) (j : Fin 96) :
    matmul dot_S2048x32_S32x96_S2048x96_1_0_0_1_n_n none a b (constant (F := Ideal) S2048x96 .f32 0x00000000#32) (ix2 r j)
      = ∑ k : Fin 32, a (ix2 r k) * b (ix2 k j) := by
  refine (Ideal.matmul_constant_zero_apply dot_S2048x32_S32x96_S2048x96_1_0_0_1_n_n none a b (ix2 r j)).trans ?_
  rw [← Equiv.sum_comp (contrEquiv1 dot_S2048x32_S32x96_S2048x96_1_0_0_1_n_n 32 rfl rfl).symm]
  refine Finset.sum_congr rfl fun k _ => ?_
  have hk := contrEquiv1_symm_val dot_S2048x32_S32x96_S2048x96_1_0_0_1_n_n 32 rfl rfl k
  have el : dot_S2048x32_S32x96_S2048x96_1_0_0_1_n_n.lhsIdx (ix2 r j) ((contrEquiv1 dot_S2048x32_S32x96_S2048x96_1_0_0_1_n_n 32 rfl rfl).symm k) = ix2 r k := funext fun a => Fin.ext (by
    match a with
    | ⟨0, _⟩ => exact lhsB_0 _ _
    | ⟨1, _⟩ => exact (lhsB_1 _ _).trans hk)
  have er : dot_S2048x32_S32x96_S2048x96_1_0_0_1_n_n.rhsIdx (ix2 r j) ((contrEquiv1 dot_S2048x32_S32x96_S2048x96_1_0_0_1_n_n 32 rfl rfl).symm k) = ix2 k j := funext fun a => Fin.ext (by
    match a with
    | ⟨0, _⟩ => exact (rhsB_0 _ _).trans hk
    | ⟨1, _⟩ => exact rhsB_1 _ _)
  rw [el, er]

/-! ## The accumulator: zeroed, then one tile added -/

/-- The zeroed accumulator. -/
theorem pay1_apply (h : Fin 32) (cc : Fin 2048) : (k0_pay1 (F := Ideal)) (ix2 h cc) = 0 := by
  unfold k0_pay1
  refine (congrFun (shapeCast_self _ _) (ix2 h cc)).trans ?_
  exact Ideal.ofBits_zero_f32

/-- One tile's update of the accumulator at entry (h, c). -/
theorem pay2_apply (xp : FVec Ideal S1x512x32 .f32) (xa : FVec Ideal S1x512x2048 .f32) (acc : FVec Ideal S32x2048 .f32)
    (h : Fin 32) (cc : Fin 2048) :
    k0_pay2 xp xa acc (ix2 h cc) = acc (ix2 h cc) + ∑ k : Fin 512, xp (ix3 0 k h) * xa (ix3 0 k cc) := by
  unfold k0_pay2
  refine (congrFun (shapeCast_self _ _) (ix2 h cc)).trans ?_
  refine (addf_apply _ _ _).trans ?_
  refine congrArg (acc (ix2 h cc) + ·) ?_
  refine (matA_apply _ _ h cc).trans ?_
  refine Finset.sum_congr rfl fun k _ => ?_
  refine congrArg₂ (· * ·) ?_ ?_
  · refine (truncf_apply (ψ := .bf16) _ bitsLt_bf16_f32 _).trans ?_
    refine (transpose_ix2_apply _ _ h k).trans ?_
    exact shapeCast_1ab_ab_apply _ _ k h
  · refine (truncf_apply (ψ := .bf16) _ bitsLt_bf16_f32 _).trans ?_
    exact shapeCast_1ab_ab_apply _ _ k cc

/-! ## The gate rows -/

/-- The 96 gate pre-activations of every row: the rows times the transposed weight, plus the bias row. -/
def gateArr (X : FVec Ideal S2048x32 .f32) (WT : FVec Ideal S32x96 .f32) (B2 : FVec Ideal S1x96 .f32) : FVec Ideal S2048x96 .f32 :=
  addf (matmul dot_S2048x32_S32x96_S2048x96_1_0_0_1_n_n none (truncf .bf16 X bitsLt_bf16_f32)
      (truncf .bf16 (shapeCast S32x96 WT shapeCasts_S32x96_S32x96) bitsLt_bf16_f32) (constant S2048x96 .f32 0x00000000#32))
    (broadcastTo S2048x96 (shapeCast S1x96 B2 shapeCasts_S1x96_S1x96) broadcasts_S1x96_S2048x96)

/-- Row r of the gate array at gate j is the gate's pre-activation on row r of the input. -/
theorem gateArr_apply (X : FVec Ideal S2048x32 .f32) (WT : FVec Ideal S32x96 .f32) (B2 : FVec Ideal S1x96 .f32)
    (w : FVec Ideal Spec.Wt .f32) (b : FVec Ideal Spec.Bi .f32)
    (hw : ∀ (k : Fin 32) (j : Fin 96), WT (ix2 k j) = w (ix2 j k)) (hb : ∀ j : Fin 96, B2 (ix2 0 j) = b (ix1 j))
    (r : Fin 2048) (xrow : Fin 32 → Ideal .f32) (hX : ∀ k : Fin 32, X (ix2 r k) = xrow k) (j : Fin 96) :
    gateArr X WT B2 (ix2 r j) = Spec.gate xrow w b j := by
  unfold gateArr Spec.gate
  refine (addf_apply _ _ _).trans ?_
  refine congrArg₂ (· + ·) ?_ ?_
  · refine (matB_apply _ _ r j).trans ?_
    refine Finset.sum_congr rfl fun k _ => ?_
    refine congrArg₂ (· * ·) ?_ ?_
    · exact (truncf_apply (ψ := .bf16) _ bitsLt_bf16_f32 _).trans (hX k)
    · refine (truncf_apply (ψ := .bf16) _ bitsLt_bf16_f32 _).trans ?_
      refine (congrFun (shapeCast_self _ _) (ix2 k j)).trans ?_
      exact hw k j
  · refine (broadcastTo_1b_ab_apply _ _ r j).trans ?_
    refine (congrFun (shapeCast_self _ _) (ix2 0 j)).trans ?_
    exact hb j

/-! ## The cell over the gate rows -/

/-- The gated update of every row from the two gate arrays and the hidden states: the three runs of 32 gates cut out,
    r = σ(i¹ + h¹), z = σ(i² + h²), n = tanh(i³ + r · h³), result (1 − z) · n + z · H. -/
def cellArr (Gi Gh : FVec Ideal S2048x96 .f32) (H : FVec Ideal S2048x32 .f32) : FVec Ideal S2048x32 .f32 :=
  addf
    (mulf
      (subf (broadcast S2048x32 (Scalar.ofBits .f32 0x3F800000#32))
        (logistic (addf (extractStridedSlice S2048x32 ![0, 32] Gi slices_S2048x96_o0_32_S2048x32)
          (extractStridedSlice S2048x32 ![0, 32] Gh slices_S2048x96_o0_32_S2048x32))))
      (tanh (addf (extractStridedSlice S2048x32 ![0, 64] Gi slices_S2048x96_o0_64_S2048x32)
        (mulf
          (logistic (addf (extractStridedSlice S2048x32 ![0, 0] Gi slices_S2048x96_o0_0_S2048x32)
            (extractStridedSlice S2048x32 ![0, 0] Gh slices_S2048x96_o0_0_S2048x32)))
          (extractStridedSlice S2048x32 ![0, 64] Gh slices_S2048x96_o0_64_S2048x32)))))
    (mulf
      (logistic (addf (extractStridedSlice S2048x32 ![0, 32] Gi slices_S2048x96_o0_32_S2048x32)
        (extractStridedSlice S2048x32 ![0, 32] Gh slices_S2048x96_o0_32_S2048x32)))
      H)

/-- The three cuts read at (r, e): the gate array's row r at the first, second and third run's gate e. -/
theorem cut_lo (G : FVec Ideal S2048x96 .f32) (r : Fin 2048) (e : Fin 32) :
    extractStridedSlice S2048x32 ![0, 0] G slices_S2048x96_o0_0_S2048x32 (ix2 r e) = G (ix2 r (Spec.lo e)) :=
  slice2_axis1_apply 0 G slices_S2048x96_o0_0_S2048x32 r e (Spec.lo e) (Nat.zero_add _).symm
theorem cut_mid (G : FVec Ideal S2048x96 .f32) (r : Fin 2048) (e : Fin 32) :
    extractStridedSlice S2048x32 ![0, 32] G slices_S2048x96_o0_32_S2048x32 (ix2 r e) = G (ix2 r (Spec.mid e)) :=
  slice2_axis1_apply 32 G slices_S2048x96_o0_32_S2048x32 r e (Spec.mid e) rfl
theorem cut_hi (G : FVec Ideal S2048x96 .f32) (r : Fin 2048) (e : Fin 32) :
    extractStridedSlice S2048x32 ![0, 64] G slices_S2048x96_o0_64_S2048x32 (ix2 r e) = G (ix2 r (Spec.hi e)) :=
  slice2_axis1_apply 64 G slices_S2048x96_o0_64_S2048x32 r e (Spec.hi e) rfl

/-- The cell array at (r, e), from row r of the two gate arrays and the hidden state's entry. -/
theorem cellArr_apply (Gi Gh : FVec Ideal S2048x96 .f32) (H : FVec Ideal S2048x32 .f32) (r : Fin 2048) (e : Fin 32) :
    cellArr Gi Gh H (ix2 r e)
      = (Spec.one - Ideal.logistic (Gi (ix2 r (Spec.mid e)) + Gh (ix2 r (Spec.mid e))))
            * Ideal.tanh (Gi (ix2 r (Spec.hi e))
                + Ideal.logistic (Gi (ix2 r (Spec.lo e)) + Gh (ix2 r (Spec.lo e))) * Gh (ix2 r (Spec.hi e)))
          + Ideal.logistic (Gi (ix2 r (Spec.mid e)) + Gh (ix2 r (Spec.mid e))) * H (ix2 r e) := by
  rw [← cut_lo Gi r e, ← cut_lo Gh r e, ← cut_mid Gi r e, ← cut_mid Gh r e, ← cut_hi Gi r e, ← cut_hi Gh r e]
  rfl

/-- The body's stored value is the cell array over the two gate arrays. -/
theorem pay4_eq (acc : FVec Ideal S32x2048 .f32) (x : FVec Ideal S1x2048x32 .f32)
    (wiT whT : FVec Ideal S32x96 .f32) (bi2 bh2 : FVec Ideal S1x96 .f32) :
    k0_pay4 acc x wiT bi2 whT bh2
      = cellArr (gateArr (shapeCast S2048x32 x shapeCasts_S1x2048x32_S2048x32) wiT bi2)
          (gateArr (transpose S2048x32 [1, 0] acc transposes_S32x2048_p1_0_S2048x32) whT bh2)
          (transpose S2048x32 [1, 0] acc transposes_S32x2048_p1_0_S2048x32) := rfl

/-- The gated update stored at the last tile, at row r and component e. -/
theorem pay34_apply (acc : FVec Ideal S32x2048 .f32) (x : FVec Ideal S1x2048x32 .f32)
    (wiT whT : FVec Ideal S32x96 .f32) (bi2 bh2 : FVec Ideal S1x96 .f32)
    (wi wh : FVec Ideal Spec.Wt .f32) (bi bh : FVec Ideal Spec.Bi .f32)
    (hwi : ∀ (k : Fin 32) (j : Fin 96), wiT (ix2 k j) = wi (ix2 j k))
    (hwh : ∀ (k : Fin 32) (j : Fin 96), whT (ix2 k j) = wh (ix2 j k))
    (hbi : ∀ j : Fin 96, bi2 (ix2 0 j) = bi (ix1 j))
    (hbh : ∀ j : Fin 96, bh2 (ix2 0 j) = bh (ix1 j))
    (r : Fin 2048) (e : Fin 32) :
    k0_pay3 (k0_pay4 acc x wiT bi2 whT bh2) (ix3 0 r e)
      = Spec.cell (fun k => x (ix3 0 r k)) (fun k => acc (ix2 k r)) wi wh bi bh e := by
  have gi : ∀ j : Fin 96, gateArr (shapeCast S2048x32 x shapeCasts_S1x2048x32_S2048x32) wiT bi2 (ix2 r j)
      = Spec.gate (fun k => x (ix3 0 r k)) wi bi j :=
    gateArr_apply _ wiT bi2 wi bi hwi hbi r _ (fun k => shapeCast_1ab_ab_apply _ _ r k)
  have gh : ∀ j : Fin 96, gateArr (transpose S2048x32 [1, 0] acc transposes_S32x2048_p1_0_S2048x32) whT bh2 (ix2 r j)
      = Spec.gate (fun k => acc (ix2 k r)) wh bh j :=
    gateArr_apply _ whT bh2 wh bh hwh hbh r _ (fun k => transpose_ix2_apply _ _ r k)
  unfold k0_pay3
  refine (shapeCast_ab_1ab_apply _ _ 0 r e).trans ?_
  rw [pay4_eq]
  refine (cellArr_apply _ _ _ r e).trans ?_
  rw [gi (Spec.mid e), gi (Spec.hi e), gi (Spec.lo e), gh (Spec.mid e), gh (Spec.hi e), gh (Spec.lo e),
    transpose_ix2_apply acc _ r e]
  rfl

end Cert.KernelIdeal.ChanCell

end
-- ==== Proof.KI.ChanValue.lean ====
/-
  The channel-update region: what it leaves in its output array is the specification's new channel states.

  Point t = 4·b + j of the grid works on batch b and on paths 512·j … 512·j + 511. The accumulator, indexed
  (component h, channel c), holds after that point the sum over the paths p < 512·(j+1) of path[b,p,h] · adj[b,p,c]:
  zero plus the first tile's sum at j = 0, one more tile's sum at each later tile. At j = 3 this is the whole
  channel message of batch b, the gated cell is applied row by row to the batch's channel states, and the block of
  2048 rows is written back as block b of the output array; the 16 blocks tile it.
-/
import proofs.«138023_j44126493999752_1_alg».proof.Proof.KI.ChanPieces
import proofs.«138023_j44126493999752_1_alg».proof.Proof.KI.ChanCell
import proofs.«138023_j44126493999752_1_alg».proof.Proof.Spec
import Idealize.ShloMosaic.Lib.ValueIdx
import Mathlib.Algebra.BigOperators.Fin
import Mathlib.Algebra.BigOperators.Intervals

set_option maxRecDepth 16384

noncomputable section

namespace Cert.KernelIdeal.Chan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-! ## The arrays and the blocks, by their literal types -/

/-- The adjacency array: 16 batches of 2048 paths by 2048 channels. -/
abbrev adjArr (c : Dev nD) : FVec Ideal S16x2048x2048 .f32 := V c main_arg2
/-- The path states: 16 batches of 2048 rows of 32. -/
abbrev pathArr (c : Dev nD) : FVec Ideal S16x2048x32 .f32 := V c main_arg0
/-- The channel states: 16 batches of 2048 rows of 32. -/
abbrev chanArr (c : Dev nD) : FVec Ideal S16x2048x32 .f32 := V c main_arg1
/-- The input weight, transposed: 32 by 96. -/
abbrev wiArr (c : Dev nD) : FVec Ideal S32x96 .f32 := V c main_v0
/-- The hidden weight, transposed: 32 by 96. -/
abbrev whArr (c : Dev nD) : FVec Ideal S32x96 .f32 := V c main_v1
/-- The input bias as one row of 96. -/
abbrev biArr (c : Dev nD) : FVec Ideal S1x96 .f32 := V c main_v2
/-- The hidden bias as one row of 96. -/
abbrev bhArr (c : Dev nD) : FVec Ideal S1x96 .f32 := V c main_v3

/-- The adjacency tile of a point: 512 paths by all channels of one batch. -/
abbrev adjBlk (c : Dev nD) (t : Fin cfg0.N) : FVec Ideal S1x512x2048 .f32 := iblk0 V c 0 t
/-- The path-states tile of a point: 512 rows of one batch. -/
abbrev pathBlk (c : Dev nD) (t : Fin cfg0.N) : FVec Ideal S1x512x32 .f32 := iblk0 V c 1 t
/-- The channel states of a point's batch. -/
abbrev chanBlk (c : Dev nD) (t : Fin cfg0.N) : FVec Ideal S1x2048x32 .f32 := iblk0 V c 2 t
abbrev wiBlk (c : Dev nD) (t : Fin cfg0.N) : FVec Ideal S32x96 .f32 := iblk0 V c 3 t
abbrev whBlk (c : Dev nD) (t : Fin cfg0.N) : FVec Ideal S32x96 .f32 := iblk0 V c 4 t
abbrev biBlk (c : Dev nD) (t : Fin cfg0.N) : FVec Ideal S1x96 .f32 := iblk0 V c 5 t
abbrev bhBlk (c : Dev nD) (t : Fin cfg0.N) : FVec Ideal S1x96 .f32 := iblk0 V c 6 t

/-! ## Where a block sits in its array -/

/-- The block indices over the grid: point t is batch t / 4 and tile t mod 4; the adjacency and path tiles move with
    both, the channel states and the output with the batch, the weights and biases not at all. -/
theorem blockIndex : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = t.val % 4 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = t.val / 4 ∧ win0_7.index t (1 : Fin 3) = 0 ∧ win0_7.index t (2 : Fin 3) = 0) :=
  (by decide +kernel : ∀ t : Fin grid0.N, _)

/-- The adjacency tile at (0, k, cc) is the array at (batch, 512 · tile + k, cc). -/
theorem adjBlk_apply (c : Dev nD) (t : Fin cfg0.N) (k : Fin 512) (cc : Fin 2048) (b : Fin 16) (p : Fin 2048)
    (hb : b.val = t.val / 4) (hp : p.val = 512 * (t.val % 4) + k.val) :
    adjBlk V c t (ix3 0 k cc) = adjArr V c (ix3 b p cc) := by
  obtain ⟨⟨e0, e1, e2⟩, -⟩ := blockIndex t
  show ((cfg0.win 0).blk t).view.read (Elt Ideal) (V c (Pipeline.arrRef spec0 0)) (ix3 0 k cc) = _
  rw [View.read_apply]
  show V c main_arg2 _ = V c main_arg2 _
  congr 1
  funext a
  apply Fin.ext
  match a with
  | ⟨0, _⟩ => show win0_0.index t (0 : Fin 3) * 1 + 1 * (0 : Fin 1).val = b.val; rw [e0, hb]; simp
  | ⟨1, _⟩ => show win0_0.index t (1 : Fin 3) * 512 + 1 * k.val = p.val; rw [e1, hp]; omega
  | ⟨2, _⟩ => show win0_0.index t (2 : Fin 3) * 2048 + 1 * cc.val = cc.val; rw [e2]; omega

/-- The path-states tile at (0, k, h) is the array at (batch, 512 · tile + k, h). -/
theorem pathBlk_apply (c : Dev nD) (t : Fin cfg0.N) (k : Fin 512) (h : Fin 32) (b : Fin 16) (p : Fin 2048)
    (hb : b.val = t.val / 4) (hp : p.val = 512 * (t.val % 4) + k.val) :
    pathBlk V c t (ix3 0 k h) = pathArr V c (ix3 b p h) := by
  obtain ⟨-, ⟨e0, e1, e2⟩, -⟩ := blockIndex t
  show ((cfg0.win 1).blk t).view.read (Elt Ideal) (V c (Pipeline.arrRef spec0 1)) (ix3 0 k h) = _
  rw [View.read_apply]
  show V c main_arg0 _ = V c main_arg0 _
  congr 1
  funext a
  apply Fin.ext
  match a with
  | ⟨0, _⟩ => show win0_1.index t (0 : Fin 3) * 1 + 1 * (0 : Fin 1).val = b.val; rw [e0, hb]; simp
  | ⟨1, _⟩ => show win0_1.index t (1 : Fin 3) * 512 + 1 * k.val = p.val; rw [e1, hp]; omega
  | ⟨2, _⟩ => show win0_1.index t (2 : Fin 3) * 32 + 1 * h.val = h.val; rw [e2]; omega

/-- The channel-states block at (0, r, k) is the array at (batch, r, k). -/
theorem chanBlk_apply (c : Dev nD) (t : Fin cfg0.N) (r : Fin 2048) (k : Fin 32) (b : Fin 16) (hb : b.val = t.val / 4) :
    chanBlk V c t (ix3 0 r k) = chanArr V c (ix3 b r k) := by
  obtain ⟨-, -, ⟨e0, e1, e2⟩, -⟩ := blockIndex t
  show ((cfg0.win 2).blk t).view.read (Elt Ideal) (V c (Pipeline.arrRef spec0 2)) (ix3 0 r k) = _
  rw [View.read_apply]
  show V c main_arg1 _ = V c main_arg1 _
  congr 1
  funext a
  apply Fin.ext
  match a with
  | ⟨0, _⟩ => show win0_2.index t (0 : Fin 3) * 1 + 1 * (0 : Fin 1).val = b.val; rw [e0, hb]; simp
  | ⟨1, _⟩ => show win0_2.index t (1 : Fin 3) * 2048 + 1 * r.val = r.val; rw [e1]; omega
  | ⟨2, _⟩ => show win0_2.index t (2 : Fin 3) * 32 + 1 * k.val = k.val; rw [e2]; omega

/-- The weights' and biases' blocks are their whole arrays. -/
theorem wiBlk_apply (c : Dev nD) (t : Fin cfg0.N) (k : Fin 32) (j : Fin 96) : wiBlk V c t (ix2 k j) = wiArr V c (ix2 k j) := by
  obtain ⟨-, -, -, ⟨e0, e1⟩, -⟩ := blockIndex t
  show ((cfg0.win 3).blk t).view.read (Elt Ideal) (V c (Pipeline.arrRef spec0 3)) (ix2 k j) = _
  rw [View.read_apply]
  show V c main_v0 _ = V c main_v0 _
  congr 1
  funext a
  apply Fin.ext
  match a with
  | ⟨0, _⟩ => show win0_3.index t (0 : Fin 2) * 32 + 1 * k.val = k.val; rw [e0]; omega
  | ⟨1, _⟩ => show win0_3.index t (1 : Fin 2) * 96 + 1 * j.val = j.val; rw [e1]; omega
theorem whBlk_apply (c : Dev nD) (t : Fin cfg0.N) (k : Fin 32) (j : Fin 96) : whBlk V c t (ix2 k j) = whArr V c (ix2 k j) := by
  obtain ⟨-, -, -, -, ⟨e0, e1⟩, -⟩ := blockIndex t
  show ((cfg0.win 4).blk t).view.read (Elt Ideal) (V c (Pipeline.arrRef spec0 4)) (ix2 k j) = _
  rw [View.read_apply]
  show V c main_v1 _ = V c main_v1 _
  congr 1
  funext a
  apply Fin.ext
  match a with
  | ⟨0, _⟩ => show win0_4.index t (0 : Fin 2) * 32 + 1 * k.val = k.val; rw [e0]; omega
  | ⟨1, _⟩ => show win0_4.index t (1 : Fin 2) * 96 + 1 * j.val = j.val; rw [e1]; omega
theorem biBlk_apply (c : Dev nD) (t : Fin cfg0.N) (j : Fin 96) : biBlk V c t (ix2 0 j) = biArr V c (ix2 0 j) := by
  obtain ⟨-, -, -, -, -, ⟨e0, e1⟩, -⟩ := blockIndex t
  show ((cfg0.win 5).blk t).view.read (Elt Ideal) (V c (Pipeline.arrRef spec0 5)) (ix2 0 j) = _
  rw [View.read_apply]
  show V c main_v2 _ = V c main_v2 _
  congr 1
  funext a
  apply Fin.ext
  match a with
  | ⟨0, _⟩ => show win0_5.index t (0 : Fin 2) * 1 + 1 * (0 : Fin 1).val = (0 : Fin 1).val; rw [e0]; simp
  | ⟨1, _⟩ => show win0_5.index t (1 : Fin 2) * 96 + 1 * j.val = j.val; rw [e1]; omega
theorem bhBlk_apply (c : Dev nD) (t : Fin cfg0.N) (j : Fin 96) : bhBlk V c t (ix2 0 j) = bhArr V c (ix2 0 j) := by
  obtain ⟨-, -, -, -, -, -, ⟨e0, e1⟩, -⟩ := blockIndex t
  show ((cfg0.win 6).blk t).view.read (Elt Ideal) (V c (Pipeline.arrRef spec0 6)) (ix2 0 j) = _
  rw [View.read_apply]
  show V c main_v3 _ = V c main_v3 _
  congr 1
  funext a
  apply Fin.ext
  match a with
  | ⟨0, _⟩ => show win0_6.index t (0 : Fin 2) * 1 + 1 * (0 : Fin 1).val = (0 : Fin 1).val; rw [e0]; simp
  | ⟨1, _⟩ => show win0_6.index t (1 : Fin 2) * 96 + 1 * j.val = j.val; rw [e1]; omega

/-! ## The accumulator in closed form -/

/-- One product of the channel message, as a function of a natural path index (zero past the last path). -/
def msgTerm (c : Dev nD) (b : Fin 16) (h : Fin 32) (cc : Fin 2048) (p : ℕ) : Ideal .f32 :=
  if hp : p < 2048 then pathArr V c (ix3 b ⟨p, hp⟩ h) * adjArr V c (ix3 b ⟨p, hp⟩ cc) else 0

/-- A tile's sum over its 512 paths is the sum of the products at paths 512 · tile … 512 · tile + 511 of the batch. -/
theorem tile_sum (c : Dev nD) (t : Fin cfg0.N) (b : Fin 16) (hb : b.val = t.val / 4) (h : Fin 32) (cc : Fin 2048) :
    ∑ k : Fin 512, pathBlk V c t (ix3 0 k h) * adjBlk V c t (ix3 0 k cc)
      = ∑ k ∈ Finset.range 512, msgTerm V c b h cc (512 * (t.val % 4) + k) := by
  rw [Finset.sum_range]
  refine Finset.sum_congr rfl fun k _ => ?_
  have hk : 512 * (t.val % 4) + k.val < 2048 := by have := k.isLt; omega
  unfold msgTerm
  rw [dif_pos hk, pathBlk_apply V c t k h b ⟨_, hk⟩ hb rfl, adjBlk_apply V c t k cc b ⟨_, hk⟩ hb rfl]

/-- The accumulator after a point depends on the point's number only. -/
theorem accAt0_congr (c : Dev nD) (n n' : ℕ) (hn : n < cfg0.N) (hn' : n' < cfg0.N) (e : n = n') :
    accAt0 V c n hn = accAt0 V c n' hn' := by subst e; rfl

/-- After point 4·b + j the accumulator's entry (h, cc) is the sum of the products over the paths below 512·(j+1). -/
theorem acc_closed (c : Dev nD) (b : Fin 16) (h : Fin 32) (cc : Fin 2048) :
    ∀ (j : ℕ) (hj : j < 4) (hn : 4 * b.val + j < cfg0.N),
      (accAt0 V c (4 * b.val + j) hn : FVec Ideal S32x2048 .f32) (ix2 h cc)
        = ∑ p ∈ Finset.range (512 * (j + 1)), msgTerm V c b h cc p
  | 0, _, hn => by
    have h0 : (⟨4 * b.val + 0, hn⟩ : Fin cfg0.N).val % 4 = 0 := by show (4 * b.val + 0) % 4 = 0; omega
    have h1 : ¬(⟨4 * b.val + 0, hn⟩ : Fin cfg0.N).val % 4 = 3 := by show ¬(4 * b.val + 0) % 4 = 3; omega
    have hb : b.val = (⟨4 * b.val + 0, hn⟩ : Fin cfg0.N).val / 4 := by show b.val = (4 * b.val + 0) / 4; omega
    refine (congrFun (accAt0_A V c ⟨4 * b.val + 0, hn⟩ h0 h1) (ix2 h cc)).trans ?_
    refine (congrFun (accA_eq V c ⟨4 * b.val + 0, hn⟩ h0 h1) (ix2 h cc)).trans ?_
    refine (ChanCell.pay2_apply (pathBlk V c ⟨4 * b.val + 0, hn⟩) (adjBlk V c ⟨4 * b.val + 0, hn⟩) (k0_pay1 (F := Ideal)) h cc).trans ?_
    rw [ChanCell.pay1_apply, zero_add, tile_sum V c ⟨4 * b.val + 0, hn⟩ b hb h cc]
    refine Finset.sum_congr rfl fun k _ => congrArg (msgTerm V c b h cc) ?_
    show 512 * ((4 * b.val + 0) % 4) + k = k
    omega
  | j + 1, hj, hn => by
    have hN : cfg0.N = 64 := N_0
    have hn' : 4 * b.val + j < cfg0.N := by omega
    have ih := acc_closed c b h cc j (by omega) hn'
    have h0 : ¬(⟨4 * b.val + (j + 1), hn⟩ : Fin cfg0.N).val % 4 = 0 := by show ¬(4 * b.val + (j + 1)) % 4 = 0; omega
    have hb : b.val = (⟨4 * b.val + (j + 1), hn⟩ : Fin cfg0.N).val / 4 := by show b.val = (4 * b.val + (j + 1)) / 4; omega
    have hprev : accBefore0 V c ⟨4 * b.val + (j + 1), hn⟩ = accAt0 V c (4 * b.val + j) hn' :=
      accAt0_congr V c _ _ _ hn' (by show 4 * b.val + (j + 1) - 1 = 4 * b.val + j; omega)
    have key : (accAt0 V c (4 * b.val + (j + 1)) hn : FVec Ideal S32x2048 .f32)
        = k0_pay2 (pathBlk V c ⟨4 * b.val + (j + 1), hn⟩) (adjBlk V c ⟨4 * b.val + (j + 1), hn⟩) (accAt0 V c (4 * b.val + j) hn') := by
      by_cases h1 : (⟨4 * b.val + (j + 1), hn⟩ : Fin cfg0.N).val % 4 = 3
      · refine (accAt0_C V c ⟨4 * b.val + (j + 1), hn⟩ h0 h1).trans ?_
        rw [hprev]
        exact accC_eq V c ⟨4 * b.val + (j + 1), hn⟩ h0 h1 (accAt0 V c (4 * b.val + j) hn')
      · refine (accAt0_B V c ⟨4 * b.val + (j + 1), hn⟩ h0 h1).trans ?_
        rw [hprev]
        exact accB_eq V c ⟨4 * b.val + (j + 1), hn⟩ h0 h1 (accAt0 V c (4 * b.val + j) hn')
    refine (congrFun key (ix2 h cc)).trans ?_
    refine (ChanCell.pay2_apply (pathBlk V c ⟨4 * b.val + (j + 1), hn⟩) (adjBlk V c ⟨4 * b.val + (j + 1), hn⟩) (accAt0 V c (4 * b.val + j) hn') h cc).trans ?_
    rw [ih, tile_sum V c ⟨4 * b.val + (j + 1), hn⟩ b hb h cc,
      show 512 * (j + 1 + 1) = 512 * (j + 1) + 512 from by ring, Finset.sum_range_add]
    congr 1
    refine Finset.sum_congr rfl fun k _ => congrArg (msgTerm V c b h cc) ?_
    show 512 * ((4 * b.val + (j + 1)) % 4) + k = 512 * (j + 1) + k
    omega

/-- After the last tile of batch b the accumulator's entry (h, cc) is the channel message of (b, cc) at component h. -/
theorem acc_last (c : Dev nD) (t : Fin cfg0.N) (h1 : t.val % 4 = 3) (b : Fin 16) (hb : b.val = t.val / 4)
    (h : Fin 32) (cc : Fin 2048) :
    (accAt0 V c t.val t.isLt : FVec Ideal S32x2048 .f32) (ix2 h cc) = Spec.chanMsg (adjArr V c) (pathArr V c) b cc h := by
  have hN : cfg0.N = 64 := N_0
  have ht := t.isLt
  have e : t.val = 4 * b.val + 3 := by omega
  have hn : 4 * b.val + 3 < cfg0.N := by omega
  refine (congrFun (accAt0_congr V c t.val (4 * b.val + 3) t.isLt hn e) (ix2 h cc)).trans ?_
  refine (acc_closed V c b h cc 3 (by decide) hn).trans ?_
  show ∑ p ∈ Finset.range 2048, msgTerm V c b h cc p = ∑ p : Fin 2048, adjArr V c (ix3 b p cc) * pathArr V c (ix3 b p h)
  rw [Finset.sum_range]
  refine Finset.sum_congr rfl fun p _ => ?_
  unfold msgTerm
  rw [dif_pos p.isLt]
  exact mul_comm _ _

/-! ## The output window's buffer after a point of the last tile -/

section Cell

variable (wi wh : FVec Ideal Cert.Spec.Wt .f32) (bi bh : FVec Ideal Cert.Spec.Bi .f32)

/-- The specification's new channel states over the region's arrays. -/
abbrev target (c : Dev nD) : FVec Ideal S16x2048x32 .f32 :=
  Cert.Spec.newChan (adjArr V c) (pathArr V c) (chanArr V c) wi wh bi bh

/-- At row r and component e the stored block is the gated cell of the batch's channel row r and of the channel
    message of (b, r). -/
theorem out_apply (c : Dev nD) (t : Fin cfg0.N) (h1 : t.val % 4 = 3) (b : Fin 16) (hb : b.val = t.val / 4)
    (hwi : ∀ (k : Fin 32) (j : Fin 96), wiArr V c (ix2 k j) = wi (ix2 j k))
    (hwh : ∀ (k : Fin 32) (j : Fin 96), whArr V c (ix2 k j) = wh (ix2 j k))
    (hbi : ∀ j : Fin 96, biArr V c (ix2 0 j) = bi (ix1 j))
    (hbh : ∀ j : Fin 96, bhArr V c (ix2 0 j) = bh (ix1 j))
    (r : Fin 2048) (e : Fin 32) :
    (outAt0 V c t : FVec Ideal S1x2048x32 .f32) (ix3 0 r e) = target V wi wh bi bh c (ix3 b r e) := by
  have h0 : ¬t.val % 4 = 0 := by omega
  have hacc : k0_pay2 (pathBlk V c t) (adjBlk V c t) (accBefore0 V c t) = accAt0 V c t.val t.isLt :=
    ((accAt0_C V c t h0 h1).trans (accC_eq V c t h0 h1 (accBefore0 V c t))).symm
  refine (congrFun (outAt0_C V c t h0 h1) (ix3 0 r e)).trans ?_
  refine (congrFun (outC_eq V c t h0 h1 (accBefore0 V c t)) (ix3 0 r e)).trans ?_
  refine (ChanCell.pay34_apply (k0_pay2 (pathBlk V c t) (adjBlk V c t) (accBefore0 V c t)) (chanBlk V c t)
    (wiBlk V c t) (whBlk V c t) (biBlk V c t) (bhBlk V c t) wi wh bi bh
    (fun k j => (wiBlk_apply V c t k j).trans (hwi k j)) (fun k j => (whBlk_apply V c t k j).trans (hwh k j))
    (fun j => (biBlk_apply V c t j).trans (hbi j)) (fun j => (bhBlk_apply V c t j).trans (hbh j)) r e).trans ?_
  have e1 : (fun k : Fin 32 => chanBlk V c t (ix3 0 r k)) = fun k => chanArr V c (ix3 b r k) :=
    funext fun k => chanBlk_apply V c t r k b hb
  have e2 : (fun k : Fin 32 => k0_pay2 (pathBlk V c t) (adjBlk V c t) (accBefore0 V c t) (ix2 k r))
      = fun k => Cert.Spec.chanMsg (adjArr V c) (pathArr V c) b r k :=
    funext fun k => (congrFun hacc (ix2 k r)).trans (acc_last V c t h1 b hb k r)
  rw [e1, e2]
  rfl

/-- The same at any index of the block and the index of the array with the batch in front. -/
theorem out_blk (c : Dev nD) (t : Fin cfg0.N) (h1 : t.val % 4 = 3)
    (hwi : ∀ (k : Fin 32) (j : Fin 96), wiArr V c (ix2 k j) = wi (ix2 j k))
    (hwh : ∀ (k : Fin 32) (j : Fin 96), whArr V c (ix2 k j) = wh (ix2 j k))
    (hbi : ∀ j : Fin 96, biArr V c (ix2 0 j) = bi (ix1 j))
    (hbh : ∀ j : Fin 96, bhArr V c (ix2 0 j) = bh (ix1 j))
    (y : S1x2048x32.Idx) (i : S16x2048x32.Idx)
    (hi0 : (i 0).val = t.val / 4) (hi1 : (i 1).val = (y 1).val) (hi2 : (i 2).val = (y 2).val) :
    (outAt0 V c t : FVec Ideal S1x2048x32 .f32) y = target V wi wh bi bh c i := by
  obtain ⟨y0, r, e, rfl⟩ : ∃ (y0 : Fin 1) (r : Fin 2048) (e : Fin 32), y = ix3 y0 r e := ⟨y 0, y 1, y 2, eq_ix3 y⟩
  obtain ⟨b, r', e', rfl⟩ : ∃ (b : Fin 16) (r' : Fin 2048) (e' : Fin 32), i = ix3 b r' e' := ⟨i 0, i 1, i 2, eq_ix3 i⟩
  obtain rfl : y0 = 0 := Subsingleton.elim _ _
  obtain rfl : r' = r := Fin.ext hi1
  obtain rfl : e' = e := Fin.ext hi2
  exact out_apply V wi wh bi bh c t h1 b hi0 hwi hwh hbi hbh r' e'

/-! ## From the blocks to the array -/

/-- What a point of the last tile writes back is its block of the new channel states. -/
theorem flushed_eq (c : Dev nD)
    (hwi : ∀ (k : Fin 32) (j : Fin 96), wiArr V c (ix2 k j) = wi (ix2 j k))
    (hwh : ∀ (k : Fin 32) (j : Fin 96), whArr V c (ix2 k j) = wh (ix2 j k))
    (hbi : ∀ j : Fin 96, biArr V c (ix2 0 j) = bi (ix1 j))
    (hbh : ∀ j : Fin 96, bhArr V c (ix2 0 j) = bh (ix1 j))
    (t : Fin cfg0.N) (hf : (cfg0.win 7).flush t = true) :
    (dat0 (F := Ideal) V c).flushed 7 t = ((cfg0.win 7).blk t).view.read (Elt Ideal) (target V wi wh bi bh c) := by
  have h1 : t.val % 4 = 3 := (flush0_7 t).mp hf
  obtain ⟨-, -, -, -, -, -, -, ⟨e0, e1, e2⟩⟩ := blockIndex t
  show (cfg0.win 7).cut (grid0.coords t) ((dat0 V c).after 7 t) = _
  rw [after0_7]
  funext y
  have hy0 : (y 0).val < 1 := (y 0).isLt
  show (outAt0 V c t : FVec Ideal S1x2048x32 .f32) ((cfg0.win 7).xinj (grid0.coords t) y)
    = target V wi wh bi bh c (((cfg0.win 7).blk t).view.emb y)
  refine out_blk V wi wh bi bh c t h1 hwi hwh hbi hbh _ _ ?_ ?_ ?_
  · show win0_7.index t (0 : Fin 3) * 1 + 1 * (y 0).val = t.val / 4
    rw [e0]; omega
  · show win0_7.index t (1 : Fin 3) * 2048 + 1 * (y 1).val = (y 1).val
    rw [e1]; omega
  · show win0_7.index t (2 : Fin 3) * 32 + 1 * (y 2).val = (y 2).val
    rw [e2]; omega

/-- An index of the output array is in point t's block iff each coordinate is in the block's range on its axis. -/
theorem mem_blk (t : Fin cfg0.N) (i : S16x2048x32.Idx) :
    i ∈ ((cfg0.win 7).blk t).view.set ↔ ∀ a : Fin 3, win0_7.index t a * S1x2048x32.size a ≤ (i a).val
      ∧ (i a).val < win0_7.index t a * S1x2048x32.size a + S1x2048x32.size a := by
  show i ∈ ((View.whole main_v8).slice (win0_7.rect t)).set ↔ _
  rw [View.set_slice_whole, Rect.mem_set_unit]
  exact Iff.rfl

/-- Batch b's rows are written back at point 4·b + 3: the 16 blocks tile the output array. -/
theorem cover (i : S16x2048x32.Idx) :
    ∃ t : Fin cfg0.N, (cfg0.win 7).flush t = true ∧ i ∈ ((cfg0.win 7).blk t).view.set := by
  have hN : cfg0.N = 64 := N_0
  have hi0 : (i 0).val < 16 := (i 0).isLt
  have hi1 : (i 1).val < 2048 := (i 1).isLt
  have hi2 : (i 2).val < 32 := (i 2).isLt
  have ht : 4 * (i 0).val + 3 < cfg0.N := by omega
  obtain ⟨-, -, -, -, -, -, -, ⟨e0, e1, e2⟩⟩ := blockIndex ⟨4 * (i 0).val + 3, ht⟩
  refine ⟨⟨4 * (i 0).val + 3, ht⟩, (flush0_7 _).mpr (by show (4 * (i 0).val + 3) % 4 = 3; omega), ?_⟩
  rw [mem_blk]
  intro a
  match a with
  | ⟨0, _⟩ =>
    show win0_7.index ⟨4 * (i 0).val + 3, ht⟩ (0 : Fin 3) * 1 ≤ (i 0).val ∧ (i 0).val < win0_7.index ⟨4 * (i 0).val + 3, ht⟩ (0 : Fin 3) * 1 + 1
    rw [e0]; show (4 * (i 0).val + 3) / 4 * 1 ≤ (i 0).val ∧ (i 0).val < (4 * (i 0).val + 3) / 4 * 1 + 1; omega
  | ⟨1, _⟩ =>
    show win0_7.index ⟨4 * (i 0).val + 3, ht⟩ (1 : Fin 3) * 2048 ≤ (i 1).val ∧ (i 1).val < win0_7.index ⟨4 * (i 0).val + 3, ht⟩ (1 : Fin 3) * 2048 + 2048
    rw [e1]; omega
  | ⟨2, _⟩ =>
    show win0_7.index ⟨4 * (i 0).val + 3, ht⟩ (2 : Fin 3) * 32 ≤ (i 2).val ∧ (i 2).val < win0_7.index ⟨4 * (i 0).val + 3, ht⟩ (2 : Fin 3) * 32 + 32
    rw [e2]; omega

end Cell

/-- What the region leaves in its output array is the specification's new channel states. -/
theorem arrAt7_eq (V : (c : Dev nD) → (b : Ref sig .tc) → Buf (Elt Ideal) ((c : Thread nD τ).loc b)) (c : Dev nD)
    (wi wh : FVec Ideal Cert.Spec.Wt .f32) (bi bh : FVec Ideal Cert.Spec.Bi .f32)
    (hwi : ∀ (k : Fin 32) (j : Fin 96), (V c main_v0 : FVec Ideal S32x96 .f32) (ix2 k j) = wi (ix2 j k))
    (hwh : ∀ (k : Fin 32) (j : Fin 96), (V c main_v1 : FVec Ideal S32x96 .f32) (ix2 k j) = wh (ix2 j k))
    (hbi : ∀ j : Fin 96, (V c main_v2 : FVec Ideal S1x96 .f32) (ix2 0 j) = bi (ix1 j))
    (hbh : ∀ j : Fin 96, (V c main_v3 : FVec Ideal S1x96 .f32) (ix2 0 j) = bh (ix1 j)) :
    ((dat0 (F := Ideal) V c).arrAt 7 cfg0.N : FVec Ideal S16x2048x32 .f32)
      = Cert.Spec.newChan (V c main_arg2) (V c main_arg0) (V c main_arg1) wi wh bi bh :=
  (dat0 (F := Ideal) V c).arrAt_eq_of_cover 7 (target V wi wh bi bh c)
    (fun t hf => flushed_eq V wi wh bi bh c hwi hwh hbi hbh t hf) cover

end Cert.KernelIdeal.Chan

end
-- ==== Proof.KI.PathPieces.lean ====
/-
  The path-update region: what each control case's stores leave, as the body's arithmetic of the blocks it loads.

  Every store and every load of the body goes through the whole buffer, so the stores' canonical contents are the
  last store's payload and every load reads the contents in full. At tile 0 the accumulator is zeroed and read back
  before the tile's partial product is added; at tile 3 the accumulator just stored is read back as the hidden state
  of the gated update.
-/
import proofs.«138023_j44126493999752_1_alg».proof.Proof.KI.PathData
import Idealize.ShloMosaic.Lib.Pipeline.Value

set_option maxRecDepth 16384

noncomputable section

namespace Cert.KernelIdeal.Path

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The whole-buffer rectangles start at zero -/

theorem hz2 : (![0, 0] : Fin 2 → Nat) = fun _ => 0 := funext fun a => by fin_cases a <;> rfl
theorem hz3 : (![0, 0, 0] : Fin 3 → Nat) = fun _ => 0 := funext fun a => by fin_cases a <;> rfl

/-! ## The three cases over any buffers and contents -/

/-- Tile 0: the accumulator's stores leave the tile's partial product added to zero. -/
theorem canonA (c : Dev nD) (i : grid1.Coords) (arg2 : Memref sig .tc .vmem S1x2048x512 .f32) (harg2 : arg2.IsWhole) (arg3 : Memref sig .tc .vmem S1x512x32 .f32) (harg3 : arg3.IsWhole) (arg4 : Memref sig .tc .vmem S1x2048x32 .f32) (harg4 : arg4.IsWhole) (arg5 : Memref sig .tc .vmem S32x96 .f32) (harg5 : arg5.IsWhole) (arg6 : Memref sig .tc .vmem S32x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x2048x32 .f32) (harg9 : arg9.IsWhole) (arg10 : Memref sig .tc .vmem S2048x32 .f32) (harg10 : arg10.IsWhole) (hc0 : cond1_0 i) (hc1 : ¬cond1_1 i)
    (x0 : Vec F S1x2048x512 .f32) (x1 : Vec F S1x512x32 .f32) (x2 : Vec F S1x2048x32 .f32) (x3 : Vec F S32x96 .f32) (x4 : Vec F S32x96 .f32) (x5 : Vec F S1x96 .f32) (x6 : Vec F S1x96 .f32) :
    View.canon (kernelRun1_A (F := F) c i arg2 harg2 arg3 harg3 arg4 harg4 arg5 harg5 arg6 harg6 arg7 harg7 arg8 harg8 arg9 harg9 arg10 harg10 hc0 hc1 x0 x1 x2 x3 x4 x5 x6).2.1 = k1_pay2 x0 x1 (k1_pay1 (F := F)) := by
  unfold kernelRun1_A
  dsimp only
  sl_unfold_words
  rw [View.canon_cons_unit_zero (S := S2048x32) hz2]
  simp only [View.readAt_eq_ld, harg2.read_unread, harg3.read_unread, harg4.read_unread, harg5.read_unread, harg6.read_unread, harg7.read_unread, harg8.read_unread, harg10.read_unread,
    View.ld_unit_zero (S := S1x2048x512) hz3, View.ld_unit_zero (S := S1x512x32) hz3, View.ld_unit_zero (S := S1x2048x32) hz3, View.ld_unit_zero (S := S2048x32) hz2,
    View.ld_unit_zero (S := S32x96) hz2, View.ld_unit_zero (S := S1x96) hz2, View.readCov_unit_zero (S := S2048x32) _ hz2]

/-- Tiles 1 and 2: the accumulator's one store leaves the tile's partial product added to what it held. -/
theorem canonB (c : Dev nD) (i : grid1.Coords) (arg2 : Memref sig .tc .vmem S1x2048x512 .f32) (harg2 : arg2.IsWhole) (arg3 : Memref sig .tc .vmem S1x512x32 .f32) (harg3 : arg3.IsWhole) (arg4 : Memref sig .tc .vmem S1x2048x32 .f32) (harg4 : arg4.IsWhole) (arg5 : Memref sig .tc .vmem S32x96 .f32) (harg5 : arg5.IsWhole) (arg6 : Memref sig .tc .vmem S32x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x2048x32 .f32) (harg9 : arg9.IsWhole) (arg10 : Memref sig .tc .vmem S2048x32 .f32) (harg10 : arg10.IsWhole) (hc0 : ¬cond1_0 i) (hc1 : ¬cond1_1 i)
    (x0 : Vec F S1x2048x512 .f32) (x1 : Vec F S1x512x32 .f32) (x2 : Vec F S1x2048x32 .f32) (x3 : Vec F S32x96 .f32) (x4 : Vec F S32x96 .f32) (x5 : Vec F S1x96 .f32) (x6 : Vec F S1x96 .f32) (xs : Vec F S2048x32 .f32) :
    View.canon (kernelRun1_B (F := F) c i arg2 harg2 arg3 harg3 arg4 harg4 arg5 harg5 arg6 harg6 arg7 harg7 arg8 harg8 arg9 harg9 arg10 harg10 hc0 hc1 x0 x1 x2 x3 x4 x5 x6 xs).2.1 = k1_pay2 x0 x1 xs := by
  unfold kernelRun1_B
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread,
    View.ld_unit_zero (S := S1x2048x512) hz3, View.ld_unit_zero (S := S1x512x32) hz3, View.ld_unit_zero (S := S1x2048x32) hz3, View.ld_unit_zero (S := S2048x32) hz2,
    View.ld_unit_zero (S := S32x96) hz2, View.ld_unit_zero (S := S1x96) hz2, View.readCov_unit_zero (S := S2048x32) _ hz2]

/-- Tile 3, the accumulator: as at tiles 1 and 2. -/
theorem canonC (c : Dev nD) (i : grid1.Coords) (arg2 : Memref sig .tc .vmem S1x2048x512 .f32) (harg2 : arg2.IsWhole) (arg3 : Memref sig .tc .vmem S1x512x32 .f32) (harg3 : arg3.IsWhole) (arg4 : Memref sig .tc .vmem S1x2048x32 .f32) (harg4 : arg4.IsWhole) (arg5 : Memref sig .tc .vmem S32x96 .f32) (harg5 : arg5.IsWhole) (arg6 : Memref sig .tc .vmem S32x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x2048x32 .f32) (harg9 : arg9.IsWhole) (arg10 : Memref sig .tc .vmem S2048x32 .f32) (harg10 : arg10.IsWhole) (hc0 : ¬cond1_0 i) (hc1 : cond1_1 i)
    (x0 : Vec F S1x2048x512 .f32) (x1 : Vec F S1x512x32 .f32) (x2 : Vec F S1x2048x32 .f32) (x3 : Vec F S32x96 .f32) (x4 : Vec F S32x96 .f32) (x5 : Vec F S1x96 .f32) (x6 : Vec F S1x96 .f32) (xs : Vec F S2048x32 .f32) :
    View.canon (kernelRun1_C (F := F) c i arg2 harg2 arg3 harg3 arg4 harg4 arg5 harg5 arg6 harg6 arg7 harg7 arg8 harg8 arg9 harg9 arg10 harg10 hc0 hc1 x0 x1 x2 x3 x4 x5 x6 xs).2.1 = k1_pay2 x0 x1 xs := by
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread,
    View.ld_unit_zero (S := S1x2048x512) hz3, View.ld_unit_zero (S := S1x512x32) hz3, View.ld_unit_zero (S := S1x2048x32) hz3, View.ld_unit_zero (S := S2048x32) hz2,
    View.ld_unit_zero (S := S32x96) hz2, View.ld_unit_zero (S := S1x96) hz2, View.readCov_unit_zero (S := S2048x32) _ hz2]

/-- Tile 3, the output window: the gated update of the path states' block over the accumulator just stored. -/
theorem canonCout (c : Dev nD) (i : grid1.Coords) (arg2 : Memref sig .tc .vmem S1x2048x512 .f32) (harg2 : arg2.IsWhole) (arg3 : Memref sig .tc .vmem S1x512x32 .f32) (harg3 : arg3.IsWhole) (arg4 : Memref sig .tc .vmem S1x2048x32 .f32) (harg4 : arg4.IsWhole) (arg5 : Memref sig .tc .vmem S32x96 .f32) (harg5 : arg5.IsWhole) (arg6 : Memref sig .tc .vmem S32x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x2048x32 .f32) (harg9 : arg9.IsWhole) (arg10 : Memref sig .tc .vmem S2048x32 .f32) (harg10 : arg10.IsWhole) (hc0 : ¬cond1_0 i) (hc1 : cond1_1 i)
    (x0 : Vec F S1x2048x512 .f32) (x1 : Vec F S1x512x32 .f32) (x2 : Vec F S1x2048x32 .f32) (x3 : Vec F S32x96 .f32) (x4 : Vec F S32x96 .f32) (x5 : Vec F S1x96 .f32) (x6 : Vec F S1x96 .f32) (xs : Vec F S2048x32 .f32) :
    View.canon (kernelRun1_C (F := F) c i arg2 harg2 arg3 harg3 arg4 harg4 arg5 harg5 arg6 harg6 arg7 harg7 arg8 harg8 arg9 harg9 arg10 harg10 hc0 hc1 x0 x1 x2 x3 x4 x5 x6 xs).1 = k1_pay3 (k1_pay4 (k1_pay2 x0 x1 xs) x2 x3 x5 x4 x6) := by
  unfold kernelRun1_C
  dsimp only
  sl_unfold_words
  rw [View.canon_unit_zero hz3]
  simp only [View.readAt_eq_ld, harg2.read_unread, harg3.read_unread, harg4.read_unread, harg5.read_unread, harg6.read_unread, harg7.read_unread, harg8.read_unread, harg10.read_unread,
    View.ld_unit_zero (S := S1x2048x512) hz3, View.ld_unit_zero (S := S1x512x32) hz3, View.ld_unit_zero (S := S1x2048x32) hz3, View.ld_unit_zero (S := S2048x32) hz2,
    View.ld_unit_zero (S := S32x96) hz2, View.ld_unit_zero (S := S1x96) hz2, View.readCov_unit_zero (S := S2048x32) _ hz2]

/-! ## The cases at a grid point -/

variable (V : (c : Dev nD) → (b : Ref sig .tc) → Buf (Elt F) ((c : Thread nD τ).loc b))

theorem accA_eq (c : Dev nD) (t : Fin cfg1.N) (h0 : t.val % 4 = 0) (h1 : ¬t.val % 4 = 3) : accA V c t h0 h1 = k1_pay2 (iblk1 V c 0 t) (iblk1 V c 1 t) (k1_pay1 (F := F)) := by
  unfold accA
  rw [View.read_writes_eq_canon _ _ _ (scoverA V c t h0 h1)]
  exact canonA (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)

theorem accB_eq (c : Dev nD) (t : Fin cfg1.N) (h0 : ¬t.val % 4 = 0) (h1 : ¬t.val % 4 = 3) (xs : Vec F S2048x32 .f32) : accB V c t h0 h1 xs = k1_pay2 (iblk1 V c 0 t) (iblk1 V c 1 t) xs := by
  unfold accB
  rw [View.read_writes_eq_canon _ _ _ (scoverB V c t h0 h1 xs)]
  exact canonB (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) xs

theorem accC_eq (c : Dev nD) (t : Fin cfg1.N) (h0 : ¬t.val % 4 = 0) (h1 : t.val % 4 = 3) (xs : Vec F S2048x32 .f32) : accC V c t h0 h1 xs = k1_pay2 (iblk1 V c 0 t) (iblk1 V c 1 t) xs := by
  unfold accC
  rw [View.read_writes_eq_canon _ _ _ (scoverC V c t h0 h1 xs)]
  exact canonC (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs

theorem outC_eq (c : Dev nD) (t : Fin cfg1.N) (h0 : ¬t.val % 4 = 0) (h1 : t.val % 4 = 3) (xs : Vec F S2048x32 .f32) : outC V c t h0 h1 xs = k1_pay3 (k1_pay4 (k1_pay2 (iblk1 V c 0 t) (iblk1 V c 1 t) xs) (iblk1 V c 2 t) (iblk1 V c 3 t) (iblk1 V c 5 t) (iblk1 V c 4 t) (iblk1 V c 6 t)) := by
  unfold outC
  rw [View.read_writes_eq_canon _ _ _ (ocoverC V c t h0 h1 xs)]
  exact canonCout (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs

end Cert.KernelIdeal.Path

end
-- ==== Proof.KI.PathCell.lean ====
/-
  The path-update body's arithmetic read at an index, on the extended reals.

  The accumulator is a 2048 × 32 array indexed (path, component). One tile adds to entry (p, h) the sum over the
  tile's 512 channels k of  adj[p,k] · chan'[k,h]  (the changes of float format are the identity). At the last tile
  row p of the accumulator is the hidden state of the gated cell whose input is row p of the path states; the
  weights arrive transposed (32 × 96) and the biases as 1 × 96 rows.
-/
import proofs.«138023_j44126493999752_1_alg».proof.Proof.Gen.KernelIdeal.Skeleton
import proofs.«138023_j44126493999752_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.PathCell

open Idealize.ShloMosaic Idealize.ShloMosaic.ValueIdx
open Cert.KernelIdeal Cert.KernelIdeal.Gen

/-! ### Reads of the layout operations at explicit coordinates -/

/-- Dropping a leading axis of extent one keeps the other two coordinates. -/
theorem shapeCast_drop1 {a b : Nat} {α : Type} (x : (⟨3, ![1, a, b]⟩ : Shape).Idx → α)
    (hc : (⟨3, ![1, a, b]⟩ : Shape).ShapeCasts ⟨2, ![a, b]⟩) (p : Fin a) (q : Fin b) :
    shapeCast ⟨2, ![a, b]⟩ x hc (ix2 p q) = x (ix3 0 p q) := by
  refine shapeCast_apply x hc (ix2 p q) (ix3 0 p q) ?_
  rw [Shape.rowMajor_val_three, Shape.rowMajor_val_two]
  show (0 * a + p.val) * b + q.val = p.val * b + q.val
  rw [Nat.zero_mul, Nat.zero_add]

/-- Adding a leading axis of extent one keeps the two coordinates. -/
theorem shapeCast_add1 {a b : Nat} {α : Type} (x : (⟨2, ![a, b]⟩ : Shape).Idx → α)
    (hc : (⟨2, ![a, b]⟩ : Shape).ShapeCasts ⟨3, ![1, a, b]⟩) (p : Fin a) (q : Fin b) :
    shapeCast ⟨3, ![1, a, b]⟩ x hc (ix3 0 p q) = x (ix2 p q) := by
  refine shapeCast_apply x hc (ix3 0 p q) (ix2 p q) ?_
  rw [Shape.rowMajor_val_three, Shape.rowMajor_val_two]
  show p.val * b + q.val = (0 * a + p.val) * b + q.val
  rw [Nat.zero_mul, Nat.zero_add]

/-- A 1 × 96 row repeated down 2048 rows reads the row's entry. -/
theorem bcastRow_apply {α : Type} (x : S1x96.Idx → α) (hb : S1x96.Broadcasts S2048x96) (p : Fin 2048) (j : Fin 96) :
    broadcastTo S2048x96 x hb (ix2 p j) = x (ix2 0 j) := by
  refine broadcastTo_apply x hb (ix2 p j) (ix2 0 j) fun c => ?_
  match c with
  | ⟨0, _⟩ => show (0 : Nat) = if (1 : Nat) = 1 then 0 else p.val; rw [if_pos rfl]
  | ⟨1, _⟩ => show j.val = if (96 : Nat) = 1 then 0 else j.val; rw [if_neg (by decide)]

/-- The three runs of 32 columns among the 96. -/
theorem sliceLo_apply {α : Type} (x : S2048x96.Idx → α) (hs : S2048x96.Slices ![0, 0] S2048x32) (p : Fin 2048) (e : Fin 32) :
    extractStridedSlice S2048x32 ![0, 0] x hs (ix2 p e) = x (ix2 p (Spec.lo e)) := by
  refine extractStridedSlice_apply _ x hs (ix2 p e) (ix2 p (Spec.lo e)) fun c => ?_
  match c with
  | ⟨0, _⟩ => show p.val = 0 + p.val; rw [Nat.zero_add]
  | ⟨1, _⟩ => show e.val = 0 + e.val; rw [Nat.zero_add]
theorem sliceMid_apply {α : Type} (x : S2048x96.Idx → α) (hs : S2048x96.Slices ![0, 32] S2048x32) (p : Fin 2048) (e : Fin 32) :
    extractStridedSlice S2048x32 ![0, 32] x hs (ix2 p e) = x (ix2 p (Spec.mid e)) := by
  refine extractStridedSlice_apply _ x hs (ix2 p e) (ix2 p (Spec.mid e)) fun c => ?_
  match c with
  | ⟨0, _⟩ => show p.val = 0 + p.val; rw [Nat.zero_add]
  | ⟨1, _⟩ => show 32 + e.val = 32 + e.val; rfl
theorem sliceHi_apply {α : Type} (x : S2048x96.Idx → α) (hs : S2048x96.Slices ![0, 64] S2048x32) (p : Fin 2048) (e : Fin 32) :
    extractStridedSlice S2048x32 ![0, 64] x hs (ix2 p e) = x (ix2 p (Spec.hi e)) := by
  refine extractStridedSlice_apply _ x hs (ix2 p e) (ix2 p (Spec.hi e)) fun c => ?_
  match c with
  | ⟨0, _⟩ => show p.val = 0 + p.val; rw [Nat.zero_add]
  | ⟨1, _⟩ => show 64 + e.val = 64 + e.val; rfl

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-! ### The product of a 2048 × 512 array with a 512 × 32 array -/

theorem lhsA_0 (i : S2048x32.Idx) (q : dot_S2048x512_S512x32_S2048x32_1_0_0_1_n_n.contr.Idx) :
    (dot_S2048x512_S512x32_S2048x32_1_0_0_1_n_n.lhsIdx i q 0).val = (i 0).val := by
  unfold DotDims.lhsIdx
  rw [dif_neg (show ¬(0 : Fin S2048x512.rank) ∈ dot_S2048x512_S512x32_S2048x32_1_0_0_1_n_n.lhsBatch by decide), dif_pos (show (0 : Fin S2048x512.rank) ∈ dot_S2048x512_S512x32_S2048x32_1_0_0_1_n_n.lhsNonContracting by decide)]
  rfl
theorem lhsA_1 (i : S2048x32.Idx) (q : dot_S2048x512_S512x32_S2048x32_1_0_0_1_n_n.contr.Idx) :
    (dot_S2048x512_S512x32_S2048x32_1_0_0_1_n_n.lhsIdx i q 1).val = (q ⟨0, by decide⟩).val :=
  dot_S2048x512_S512x32_S2048x32_1_0_0_1_n_n.lhsIdx_val_of_single rfl i q
theorem rhsA_0 (i : S2048x32.Idx) (q : dot_S2048x512_S512x32_S2048x32_1_0_0_1_n_n.contr.Idx) :
    (dot_S2048x512_S512x32_S2048x32_1_0_0_1_n_n.rhsIdx i q 0).val = (q ⟨0, by decide⟩).val :=
  dot_S2048x512_S512x32_S2048x32_1_0_0_1_n_n.rhsIdx_val_of_single rfl i q
theorem rhsA_1 (i : S2048x32.Idx) (q : dot_S2048x512_S512x32_S2048x32_1_0_0_1_n_n.contr.Idx) :
    (dot_S2048x512_S512x32_S2048x32_1_0_0_1_n_n.rhsIdx i q 1).val = (i 1).val := by
  unfold DotDims.rhsIdx
  rw [dif_neg (show ¬(1 : Fin S512x32.rank) ∈ dot_S2048x512_S512x32_S2048x32_1_0_0_1_n_n.rhsBatch by decide), dif_pos (show (1 : Fin S512x32.rank) ∈ dot_S2048x512_S512x32_S2048x32_1_0_0_1_n_n.rhsNonContracting by decide)]
  rfl

/-- Into a zero accumulator the product at entry (p, h) is the sum over the 512 shared coordinates. -/
theorem matmulA_apply {φ₁ φ₂ : FTy} (a : FVec Ideal S2048x512 φ₁) (b : FVec Ideal S512x32 φ₂) (p : Fin 2048) (h : Fin 32) :
    matmul (F := Ideal) dot_S2048x512_S512x32_S2048x32_1_0_0_1_n_n none a b (constant (F := Ideal) S2048x32 .f32 0x00000000#32) (ix2 p h)
      = ∑ k : Fin 512, a (ix2 p k) * b (ix2 k h) := by
  refine (Ideal.matmul_constant_zero_apply dot_S2048x512_S512x32_S2048x32_1_0_0_1_n_n none a b (ix2 p h)).trans ?_
  rw [← Equiv.sum_comp (contrEquiv1 dot_S2048x512_S512x32_S2048x32_1_0_0_1_n_n 512 rfl rfl).symm]
  refine Finset.sum_congr rfl fun k _ => ?_
  have hk := contrEquiv1_symm_val dot_S2048x512_S512x32_S2048x32_1_0_0_1_n_n 512 rfl rfl k
  have el : dot_S2048x512_S512x32_S2048x32_1_0_0_1_n_n.lhsIdx (ix2 p h) ((contrEquiv1 dot_S2048x512_S512x32_S2048x32_1_0_0_1_n_n 512 rfl rfl).symm k) = ix2 p k := funext fun c => Fin.ext (by
    match c with
    | ⟨0, _⟩ => exact lhsA_0 _ _
    | ⟨1, _⟩ => exact (lhsA_1 _ _).trans hk)
  have er : dot_S2048x512_S512x32_S2048x32_1_0_0_1_n_n.rhsIdx (ix2 p h) ((contrEquiv1 dot_S2048x512_S512x32_S2048x32_1_0_0_1_n_n 512 rfl rfl).symm k) = ix2 k h := funext fun c => Fin.ext (by
    match c with
    | ⟨0, _⟩ => exact (rhsA_0 _ _).trans hk
    | ⟨1, _⟩ => exact rhsA_1 _ _)
  rw [el, er]

/-! ### The product of a 2048 × 32 array with a 32 × 96 array -/

theorem lhsB_0 (i : S2048x96.Idx) (q : dot_S2048x32_S32x96_S2048x96_1_0_0_1_n_n.contr.Idx) :
    (dot_S2048x32_S32x96_S2048x96_1_0_0_1_n_n.lhsIdx i q 0).val = (i 0).val := by
  unfold DotDims.lhsIdx
  rw [dif_neg (show ¬(0 : Fin S2048x32.rank) ∈ dot_S2048x32_S32x96_S2048x96_1_0_0_1_n_n.lhsBatch by decide), dif_pos (show (0 : Fin S2048x32.rank) ∈ dot_S2048x32_S32x96_S2048x96_1_0_0_1_n_n.lhsNonContracting by decide)]
  rfl
theorem lhsB_1 (i : S2048x96.Idx) (q : dot_S2048x32_S32x96_S2048x96_1_0_0_1_n_n.contr.Idx) :
    (dot_S2048x32_S32x96_S2048x96_1_0_0_1_n_n.lhsIdx i q 1).val = (q ⟨0, by decide⟩).val :=
  dot_S2048x32_S32x96_S2048x96_1_0_0_1_n_n.lhsIdx_val_of_single rfl i q
theorem rhsB_0 (i : S2048x96.Idx) (q : dot_S2048x32_S32x96_S2048x96_1_0_0_1_n_n.contr.Idx) :
    (dot_S2048x32_S32x96_S2048x96_1_0_0_1_n_n.rhsIdx i q 0).val = (q ⟨0, by decide⟩).val :=
  dot_S2048x32_S32x96_S2048x96_1_0_0_1_n_n.rhsIdx_val_of_single rfl i q
theorem rhsB_1 (i : S2048x96.Idx) (q : dot_S2048x32_S32x96_S2048x96_1_0_0_1_n_n.contr.Idx) :
    (dot_S2048x32_S32x96_S2048x96_1_0_0_1_n_n.rhsIdx i q 1).val = (i 1).val := by
  unfold DotDims.rhsIdx
  rw [dif_neg (show ¬(1 : Fin S32x96.rank) ∈ dot_S2048x32_S32x96_S2048x96_1_0_0_1_n_n.rhsBatch by decide), dif_pos (show (1 : Fin S32x96.rank) ∈ dot_S2048x32_S32x96_S2048x96_1_0_0_1_n_n.rhsNonContracting by decide)]
  rfl

/-- Into a zero accumulator the product at entry (p, h) is the sum over the 32 shared coordinates. -/
theorem matmulB_apply {φ₁ φ₂ : FTy} (a : FVec Ideal S2048x32 φ₁) (b : FVec Ideal S32x96 φ₂) (p : Fin 2048) (h : Fin 96) :
    matmul (F := Ideal) dot_S2048x32_S32x96_S2048x96_1_0_0_1_n_n none a b (constant (F := Ideal) S2048x96 .f32 0x00000000#32) (ix2 p h)
      = ∑ k : Fin 32, a (ix2 p k) * b (ix2 k h) := by
  refine (Ideal.matmul_constant_zero_apply dot_S2048x32_S32x96_S2048x96_1_0_0_1_n_n none a b (ix2 p h)).trans ?_
  rw [← Equiv.sum_comp (contrEquiv1 dot_S2048x32_S32x96_S2048x96_1_0_0_1_n_n 32 rfl rfl).symm]
  refine Finset.sum_congr rfl fun k _ => ?_
  have hk := contrEquiv1_symm_val dot_S2048x32_S32x96_S2048x96_1_0_0_1_n_n 32 rfl rfl k
  have el : dot_S2048x32_S32x96_S2048x96_1_0_0_1_n_n.lhsIdx (ix2 p h) ((contrEquiv1 dot_S2048x32_S32x96_S2048x96_1_0_0_1_n_n 32 rfl rfl).symm k) = ix2 p k := funext fun c => Fin.ext (by
    match c with
    | ⟨0, _⟩ => exact lhsB_0 _ _
    | ⟨1, _⟩ => exact (lhsB_1 _ _).trans hk)
  have er : dot_S2048x32_S32x96_S2048x96_1_0_0_1_n_n.rhsIdx (ix2 p h) ((contrEquiv1 dot_S2048x32_S32x96_S2048x96_1_0_0_1_n_n 32 rfl rfl).symm k) = ix2 k h := funext fun c => Fin.ext (by
    match c with
    | ⟨0, _⟩ => exact (rhsB_0 _ _).trans hk
    | ⟨1, _⟩ => exact rhsB_1 _ _)
  rw [el, er]

/-! ### One gate row -/

/-- Row r of the operand against the transposed weight, plus the bias row, is the gate's pre-activation. -/
theorem gateRow_apply (y : FVec Ideal S2048x32 .f32) (wT : FVec Ideal S32x96 .f32) (b2 : FVec Ideal S1x96 .f32)
    (w : FVec Ideal Spec.Wt .f32) (b : FVec Ideal Spec.Bi .f32)
    (hw : ∀ (k : Fin 32) (j : Fin 96), wT (ix2 k j) = w (ix2 j k)) (hb : ∀ j : Fin 96, b2 (ix2 0 j) = b (ix1 j))
    (h1 : FTy.bits .bf16 < FTy.bits .f32) (h2 : S32x96.ShapeCasts S32x96) (h3 : S1x96.ShapeCasts S1x96)
    (h4 : S1x96.Broadcasts S2048x96) (r : Fin 2048) (j : Fin 96) :
    addf (matmul (F := Ideal) dot_S2048x32_S32x96_S2048x96_1_0_0_1_n_n none (truncf .bf16 y h1) (truncf .bf16 (shapeCast S32x96 wT h2) h1)
            (constant (F := Ideal) S2048x96 .f32 0x00000000#32))
         (broadcastTo S2048x96 (shapeCast S1x96 b2 h3) h4) (ix2 r j)
      = Spec.gate (fun k => y (ix2 r k)) w b j := by
  rw [shapeCast_self, shapeCast_self]
  refine (addf_apply _ _ _).trans ?_
  rw [matmulB_apply, bcastRow_apply, hb]
  unfold Spec.gate
  refine congrArg (· + b (ix1 j)) (Finset.sum_congr rfl fun k _ => ?_)
  show y (ix2 r k) * wT (ix2 k j) = y (ix2 r k) * w (ix2 j k)
  rw [hw]

/-! ### The three payloads -/

/-- The zeroed accumulator. -/
theorem pay1_apply (p : Fin 2048) (h : Fin 32) : (k1_pay1 (F := Ideal)) (ix2 p h) = 0 := by
  unfold k1_pay1
  show shapeCast S2048x32 (broadcast S2048x32 (Ideal.ofBits .f32 0x00000000#32)) shapeCasts_S2048x32_S2048x32 (ix2 p h) = 0
  rw [shapeCast_self]
  exact Ideal.ofBits_zero_f32

/-- One tile's update of the accumulator at entry (p, h). -/
theorem pay2_apply (xa : FVec Ideal S1x2048x512 .f32) (xc : FVec Ideal S1x512x32 .f32) (acc : FVec Ideal S2048x32 .f32)
    (p : Fin 2048) (h : Fin 32) :
    k1_pay2 xa xc acc (ix2 p h) = acc (ix2 p h) + ∑ k : Fin 512, xa (ix3 0 p k) * xc (ix3 0 k h) := by
  unfold k1_pay2
  show shapeCast S2048x32 (addf acc (matmul (F := Ideal) dot_S2048x512_S512x32_S2048x32_1_0_0_1_n_n none
      (truncf .bf16 (shapeCast S2048x512 xa shapeCasts_S1x2048x512_S2048x512) bitsLt_bf16_f32)
      (truncf .bf16 (shapeCast S512x32 xc shapeCasts_S1x512x32_S512x32) bitsLt_bf16_f32)
      (constant (F := Ideal) S2048x32 .f32 0x00000000#32))) shapeCasts_S2048x32_S2048x32 (ix2 p h) = _
  rw [shapeCast_self]
  refine (addf_apply _ _ _).trans ?_
  rw [matmulA_apply]
  refine congrArg (acc (ix2 p h) + ·) (Finset.sum_congr rfl fun k _ => ?_)
  show shapeCast S2048x512 xa shapeCasts_S1x2048x512_S2048x512 (ix2 p k) * shapeCast S512x32 xc shapeCasts_S1x512x32_S512x32 (ix2 k h) = _
  rw [shapeCast_drop1, shapeCast_drop1]

/-- The gated update stored at the last tile, at row r and component e. -/
theorem pay34_apply (acc : FVec Ideal S2048x32 .f32) (x : FVec Ideal S1x2048x32 .f32)
    (wiT whT : FVec Ideal S32x96 .f32) (bi2 bh2 : FVec Ideal S1x96 .f32)
    (wi wh : FVec Ideal Spec.Wt .f32) (bi bh : FVec Ideal Spec.Bi .f32)
    (hwi : ∀ (k : Fin 32) (j : Fin 96), wiT (ix2 k j) = wi (ix2 j k))
    (hwh : ∀ (k : Fin 32) (j : Fin 96), whT (ix2 k j) = wh (ix2 j k))
    (hbi : ∀ j : Fin 96, bi2 (ix2 0 j) = bi (ix1 j))
    (hbh : ∀ j : Fin 96, bh2 (ix2 0 j) = bh (ix1 j))
    (r : Fin 2048) (e : Fin 32) :
    k1_pay3 (k1_pay4 acc x wiT bi2 whT bh2) (ix3 0 r e)
      = Spec.cell (fun k => x (ix3 0 r k)) (fun k => acc (ix2 r k)) wi wh bi bh e := by
  unfold k1_pay3
  refine (shapeCast_add1 _ shapeCasts_S2048x32_S1x2048x32 r e).trans ?_
  have gI : ∀ j : Fin 96,
      matmul (F := Ideal) dot_S2048x32_S32x96_S2048x96_1_0_0_1_n_n none
          (truncf .bf16 (shapeCast S2048x32 x shapeCasts_S1x2048x32_S2048x32) bitsLt_bf16_f32)
          (truncf .bf16 (shapeCast S32x96 wiT shapeCasts_S32x96_S32x96) bitsLt_bf16_f32)
          (constant (F := Ideal) S2048x96 .f32 0x00000000#32) (ix2 r j)
        + broadcastTo S2048x96 (shapeCast S1x96 bi2 shapeCasts_S1x96_S1x96) broadcasts_S1x96_S2048x96 (ix2 r j)
        = Spec.gate (fun k => x (ix3 0 r k)) wi bi j := fun j =>
    (gateRow_apply (shapeCast S2048x32 x shapeCasts_S1x2048x32_S2048x32) wiT bi2 wi bi hwi hbi bitsLt_bf16_f32
      shapeCasts_S32x96_S32x96 shapeCasts_S1x96_S1x96 broadcasts_S1x96_S2048x96 r j).trans
      (congrArg (fun f => Spec.gate f wi bi j) (funext fun k => shapeCast_drop1 x shapeCasts_S1x2048x32_S2048x32 r k))
  have gH : ∀ j : Fin 96,
      matmul (F := Ideal) dot_S2048x32_S32x96_S2048x96_1_0_0_1_n_n none (truncf .bf16 acc bitsLt_bf16_f32)
          (truncf .bf16 (shapeCast S32x96 whT shapeCasts_S32x96_S32x96) bitsLt_bf16_f32)
          (constant (F := Ideal) S2048x96 .f32 0x00000000#32) (ix2 r j)
        + broadcastTo S2048x96 (shapeCast S1x96 bh2 shapeCasts_S1x96_S1x96) broadcasts_S1x96_S2048x96 (ix2 r j)
        = Spec.gate (fun k => acc (ix2 r k)) wh bh j := fun j =>
    gateRow_apply acc whT bh2 wh bh hwh hbh bitsLt_bf16_f32
      shapeCasts_S32x96_S32x96 shapeCasts_S1x96_S1x96 broadcasts_S1x96_S2048x96 r j
  unfold k1_pay4 Spec.cell
  simp only [addf_apply, mulf_apply, subf_apply, broadcast_apply, logistic_apply, tanh_apply,
    sliceLo_apply, sliceMid_apply, sliceHi_apply]
  rw [gI (Spec.mid e), gI (Spec.hi e), gI (Spec.lo e), gH (Spec.mid e), gH (Spec.hi e), gH (Spec.lo e)]
  rfl

end Cert.KernelIdeal.PathCell

end
-- ==== Proof.KI.PathValue.lean ====
/-
  The path-update region's value: what it leaves in its output array.

  Point 4·b + j of the grid handles column tile j of batch b. The accumulator collects, tile by tile, the product of
  the batch's adjacency rows with the new channel states: after tile j its entry (p, h) is the sum over the first
  512·(j+1) channels. At tile 3 that is the specification's path message, the gated cell turns it and the batch's
  path states into the new path states, and the block is written back to batch b's rows of the output array. The
  sixteen batches cover the array.
-/
import proofs.«138023_j44126493999752_1_alg».proof.Proof.KI.PathPieces
import proofs.«138023_j44126493999752_1_alg».proof.Proof.KI.PathCell
import proofs.«138023_j44126493999752_1_alg».proof.Proof.Spec
import Idealize.ShloMosaic.Lib.ValueIdx
import Idealize.ShloMosaic.Lib.Pipeline.Value

set_option maxRecDepth 16384

noncomputable section

namespace Cert.KernelIdeal.Path

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-! ## The arrays and the blocks, at their literal types -/

abbrev adjArr (c : Dev nD) : FVec Ideal S16x2048x2048 .f32 := V c main_arg2
abbrev pathArr (c : Dev nD) : FVec Ideal S16x2048x32 .f32 := V c main_arg0
abbrev chanArr (c : Dev nD) : FVec Ideal S16x2048x32 .f32 := V c main_v8
abbrev wiArr (c : Dev nD) : FVec Ideal S32x96 .f32 := V c main_v4
abbrev whArr (c : Dev nD) : FVec Ideal S32x96 .f32 := V c main_v5
abbrev biArr (c : Dev nD) : FVec Ideal S1x96 .f32 := V c main_v6
abbrev bhArr (c : Dev nD) : FVec Ideal S1x96 .f32 := V c main_v7

abbrev adjBlk (c : Dev nD) (t : Fin cfg1.N) : FVec Ideal S1x2048x512 .f32 := iblk1 V c 0 t
abbrev chanBlk (c : Dev nD) (t : Fin cfg1.N) : FVec Ideal S1x512x32 .f32 := iblk1 V c 1 t
abbrev pathBlk (c : Dev nD) (t : Fin cfg1.N) : FVec Ideal S1x2048x32 .f32 := iblk1 V c 2 t
abbrev wiBlk (c : Dev nD) (t : Fin cfg1.N) : FVec Ideal S32x96 .f32 := iblk1 V c 3 t
abbrev whBlk (c : Dev nD) (t : Fin cfg1.N) : FVec Ideal S32x96 .f32 := iblk1 V c 4 t
abbrev biBlk (c : Dev nD) (t : Fin cfg1.N) : FVec Ideal S1x96 .f32 := iblk1 V c 5 t
abbrev bhBlk (c : Dev nD) (t : Fin cfg1.N) : FVec Ideal S1x96 .f32 := iblk1 V c 6 t

/-! ## Where each block sits in its array -/

/-- The block indices over the grid: point t is tile t mod 4 of batch t div 4. -/
theorem idx_facts : ∀ t : Fin cfg1.N,
    win1_0.index t (0 : Fin 3) = t.val / 4 ∧ win1_0.index t (1 : Fin 3) = 0 ∧ win1_0.index t (2 : Fin 3) = t.val % 4
    ∧ win1_1.index t (0 : Fin 3) = t.val / 4 ∧ win1_1.index t (1 : Fin 3) = t.val % 4 ∧ win1_1.index t (2 : Fin 3) = 0
    ∧ win1_2.index t (0 : Fin 3) = t.val / 4 ∧ win1_2.index t (1 : Fin 3) = 0 ∧ win1_2.index t (2 : Fin 3) = 0
    ∧ win1_7.index t (0 : Fin 3) = t.val / 4 ∧ win1_7.index t (1 : Fin 3) = 0 ∧ win1_7.index t (2 : Fin 3) = 0 :=
  (by decide +kernel : ∀ t : Fin grid1.N, _)

/-- The weights' and biases' windows are their whole arrays at every point. -/
theorem idx_facts_w : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem adjBlk_apply (c : Dev nD) (t : Fin cfg1.N) (b : Fin 16) (j : Fin 4) (ht : t.val = 4 * b.val + j.val) (p : Fin 2048) (k : Fin 512)
    (cc : Fin 2048) (hcc : cc.val = 512 * j.val + k.val) :
    adjBlk V c t (ix3 0 p k) = adjArr V c (ix3 b p cc) := by
  obtain ⟨e0, e1, e2, -⟩ := idx_facts t
  unfold adjBlk iblk1
  rw [View.read_apply]
  show V c main_arg2 _ = V c main_arg2 _
  congr 1
  funext a
  apply Fin.ext
  match a with
  | ⟨0, _⟩ => show win1_0.index t (0 : Fin 3) * 1 + 1 * 0 = b.val; omega
  | ⟨1, _⟩ => show win1_0.index t (1 : Fin 3) * 2048 + 1 * p.val = p.val; omega
  | ⟨2, _⟩ => show win1_0.index t (2 : Fin 3) * 512 + 1 * k.val = cc.val; omega

theorem chanBlk_apply (c : Dev nD) (t : Fin cfg1.N) (b : Fin 16) (j : Fin 4) (ht : t.val = 4 * b.val + j.val) (k : Fin 512) (h : Fin 32)
    (cc : Fin 2048) (hcc : cc.val = 512 * j.val + k.val) :
    chanBlk V c t (ix3 0 k h) = chanArr V c (ix3 b cc h) := by
  obtain ⟨-, -, -, e0, e1, e2, -⟩ := idx_facts t
  unfold chanBlk iblk1
  rw [View.read_apply]
  show V c main_v8 _ = V c main_v8 _
  congr 1
  funext a
  apply Fin.ext
  match a with
  | ⟨0, _⟩ => show win1_1.index t (0 : Fin 3) * 1 + 1 * 0 = b.val; omega
  | ⟨1, _⟩ => show win1_1.index t (1 : Fin 3) * 512 + 1 * k.val = cc.val; omega
  | ⟨2, _⟩ => show win1_1.index t (2 : Fin 3) * 32 + 1 * h.val = h.val; omega

theorem pathBlk_apply (c : Dev nD) (t : Fin cfg1.N) (b : Fin 16) (j : Fin 4) (ht : t.val = 4 * b.val + j.val) (r : Fin 2048) (e : Fin 32) :
    pathBlk V c t (ix3 0 r e) = pathArr V c (ix3 b r e) := by
  obtain ⟨-, -, -, -, -, -, e0, e1, e2, -⟩ := idx_facts t
  unfold pathBlk iblk1
  rw [View.read_apply]
  show V c main_arg0 _ = V c main_arg0 _
  congr 1
  funext a
  apply Fin.ext
  match a with
  | ⟨0, _⟩ => show win1_2.index t (0 : Fin 3) * 1 + 1 * 0 = b.val; omega
  | ⟨1, _⟩ => show win1_2.index t (1 : Fin 3) * 2048 + 1 * r.val = r.val; omega
  | ⟨2, _⟩ => show win1_2.index t (2 : Fin 3) * 32 + 1 * e.val = e.val; omega

theorem wiBlk_apply (c : Dev nD) (t : Fin cfg1.N) (k : Fin 32) (j : Fin 96) : wiBlk V c t (ix2 k j) = wiArr V c (ix2 k j) := by
  obtain ⟨e0, e1, -⟩ := idx_facts_w t
  unfold wiBlk iblk1
  rw [View.read_apply]
  show V c main_v4 _ = V c main_v4 _
  congr 1
  funext a
  apply Fin.ext
  match a with
  | ⟨0, _⟩ => show win1_3.index t (0 : Fin 2) * 32 + 1 * k.val = k.val; omega
  | ⟨1, _⟩ => show win1_3.index t (1 : Fin 2) * 96 + 1 * j.val = j.val; omega

theorem whBlk_apply (c : Dev nD) (t : Fin cfg1.N) (k : Fin 32) (j : Fin 96) : whBlk V c t (ix2 k j) = whArr V c (ix2 k j) := by
  obtain ⟨-, -, e0, e1, -⟩ := idx_facts_w t
  unfold whBlk iblk1
  rw [View.read_apply]
  show V c main_v5 _ = V c main_v5 _
  congr 1
  funext a
  apply Fin.ext
  match a with
  | ⟨0, _⟩ => show win1_4.index t (0 : Fin 2) * 32 + 1 * k.val = k.val; omega
  | ⟨1, _⟩ => show win1_4.index t (1 : Fin 2) * 96 + 1 * j.val = j.val; omega

theorem biBlk_apply (c : Dev nD) (t : Fin cfg1.N) (j : Fin 96) : biBlk V c t (ix2 0 j) = biArr V c (ix2 0 j) := by
  obtain ⟨-, -, -, -, e0, e1, -⟩ := idx_facts_w t
  unfold biBlk iblk1
  rw [View.read_apply]
  show V c main_v6 _ = V c main_v6 _
  congr 1
  funext a
  apply Fin.ext
  match a with
  | ⟨0, _⟩ => show win1_5.index t (0 : Fin 2) * 1 + 1 * 0 = 0; omega
  | ⟨1, _⟩ => show win1_5.index t (1 : Fin 2) * 96 + 1 * j.val = j.val; omega

theorem bhBlk_apply (c : Dev nD) (t : Fin cfg1.N) (j : Fin 96) : bhBlk V c t (ix2 0 j) = bhArr V c (ix2 0 j) := by
  obtain ⟨-, -, -, -, -, -, e0, e1⟩ := idx_facts_w t
  unfold bhBlk iblk1
  rw [View.read_apply]
  show V c main_v7 _ = V c main_v7 _
  congr 1
  funext a
  apply Fin.ext
  match a with
  | ⟨0, _⟩ => show win1_6.index t (0 : Fin 2) * 1 + 1 * 0 = 0; omega
  | ⟨1, _⟩ => show win1_6.index t (1 : Fin 2) * 96 + 1 * j.val = j.val; omega

/-! ## One tile's partial product, over the arrays -/

/-- The product adjacency × new channel state at batch b, path p, component h and channel position m, zero past
    the 2048 channels (a total function of the position, so that sums over ranges of positions need no bounds). -/
def term (c : Dev nD) (b : Fin 16) (p : Fin 2048) (h : Fin 32) (m : ℕ) : Ideal .f32 :=
  if hm : m < 2048 then adjArr V c (ix3 b p ⟨m, hm⟩) * chanArr V c (ix3 b ⟨m, hm⟩ h) else 0

/-- The tile's partial product at entry (p, h): the 512 channel positions of the tile. -/
theorem tile_eq (c : Dev nD) (t : Fin cfg1.N) (b : Fin 16) (j : Fin 4) (ht : t.val = 4 * b.val + j.val) (p : Fin 2048) (h : Fin 32) :
    ∑ k : Fin 512, adjBlk V c t (ix3 0 p k) * chanBlk V c t (ix3 0 k h) = ∑ x ∈ Finset.range 512, term V c b p h (512 * j.val + x) := by
  rw [Finset.sum_range]
  refine Finset.sum_congr rfl fun k _ => ?_
  have hk : 512 * j.val + k.val < 2048 := by omega
  unfold term
  rw [dif_pos hk, adjBlk_apply V c t b j ht p k ⟨512 * j.val + k.val, hk⟩ rfl, chanBlk_apply V c t b j ht k h ⟨512 * j.val + k.val, hk⟩ rfl]

/-- All 2048 positions: the specification's path message. -/
theorem sum_term_eq (c : Dev nD) (b : Fin 16) (p : Fin 2048) (h : Fin 32) :
    ∑ m ∈ Finset.range 2048, term V c b p h m = Cert.Spec.pathMsg (adjArr V c) (chanArr V c) b p h := by
  rw [Finset.sum_range]
  unfold Cert.Spec.pathMsg
  refine Finset.sum_congr rfl fun cc _ => ?_
  unfold term
  rw [dif_pos cc.isLt]

/-! ## The accumulator in closed form -/

/-- A run of 512·(j+1) positions is the run of 512·j followed by tile j's 512. -/
theorem range_split (f : ℕ → Ideal .f32) (j : ℕ) :
    ∑ m ∈ Finset.range (512 * (j + 1)), f m = ∑ m ∈ Finset.range (512 * j), f m + ∑ x ∈ Finset.range 512, f (512 * j + x) := by
  rw [show 512 * (j + 1) = 512 * j + 512 from by omega, Finset.sum_range_add]

/-- At tile 0 the accumulator is the tile's partial product over zero. -/
theorem accAt1_reset (c : Dev nD) (n : ℕ) (hn : n < cfg1.N) (h0 : n % 4 = 0) :
    accAt1 V c n hn = k1_pay2 (F := Ideal) (adjBlk V c ⟨n, hn⟩) (chanBlk V c ⟨n, hn⟩) (k1_pay1 (F := Ideal)) := by
  have h1 : ¬(⟨n, hn⟩ : Fin cfg1.N).val % 4 = 3 := by show ¬n % 4 = 3; omega
  rw [accAt1_A V c ⟨n, hn⟩ h0 h1, accA_eq]

/-- At the other tiles it is the tile's partial product over what the point before left. -/
theorem accAt1_step (c : Dev nD) (n : ℕ) (hn : n + 1 < cfg1.N) (h0 : ¬(n + 1) % 4 = 0) :
    accAt1 V c (n + 1) hn = k1_pay2 (F := Ideal) (adjBlk V c ⟨n + 1, hn⟩) (chanBlk V c ⟨n + 1, hn⟩) (accAt1 V c n (Nat.lt_of_succ_lt hn)) := by
  by_cases h1 : (n + 1) % 4 = 3
  · rw [accAt1_C V c ⟨n + 1, hn⟩ h0 h1, accC_eq]; rfl
  · rw [accAt1_B V c ⟨n + 1, hn⟩ h0 h1, accB_eq]; rfl

/-- After point 4·b + j the accumulator's entry (p, h) is the sum over the first 512·(j+1) channel positions of
    batch b. -/
theorem accAt1_apply (c : Dev nD) : ∀ (n : ℕ) (hn : n < cfg1.N) (b : Fin 16) (j : Fin 4) (hnb : n = 4 * b.val + j.val) (p : Fin 2048) (h : Fin 32),
    (accAt1 V c n hn : FVec Ideal S2048x32 .f32) (ix2 p h) = ∑ m ∈ Finset.range (512 * (j.val + 1)), term V c b p h m := by
  intro n
  induction n with
  | zero =>
    intro hn b j hnb p h
    have hj : j.val = 0 := by omega
    rw [accAt1_reset V c 0 hn rfl, range_split]
    refine (PathCell.pay2_apply (adjBlk V c ⟨0, hn⟩) (chanBlk V c ⟨0, hn⟩) (k1_pay1 (F := Ideal)) p h).trans ?_
    rw [PathCell.pay1_apply, tile_eq V c ⟨0, hn⟩ b j hnb p h, hj]
    simp only [Nat.mul_zero, Finset.range_zero, Finset.sum_empty]
  | succ n ih =>
    intro hn b j hnb p h
    rw [range_split]
    by_cases h0 : (n + 1) % 4 = 0
    · have hj : j.val = 0 := by omega
      rw [accAt1_reset V c (n + 1) hn h0]
      refine (PathCell.pay2_apply (adjBlk V c ⟨n + 1, hn⟩) (chanBlk V c ⟨n + 1, hn⟩) (k1_pay1 (F := Ideal)) p h).trans ?_
      rw [PathCell.pay1_apply, tile_eq V c ⟨n + 1, hn⟩ b j hnb p h, hj]
      simp only [Nat.mul_zero, Finset.range_zero, Finset.sum_empty]
    · obtain ⟨j', hj'⟩ : ∃ j' : Fin 4, j.val = j'.val + 1 := ⟨⟨j.val - 1, by omega⟩, by show j.val = j.val - 1 + 1; omega⟩
      rw [accAt1_step V c n hn h0]
      refine (PathCell.pay2_apply (adjBlk V c ⟨n + 1, hn⟩) (chanBlk V c ⟨n + 1, hn⟩) (accAt1 V c n (Nat.lt_of_succ_lt hn)) p h).trans ?_
      rw [tile_eq V c ⟨n + 1, hn⟩ b j hnb p h, ih (Nat.lt_of_succ_lt hn) b j' (by omega) p h, hj']

/-! ## The output window after a point of tile 3 -/

variable (wi wh : FVec Ideal Cert.Spec.Wt .f32) (bi bh : FVec Ideal Cert.Spec.Bi .f32)

/-- Row r, component e of the staging buffer after point 4·b + 3: the specification's new path state of batch b. -/
theorem outAt1_apply (c : Dev nD)
    (hwi : ∀ (k : Fin 32) (j : Fin 96), wiArr V c (ix2 k j) = wi (ix2 j k))
    (hwh : ∀ (k : Fin 32) (j : Fin 96), whArr V c (ix2 k j) = wh (ix2 j k))
    (hbi : ∀ j : Fin 96, biArr V c (ix2 0 j) = bi (ix1 j))
    (hbh : ∀ j : Fin 96, bhArr V c (ix2 0 j) = bh (ix1 j))
    (t : Fin cfg1.N) (b : Fin 16) (ht : t.val = 4 * b.val + (3 : Fin 4).val) (r : Fin 2048) (e : Fin 32) :
    (outAt1 V c t : FVec Ideal S1x2048x32 .f32) (ix3 0 r e)
      = Cert.Spec.newPath (adjArr V c) (pathArr V c) (chanArr V c) wi wh bi bh (ix3 b r e) := by
  have h0 : ¬t.val % 4 = 0 := by rw [ht]; show ¬(4 * b.val + 3) % 4 = 0; omega
  have h1 : t.val % 4 = 3 := by rw [ht]; show (4 * b.val + 3) % 4 = 3; omega
  have hacc : k1_pay2 (F := Ideal) (adjBlk V c t) (chanBlk V c t) (accBefore1 V c t) = accAt1 V c t.val t.isLt :=
    ((accAt1_C V c t h0 h1).trans (accC_eq V c t h0 h1 (accBefore1 V c t))).symm
  rw [outAt1_C V c t h0 h1, outC_eq, hacc]
  refine (PathCell.pay34_apply (accAt1 V c t.val t.isLt) (pathBlk V c t) (wiBlk V c t) (whBlk V c t) (biBlk V c t) (bhBlk V c t)
    wi wh bi bh ?_ ?_ ?_ ?_ r e).trans ?_
  · intro k j; rw [wiBlk_apply]; exact hwi k j
  · intro k j; rw [whBlk_apply]; exact hwh k j
  · intro j; rw [biBlk_apply]; exact hbi j
  · intro j; rw [bhBlk_apply]; exact hbh j
  show Cert.Spec.cell _ _ wi wh bi bh e = Cert.Spec.cell _ _ wi wh bi bh e
  congr 1
  · funext k; exact pathBlk_apply V c t b 3 ht r k
  · funext k
    rw [accAt1_apply V c t.val t.isLt b 3 ht r k]
    exact sum_term_eq V c b r k

/-! ## From the blocks to the array -/

/-- What a point of tile 3 writes back is its block of the specification's new path states. -/
theorem flushed7_eq (c : Dev nD)
    (hwi : ∀ (k : Fin 32) (j : Fin 96), wiArr V c (ix2 k j) = wi (ix2 j k))
    (hwh : ∀ (k : Fin 32) (j : Fin 96), whArr V c (ix2 k j) = wh (ix2 j k))
    (hbi : ∀ j : Fin 96, biArr V c (ix2 0 j) = bi (ix1 j))
    (hbh : ∀ j : Fin 96, bhArr V c (ix2 0 j) = bh (ix1 j))
    (t : Fin cfg1.N) (hf : (cfg1.win 7).flush t = true) :
    (dat1 (F := Ideal) V c).flushed 7 t
      = ((cfg1.win 7).blk t).view.read (Elt Ideal) (Cert.Spec.newPath (adjArr V c) (pathArr V c) (chanArr V c) wi wh bi bh) := by
  have h3 : t.val % 4 = 3 := (flush1_7 t).mp hf
  have hN : t.val < 64 := lt_of_lt_of_eq t.isLt (show cfg1.N = 64 from N_1)
  obtain ⟨b, hb⟩ : ∃ b : Fin 16, t.val = 4 * b.val + (3 : Fin 4).val :=
    ⟨⟨t.val / 4, by omega⟩, by show t.val = 4 * (t.val / 4) + 3; omega⟩
  obtain ⟨-, -, -, -, -, -, -, -, -, e0, e1, e2⟩ := idx_facts t
  show (cfg1.win 7).cut (grid1.coords t) ((dat1 V c).after 7 t) = _
  rw [after1_7]
  funext y
  obtain ⟨a, r, e, rfl⟩ : ∃ (a : Fin 1) (r : Fin 2048) (e : Fin 32), y = ix3 a r e := ⟨y 0, y 1, y 2, eq_ix3 y⟩
  obtain rfl : a = 0 := Subsingleton.elim _ _
  rw [View.read_apply]
  have hemb : ((cfg1.win 7).blk t).view.emb (ix3 (0 : Fin 1) r e) = ix3 b r e := by
    funext a
    apply Fin.ext
    match a with
    | ⟨0, _⟩ => show win1_7.index t (0 : Fin 3) * 1 + 1 * 0 = b.val; rw [e0]; have : b.val = t.val / 4 := by have := hb; show b.val = t.val / 4; omega
                rw [this]; omega
    | ⟨1, _⟩ => show win1_7.index t (1 : Fin 3) * 2048 + 1 * r.val = r.val; omega
    | ⟨2, _⟩ => show win1_7.index t (2 : Fin 3) * 32 + 1 * e.val = e.val; omega
  show outAt1 V c t (ix3 0 r e) = Cert.Spec.newPath (adjArr V c) (pathArr V c) (chanArr V c) wi wh bi bh (((cfg1.win 7).blk t).view.emb (ix3 0 r e))
  rw [hemb]
  exact outAt1_apply V wi wh bi bh c hwi hwh hbi hbh t b hb r e

/-- An index of the output array is in point t's block iff each coordinate is in the block's range on its axis. -/
theorem mem_blk7 (t : Fin cfg1.N) (i : S16x2048x32.Idx) :
    i ∈ ((cfg1.win 7).blk t).view.set ↔ ∀ a : Fin 3, win1_7.index t a * S1x2048x32.size a ≤ (i a).val ∧ (i a).val < win1_7.index t a * S1x2048x32.size a + S1x2048x32.size a := by
  show i ∈ ((View.whole main_v9).slice (win1_7.rect t)).set ↔ _
  rw [View.set_slice_whole, Rect.mem_set_unit]
  exact Iff.rfl

/-- Batch b's rows are written back at point 4·b + 3. -/
theorem cover7 (i : S16x2048x32.Idx) : ∃ t : Fin cfg1.N, (cfg1.win 7).flush t = true ∧ i ∈ ((cfg1.win 7).blk t).view.set := by
  have hi0 : (i 0).val < 16 := (i 0).isLt
  have hi1 : (i 1).val < 2048 := (i 1).isLt
  have hi2 : (i 2).val < 32 := (i 2).isLt
  have hN : cfg1.N = 64 := N_1
  refine ⟨⟨4 * (i 0).val + 3, by rw [hN]; omega⟩, (flush1_7 _).mpr (by show (4 * (i 0).val + 3) % 4 = 3; omega), ?_⟩
  obtain ⟨-, -, -, -, -, -, -, -, -, e0, e1, e2⟩ := idx_facts ⟨4 * (i 0).val + 3, by rw [hN]; omega⟩
  rw [mem_blk7]
  intro a
  match a with
  | ⟨0, _⟩ => show win1_7.index _ (0 : Fin 3) * 1 ≤ (i 0).val ∧ (i 0).val < win1_7.index _ (0 : Fin 3) * 1 + 1
              rw [e0]; show (4 * (i 0).val + 3) / 4 * 1 ≤ (i 0).val ∧ (i 0).val < (4 * (i 0).val + 3) / 4 * 1 + 1; omega
  | ⟨1, _⟩ => show win1_7.index _ (1 : Fin 3) * 2048 ≤ (i 1).val ∧ (i 1).val < win1_7.index _ (1 : Fin 3) * 2048 + 2048
              rw [e1]; omega
  | ⟨2, _⟩ => show win1_7.index _ (2 : Fin 3) * 32 ≤ (i 2).val ∧ (i 2).val < win1_7.index _ (2 : Fin 3) * 32 + 32
              rw [e2]; omega

/-- What the region leaves in its output array: the specification's new path states over the channel states it
    was handed, with the weights transposed back and the biases read off their rows. -/
theorem arrAt7_eq (V : (c : Dev nD) → (b : Ref sig .tc) → Buf (Elt Ideal) ((c : Thread nD τ).loc b)) (c : Dev nD)
    (wi wh : FVec Ideal Cert.Spec.Wt .f32) (bi bh : FVec Ideal Cert.Spec.Bi .f32)
    (hwi : ∀ (k : Fin 32) (j : Fin 96), (V c main_v4 : FVec Ideal S32x96 .f32) (ix2 k j) = wi (ix2 j k))
    (hwh : ∀ (k : Fin 32) (j : Fin 96), (V c main_v5 : FVec Ideal S32x96 .f32) (ix2 k j) = wh (ix2 j k))
    (hbi : ∀ j : Fin 96, (V c main_v6 : FVec Ideal S1x96 .f32) (ix2 0 j) = bi (ix1 j))
    (hbh : ∀ j : Fin 96, (V c main_v7 : FVec Ideal S1x96 .f32) (ix2 0 j) = bh (ix1 j)) :
    ((dat1 (F := Ideal) V c).arrAt 7 cfg1.N : FVec Ideal S16x2048x32 .f32) = Cert.Spec.newPath (V c main_arg2) (V c main_arg0) (V c main_v8) wi wh bi bh :=
  (dat1 (F := Ideal) V c).arrAt_eq_of_cover 7 (Cert.Spec.newPath (adjArr V c) (pathArr V c) (chanArr V c) wi wh bi bh)
    (fun t hf => flushed7_eq V wi wh bi bh c hwi hwh hbi hbh t hf) cover7

end Cert.KernelIdeal.Path

end
-- ==== Proof.KI.Bridge.lean ====
/-
  The idealized kernel program computes the specification.

  The host operations hand the first region the cells' weights transposed and their biases as rows, and leave the
  arguments untouched; the first region's output array then holds the new channel states; the second region finds
  that array, the arguments and the second cell's transposed weights and bias rows where the first left them, and
  its output array holds the new path states over the new channel states.
-/
import proofs.«138023_j44126493999752_1_alg».proof.Proof.KI.TwoRegions
import proofs.«138023_j44126493999752_1_alg».proof.Proof.KI.ChanValue
import proofs.«138023_j44126493999752_1_alg».proof.Proof.KI.PathValue
import Idealize.ShloMosaic.Lib.ValueLayout
import Idealize.ShloMosaic.Lib.StableHlo.Run

set_option maxRecDepth 16384

noncomputable section

namespace Cert.KernelIdeal.Bridge

open Idealize.ShloMosaic Idealize.ShloMosaic.TcCoe Idealize.ShloMosaic.ValueIdx Idealize.ShloMosaic.StableHlo
open Idealize.SL.Sem
open Cert.KernelIdeal Cert.KernelIdeal.Gen Cert.KernelIdeal.Both
open Cert.KernelIdeal.Chan (dat0)
open Cert.KernelIdeal.Path (dat1)

variable (m : (ℓ : Loc nD τ sig) → Buf (Elt Ideal) ℓ) (ρ : Dev nD → PrngReg)

/-! ## What the host operations write -/

theorem W1_v0 (c : Dev nD) : (W1 m c (Proc.devRef .tc main_v0) : FVec Ideal S32x96 .f32)
    = transpose S32x96 [1, 0] (m ((c.tc : Thread nD τ).loc main_arg3) : FVec Ideal S96x32 .f32) transposes_S96x32_S32x96_1_0 := by
  show StableHlo.after hostOps0 (fun b => m (c, b)) (Proc.devRef .tc main_v0) = _
  after_results
theorem W1_v1 (c : Dev nD) : (W1 m c (Proc.devRef .tc main_v1) : FVec Ideal S32x96 .f32)
    = transpose S32x96 [1, 0] (m ((c.tc : Thread nD τ).loc main_arg4) : FVec Ideal S96x32 .f32) transposes_S96x32_S32x96_1_0 := by
  show StableHlo.after hostOps0 (fun b => m (c, b)) (Proc.devRef .tc main_v1) = _
  after_results
theorem W1_v4 (c : Dev nD) : (W1 m c (Proc.devRef .tc main_v4) : FVec Ideal S32x96 .f32)
    = transpose S32x96 [1, 0] (m ((c.tc : Thread nD τ).loc main_arg7) : FVec Ideal S96x32 .f32) transposes_S96x32_S32x96_1_0 := by
  show StableHlo.after hostOps0 (fun b => m (c, b)) (Proc.devRef .tc main_v4) = _
  after_results
theorem W1_v5 (c : Dev nD) : (W1 m c (Proc.devRef .tc main_v5) : FVec Ideal S32x96 .f32)
    = transpose S32x96 [1, 0] (m ((c.tc : Thread nD τ).loc main_arg8) : FVec Ideal S96x32 .f32) transposes_S96x32_S32x96_1_0 := by
  show StableHlo.after hostOps0 (fun b => m (c, b)) (Proc.devRef .tc main_v5) = _
  after_results
theorem W1_v2 (c : Dev nD) : (W1 m c (Proc.devRef .tc main_v2) : FVec Ideal S1x96 .f32)
    = shapeCast S1x96 (m ((c.tc : Thread nD τ).loc main_arg5) : FVec Ideal S96 .f32) shapeCasts_S96_S1x96 := by
  show StableHlo.after hostOps0 (fun b => m (c, b)) (Proc.devRef .tc main_v2) = _
  after_results; rfl
theorem W1_v3 (c : Dev nD) : (W1 m c (Proc.devRef .tc main_v3) : FVec Ideal S1x96 .f32)
    = shapeCast S1x96 (m ((c.tc : Thread nD τ).loc main_arg6) : FVec Ideal S96 .f32) shapeCasts_S96_S1x96 := by
  show StableHlo.after hostOps0 (fun b => m (c, b)) (Proc.devRef .tc main_v3) = _
  after_results; rfl
theorem W1_v6 (c : Dev nD) : (W1 m c (Proc.devRef .tc main_v6) : FVec Ideal S1x96 .f32)
    = shapeCast S1x96 (m ((c.tc : Thread nD τ).loc main_arg9) : FVec Ideal S96 .f32) shapeCasts_S96_S1x96 := by
  show StableHlo.after hostOps0 (fun b => m (c, b)) (Proc.devRef .tc main_v6) = _
  after_results; rfl
theorem W1_v7 (c : Dev nD) : (W1 m c (Proc.devRef .tc main_v7) : FVec Ideal S1x96 .f32)
    = shapeCast S1x96 (m ((c.tc : Thread nD τ).loc main_arg10) : FVec Ideal S96 .f32) shapeCasts_S96_S1x96 := by
  show StableHlo.after hostOps0 (fun b => m (c, b)) (Proc.devRef .tc main_v7) = _
  after_results; rfl

/-- A transposed weight read at (k, j) is the weight at (j, k). -/
theorem W1_v0_apply (c : Dev nD) (k : Fin 32) (j : Fin 96) :
    (W1 m c (Proc.devRef .tc main_v0) : FVec Ideal S32x96 .f32) (ix2 k j) = (m ((c.tc : Thread nD τ).loc main_arg3) : FVec Ideal S96x32 .f32) (ix2 j k) := by
  rw [W1_v0 m c]; exact transpose_ix2_apply _ _ k j
theorem W1_v1_apply (c : Dev nD) (k : Fin 32) (j : Fin 96) :
    (W1 m c (Proc.devRef .tc main_v1) : FVec Ideal S32x96 .f32) (ix2 k j) = (m ((c.tc : Thread nD τ).loc main_arg4) : FVec Ideal S96x32 .f32) (ix2 j k) := by
  rw [W1_v1 m c]; exact transpose_ix2_apply _ _ k j
theorem W1_v4_apply (c : Dev nD) (k : Fin 32) (j : Fin 96) :
    (W1 m c (Proc.devRef .tc main_v4) : FVec Ideal S32x96 .f32) (ix2 k j) = (m ((c.tc : Thread nD τ).loc main_arg7) : FVec Ideal S96x32 .f32) (ix2 j k) := by
  rw [W1_v4 m c]; exact transpose_ix2_apply _ _ k j
theorem W1_v5_apply (c : Dev nD) (k : Fin 32) (j : Fin 96) :
    (W1 m c (Proc.devRef .tc main_v5) : FVec Ideal S32x96 .f32) (ix2 k j) = (m ((c.tc : Thread nD τ).loc main_arg8) : FVec Ideal S96x32 .f32) (ix2 j k) := by
  rw [W1_v5 m c]; exact transpose_ix2_apply _ _ k j
/-- A bias row read at (0, j) is the bias at j. -/
theorem W1_v2_apply (c : Dev nD) (j : Fin 96) :
    (W1 m c (Proc.devRef .tc main_v2) : FVec Ideal S1x96 .f32) (ix2 0 j) = (m ((c.tc : Thread nD τ).loc main_arg5) : FVec Ideal S96 .f32) (ix1 j) := by
  rw [W1_v2 m c]; exact shapeCast_a_1a_apply _ _ 0 j
theorem W1_v3_apply (c : Dev nD) (j : Fin 96) :
    (W1 m c (Proc.devRef .tc main_v3) : FVec Ideal S1x96 .f32) (ix2 0 j) = (m ((c.tc : Thread nD τ).loc main_arg6) : FVec Ideal S96 .f32) (ix1 j) := by
  rw [W1_v3 m c]; exact shapeCast_a_1a_apply _ _ 0 j
theorem W1_v6_apply (c : Dev nD) (j : Fin 96) :
    (W1 m c (Proc.devRef .tc main_v6) : FVec Ideal S1x96 .f32) (ix2 0 j) = (m ((c.tc : Thread nD τ).loc main_arg9) : FVec Ideal S96 .f32) (ix1 j) := by
  rw [W1_v6 m c]; exact shapeCast_a_1a_apply _ _ 0 j
theorem W1_v7_apply (c : Dev nD) (j : Fin 96) :
    (W1 m c (Proc.devRef .tc main_v7) : FVec Ideal S1x96 .f32) (ix2 0 j) = (m ((c.tc : Thread nD τ).loc main_arg10) : FVec Ideal S96 .f32) (ix1 j) := by
  rw [W1_v7 m c]; exact shapeCast_a_1a_apply _ _ 0 j

/-- The host operations write no argument. -/
theorem W1_arg0 (c : Dev nD) : W1 m c (Proc.devRef .tc main_arg0) = m ((c.tc : Thread nD τ).loc main_arg0) :=
  (V1_of m c main_arg0 (by decide)).trans rfl
theorem W1_arg1 (c : Dev nD) : W1 m c (Proc.devRef .tc main_arg1) = m ((c.tc : Thread nD τ).loc main_arg1) :=
  (V1_of m c main_arg1 (by decide)).trans rfl
theorem W1_arg2 (c : Dev nD) : W1 m c (Proc.devRef .tc main_arg2) = m ((c.tc : Thread nD τ).loc main_arg2) :=
  (V1_of m c main_arg2 (by decide)).trans rfl

/-! ## The first region's output array -/

theorem chan_eq (c : Dev nD) :
    ((dat0 (F := Ideal) (R1 m) c).arrAt 7 cfg0.N : FVec Ideal S16x2048x32 .f32)
      = Cert.Spec.newChan (m ((c.tc : Thread nD τ).loc main_arg2)) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  (Cert.KernelIdeal.Chan.arrAt7_eq (R1 m) c (m ((c.tc : Thread nD τ).loc main_arg3)) (m ((c.tc : Thread nD τ).loc main_arg4)) (m ((c.tc : Thread nD τ).loc main_arg5)) (m ((c.tc : Thread nD τ).loc main_arg6))
      (W1_v0_apply m c) (W1_v1_apply m c) (W1_v2_apply m c) (W1_v3_apply m c)).trans
    (by rw [show R1 m c main_arg2 = _ from W1_arg2 m c, show R1 m c main_arg0 = _ from W1_arg0 m c, show R1 m c main_arg1 = _ from W1_arg1 m c])

/-! ## What the second region finds -/

theorem W2_arg2 (c : Dev nD) : W2 m c (Proc.devRef .tc main_arg2) = m ((c.tc : Thread nD τ).loc main_arg2) :=
  (W2_in m c 0 rfl).trans (W1_arg2 m c)
theorem W2_arg0 (c : Dev nD) : W2 m c (Proc.devRef .tc main_arg0) = m ((c.tc : Thread nD τ).loc main_arg0) :=
  (W2_in m c 1 rfl).trans (W1_arg0 m c)
theorem W2_v8 (c : Dev nD) : W2 m c (Proc.devRef .tc main_v8) = (dat0 (F := Ideal) (R1 m) c).arrAt 7 cfg0.N :=
  W2_arr m c 7
theorem W2_v4_apply (c : Dev nD) (k : Fin 32) (j : Fin 96) :
    (W2 m c (Proc.devRef .tc main_v4) : FVec Ideal S32x96 .f32) (ix2 k j) = (m ((c.tc : Thread nD τ).loc main_arg7) : FVec Ideal S96x32 .f32) (ix2 j k) := by
  rw [W2_of_ne m c main_v4 (by decide)]; exact W1_v4_apply m c k j
theorem W2_v5_apply (c : Dev nD) (k : Fin 32) (j : Fin 96) :
    (W2 m c (Proc.devRef .tc main_v5) : FVec Ideal S32x96 .f32) (ix2 k j) = (m ((c.tc : Thread nD τ).loc main_arg8) : FVec Ideal S96x32 .f32) (ix2 j k) := by
  rw [W2_of_ne m c main_v5 (by decide)]; exact W1_v5_apply m c k j
theorem W2_v6_apply (c : Dev nD) (j : Fin 96) :
    (W2 m c (Proc.devRef .tc main_v6) : FVec Ideal S1x96 .f32) (ix2 0 j) = (m ((c.tc : Thread nD τ).loc main_arg9) : FVec Ideal S96 .f32) (ix1 j) := by
  rw [W2_of_ne m c main_v6 (by decide)]; exact W1_v6_apply m c j
theorem W2_v7_apply (c : Dev nD) (j : Fin 96) :
    (W2 m c (Proc.devRef .tc main_v7) : FVec Ideal S1x96 .f32) (ix2 0 j) = (m ((c.tc : Thread nD τ).loc main_arg10) : FVec Ideal S96 .f32) (ix1 j) := by
  rw [W2_of_ne m c main_v7 (by decide)]; exact W1_v7_apply m c j

/-! ## The second region's output array -/

theorem path_eq (c : Dev nD) :
    ((dat1 (F := Ideal) (R2 m) c).arrAt 7 cfg1.N : FVec Ideal S16x2048x32 .f32)
      = Cert.Spec.newPath (m ((c.tc : Thread nD τ).loc main_arg2)) (m ((c.tc : Thread nD τ).loc main_arg0))
          (Cert.Spec.newChan (m ((c.tc : Thread nD τ).loc main_arg2)) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)))
          (m ((c.tc : Thread nD τ).loc main_arg7)) (m ((c.tc : Thread nD τ).loc main_arg8)) (m ((c.tc : Thread nD τ).loc main_arg9)) (m ((c.tc : Thread nD τ).loc main_arg10)) :=
  (Cert.KernelIdeal.Path.arrAt7_eq (R2 m) c (m ((c.tc : Thread nD τ).loc main_arg7)) (m ((c.tc : Thread nD τ).loc main_arg8)) (m ((c.tc : Thread nD τ).loc main_arg9)) (m ((c.tc : Thread nD τ).loc main_arg10))
      (W2_v4_apply m c) (W2_v5_apply m c) (W2_v6_apply m c) (W2_v7_apply m c)).trans
    (by rw [show R2 m c main_arg2 = _ from W2_arg2 m c, show R2 m c main_arg0 = _ from W2_arg0 m c,
          show R2 m c main_v8 = _ from (W2_v8 m c).trans (chan_eq m c)])

/-! ## The run -/

/-- Every weakly fair execution of the idealized kernel program terminates with the first result at the new path
    states, the second at the new channel states, and every argument as launched. -/
theorem kernel_run : θ_run defs (onTc (τ := τ) (main (F := Ideal))) ⟨m, fun _ => 0, ρ⟩ (fun r => ∀ c : Dev nD,
      r.2.mem ((c.tc : Thread nD τ).loc main_v9) = Cert.Spec.newPath (m ((c.tc : Thread nD τ).loc main_arg2)) (m ((c.tc : Thread nD τ).loc main_arg0))
          (Cert.Spec.newChan (m ((c.tc : Thread nD τ).loc main_arg2)) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v8) = Cert.Spec.newChan (m ((c.tc : Thread nD τ).loc main_arg2)) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (path_eq m c), (h c).2.1.trans (chan_eq m c), (h c).2.2⟩) (run_named (F := Ideal) m ρ)

end Cert.KernelIdeal.Bridge

end
-- ==== Proof.RefSpec.lean ====
/-
  The reference program computes the specification: its run's results are the new path states and the new channel
  states of Proof/Spec.lean, as functions of the arguments.
-/
import proofs.«138023_j44126493999752_1_alg».proof.Proof.Gen.ReferenceIdeal.Run
import proofs.«138023_j44126493999752_1_alg».proof.Proof.Gen.ReferenceIdeal.Read
import proofs.«138023_j44126493999752_1_alg».proof.Proof.Spec
import Idealize.ShloMosaic.Lib.ValueIdx
import Idealize.ShloMosaic.Lib.Pipeline.Value
import Idealize.ShloMosaic.PureOps.Ideal.Laws

noncomputable section

namespace Cert.ReferenceIdeal.RefSpec

open Idealize.ShloMosaic Idealize.ShloMosaic.ValueIdx Idealize.SL.Sem
open Cert.ReferenceIdeal Cert.ReferenceIdeal.Gen

/-- The word 0x3F800000 is the extended real 1. -/
theorem word_one : Ideal.ofBits .f32 0x3F800000#32 = (1 : EReal) := by
  simp [Ideal.ofBits, Ideal.ieee, -EReal.coe_mul]; norm_num

/-- 1 / (1 + e^(-x)), written with the word of 1, is the logistic function. -/
theorem sigmoid_eq (x : Ideal .f32) :
    Ideal.div (Ideal.ofBits .f32 0x3F800000#32) (Ideal.ofBits .f32 0x3F800000#32 + Ideal.exp (-x)) = Ideal.logistic x := by
  rw [word_one]; rfl

/-- Row 2048·b + r of the 32768 rows: the row-major position of (b, r) among 16 × 2048. -/
abbrev row (b : Fin 16) (r : Fin 2048) : Fin 32768 := ⟨b.val * 2048 + r.val, by omega⟩

open Cert.Spec in
/-- The gated cell at a row of the flattened arrays. When the two 96-wide pre-activation arrays at row r are the gates
    of x and of h, and the hidden array at row r is h, then the elementwise expression
    (1 − z) · tanh(g_i³ + r · g_h³) + z · h with r, z written as 1 / (1 + e^(−·)) is the cell at component e. -/
theorem cell_row (GI GH : FVec Ideal S32768x96 .f32) (H : FVec Ideal S32768x32 .f32)
    (x h : Fin 32 → Ideal .f32) (wi wh : FVec Ideal Wt .f32) (bi bh : FVec Ideal Bi .f32) (r : Fin 32768) (e : Fin 32)
    (hGI : ∀ j : Fin 96, GI (ix2 r j) = gate x wi bi j) (hGH : ∀ j : Fin 96, GH (ix2 r j) = gate h wh bh j)
    (hH : H (ix2 r e) = h e) :
    (one - Ideal.div one (one + Ideal.exp (-(GI (ix2 r (mid e)) + GH (ix2 r (mid e))))))
        * Ideal.tanh (GI (ix2 r (hi e)) + Ideal.div one (one + Ideal.exp (-(GI (ix2 r (lo e)) + GH (ix2 r (lo e))))) * GH (ix2 r (hi e)))
      + Ideal.div one (one + Ideal.exp (-(GI (ix2 r (mid e)) + GH (ix2 r (mid e))))) * H (ix2 r e)
    = cell x h wi wh bi bh e := by
  rw [sigmoid_eq, sigmoid_eq, hGI, hGI, hGI, hGH, hGH, hGH, hH]
  rfl

/-! ## The channel update -/

section Chan

variable (x0 x1 : FVec Ideal S16x2048x32 .f32) (x2 : FVec Ideal S16x2048x2048 .f32)
  (x3 x4 : FVec Ideal S96x32 .f32) (x5 x6 : FVec Ideal S96 .f32)

/-- The input gates of the channel cell at row (b, r): the channel state's row against W_i, plus b_i. -/
theorem gi_chan (b : Fin 16) (r : Fin 2048) (j : Fin 96) :
    Read.val_main_v7 (F := Ideal) x1 x3 x5 (ix2 (row b r) j) = Cert.Spec.gate (fun k => x1 (ix3 b r k)) x3 x5 j := by
  have e1 : ∀ k : Fin 32, Read.idx_main_v1 (Read.lidx_main_v4 (ix2 (row b r) j) k) = ix3 b r k := fun k => funext fun a => by
    have hb := b.isLt; have hr := r.isLt; have hk := k.isLt
    match a with
    | ⟨0, _⟩ => exact Fin.ext (by show ((b.val * 2048 + r.val) * 32 + k.val) / 65536 = b.val; omega)
    | ⟨1, _⟩ => exact Fin.ext (by show ((b.val * 2048 + r.val) * 32 + k.val) / 32 % 2048 = r.val; omega)
    | ⟨2, _⟩ => exact Fin.ext (by show ((b.val * 2048 + r.val) * 32 + k.val) % 32 = k.val; omega)
  have e3 : ∀ k : Fin 32, Read.idx_main_v3 (Read.ridx_main_v4 (ix2 (row b r) j) k) = ix2 j k := fun k => funext fun a => by
    match a with
    | ⟨0, _⟩ => rfl
    | ⟨1, _⟩ => rfl
  have e5 : Read.idx_main_v5 (Read.idx_main_v6 (ix2 (row b r) j)) = ix1 j := funext fun a => by
    match a with
    | ⟨0, _⟩ => rfl
  rw [Read.val_main_v7_apply, Read.val_main_v4_apply, Read.val_main_v6_apply, Read.val_main_v5_apply, e5]
  simp only [Read.val_main_v1_apply, Read.val_main_v3_apply, e1, e3]
  rfl

/-- The channel message at row (b, r), component k: the sum over the paths. -/
theorem msg_chan (b : Fin 16) (r : Fin 2048) (k : Fin 32) :
    Read.val_main_v2 (F := Ideal) x0 x2 (ix2 (row b r) k) = Cert.Spec.chanMsg x2 x0 b r k := by
  have e2 : Read.idx_main_v2 (ix2 (row b r) k) = ix3 b r k := funext fun a => by
    have hb := b.isLt; have hr := r.isLt; have hk := k.isLt
    match a with
    | ⟨0, _⟩ => exact Fin.ext (by show ((b.val * 2048 + r.val) * 32 + k.val) / 65536 = b.val; omega)
    | ⟨1, _⟩ => exact Fin.ext (by show ((b.val * 2048 + r.val) * 32 + k.val) / 32 % 2048 = r.val; omega)
    | ⟨2, _⟩ => exact Fin.ext (by show ((b.val * 2048 + r.val) * 32 + k.val) % 32 = k.val; omega)
  have el : ∀ p : Fin 2048, Read.lidx_main_v0 (ix3 b r k) p = ix3 b p r := fun p => funext fun a => by
    match a with
    | ⟨0, _⟩ => rfl
    | ⟨1, _⟩ => rfl
    | ⟨2, _⟩ => rfl
  have er : ∀ p : Fin 2048, Read.ridx_main_v0 (ix3 b r k) p = ix3 b p k := fun p => funext fun a => by
    match a with
    | ⟨0, _⟩ => rfl
    | ⟨1, _⟩ => rfl
    | ⟨2, _⟩ => rfl
  rw [Read.val_main_v2_apply, e2, Read.val_main_v0_apply]
  simp only [el, er]
  rfl

/-- The hidden gates of the channel cell at row (b, r): the channel message's row against W_h, plus b_h. -/
theorem gh_chan (b : Fin 16) (r : Fin 2048) (j : Fin 96) :
    Read.val_main_v12 (F := Ideal) x0 x2 x4 x6 (ix2 (row b r) j)
      = Cert.Spec.gate (fun k => Cert.Spec.chanMsg x2 x0 b r k) x4 x6 j := by
  have el : ∀ k : Fin 32, Read.lidx_main_v9 (ix2 (row b r) j) k = ix2 (row b r) k := fun k => funext fun a => by
    match a with
    | ⟨0, _⟩ => rfl
    | ⟨1, _⟩ => rfl
  have e8 : ∀ k : Fin 32, Read.idx_main_v8 (Read.ridx_main_v9 (ix2 (row b r) j) k) = ix2 j k := fun k => funext fun a => by
    match a with
    | ⟨0, _⟩ => rfl
    | ⟨1, _⟩ => rfl
  have e10 : Read.idx_main_v10 (Read.idx_main_v11 (ix2 (row b r) j)) = ix1 j := funext fun a => by
    match a with
    | ⟨0, _⟩ => rfl
  rw [Read.val_main_v12_apply, Read.val_main_v9_apply, Read.val_main_v11_apply, Read.val_main_v10_apply, e10]
  simp only [Read.val_main_v8_apply, el, e8, msg_chan]
  rfl

/-- The flattened new channel states at row (b, r), component e, are the cell of the channel state's row and the
    channel message's row. -/
theorem chan_cell (b : Fin 16) (r : Fin 2048) (e : Fin 32) :
    Read.val_main_v40 (F := Ideal) x0 x1 x2 x3 x4 x5 x6 (ix2 (row b r) e)
      = Cert.Spec.cell (fun k => x1 (ix3 b r k)) (fun k => Cert.Spec.chanMsg x2 x0 b r k) x3 x4 x5 x6 e := by
  have s13 : Read.idx_main_v13 (ix2 (row b r) e) = ix2 (row b r) (Cert.Spec.lo e) := funext fun a => by
    match a with
    | ⟨0, _⟩ => rfl
    | ⟨1, _⟩ => rfl
  have s14 : Read.idx_main_v14 (ix2 (row b r) e) = ix2 (row b r) (Cert.Spec.mid e) := funext fun a => by
    match a with
    | ⟨0, _⟩ => rfl
    | ⟨1, _⟩ => rfl
  have s15 : Read.idx_main_v15 (ix2 (row b r) e) = ix2 (row b r) (Cert.Spec.hi e) := funext fun a => by
    match a with
    | ⟨0, _⟩ => rfl
    | ⟨1, _⟩ => rfl
  have s16 : Read.idx_main_v16 (ix2 (row b r) e) = ix2 (row b r) (Cert.Spec.lo e) := funext fun a => by
    match a with
    | ⟨0, _⟩ => rfl
    | ⟨1, _⟩ => rfl
  have s17 : Read.idx_main_v17 (ix2 (row b r) e) = ix2 (row b r) (Cert.Spec.mid e) := funext fun a => by
    match a with
    | ⟨0, _⟩ => rfl
    | ⟨1, _⟩ => rfl
  have s18 : Read.idx_main_v18 (ix2 (row b r) e) = ix2 (row b r) (Cert.Spec.hi e) := funext fun a => by
    match a with
    | ⟨0, _⟩ => rfl
    | ⟨1, _⟩ => rfl
  simp only [Read.val_main_v40_apply, Read.val_main_v38_apply, Read.val_main_v39_apply, Read.val_main_v37_apply, Read.val_main_v36_apply, Read.val_main_cst_3_apply, Read.val_main_v35_apply, Read.val_main_v34_apply, Read.val_main_v33_apply, Read.val_main_v32_apply, Read.val_main_v31_apply, Read.val_main_cst_2_apply, Read.val_main_v30_apply, Read.val_main_v29_apply, Read.val_main_cst_1_apply, Read.val_main_v28_apply, Read.val_main_v27_apply, Read.val_main_v26_apply, Read.val_main_v25_apply, Read.val_main_v24_apply, Read.val_main_cst_0_apply, Read.val_main_v23_apply, Read.val_main_v22_apply, Read.val_main_cst_apply, Read.val_main_v21_apply, Read.val_main_v20_apply, Read.val_main_v19_apply, Read.val_main_v13_apply, Read.val_main_v14_apply, Read.val_main_v15_apply, Read.val_main_v16_apply, Read.val_main_v17_apply, Read.val_main_v18_apply]
  rw [s13, s14, s15, s16, s17, s18]
  simp only [Ideal.addf_def, Ideal.mulf_def, Ideal.subf_def, Ideal.hostDivf_def, Ideal.hostUnary_exp_def, Ideal.hostUnary_tanh_def, Ideal.hostNegf_def, Ideal.negf_def, Ideal.ofBits_def]
  exact cell_row (Read.val_main_v7 (F := Ideal) x1 x3 x5) (Read.val_main_v12 (F := Ideal) x0 x2 x4 x6)
    (Read.val_main_v2 (F := Ideal) x0 x2) _ _ x3 x4 x5 x6 (row b r) e
    (fun j => gi_chan x1 x3 x5 b r j) (fun j => gh_chan x0 x2 x4 x6 b r j) (msg_chan x0 x2 b r e)

/-- The new channel states, as an array, are the specification's. -/
theorem chan_eq :
    Read.val_main_v41 (F := Ideal) x0 x1 x2 x3 x4 x5 x6 = Cert.Spec.newChan x2 x0 x1 x3 x4 x5 x6 := by
  funext i
  obtain ⟨b, r, e, rfl⟩ : ∃ (b : Fin 16) (r : Fin 2048) (e : Fin 32), i = ix3 b r e := ⟨i 0, i 1, i 2, eq_ix3 i⟩
  have e41 : Read.idx_main_v41 (ix3 b r e) = ix2 (row b r) e := funext fun a => by
    have hb := b.isLt; have hr := r.isLt; have he := e.isLt
    match a with
    | ⟨0, _⟩ => exact Fin.ext (by show ((b.val * 2048 + r.val) * 32 + e.val) / 32 = b.val * 2048 + r.val; omega)
    | ⟨1, _⟩ => exact Fin.ext (by show ((b.val * 2048 + r.val) * 32 + e.val) % 32 = e.val; omega)
  rw [Read.val_main_v41_apply, e41, chan_cell]
  rfl

end Chan

/-- The reference's second result is the specification's new channel states of the arguments. -/
theorem res_chan (m : (ℓ : Loc nD τ sig) → Buf (Elt Ideal) ℓ) (c : Dev nD) :
    Cert.ReferenceIdeal.Value.res_main_v41 (F := Ideal) m c
      = Cert.Spec.newChan (m ((c.tc : Thread nD τ).loc main_arg2)) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  (Read.val_main_v41_eq m c).trans (chan_eq _ _ _ _ _ _ _)

/-! ## The path update -/

section Path

variable (x0 x1 : FVec Ideal S16x2048x32 .f32) (x2 : FVec Ideal S16x2048x2048 .f32)
  (x3 x4 : FVec Ideal S96x32 .f32) (x5 x6 : FVec Ideal S96 .f32)
  (x7 x8 : FVec Ideal S96x32 .f32) (x9 x10 : FVec Ideal S96 .f32)

/-- The input gates of the path cell at row (b, r): the path state's row against W_i, plus b_i. -/
theorem gi_path (b : Fin 16) (r : Fin 2048) (j : Fin 96) :
    Read.val_main_v49 (F := Ideal) x0 x7 x9 (ix2 (row b r) j) = Cert.Spec.gate (fun k => x0 (ix3 b r k)) x7 x9 j := by
  have e1 : ∀ k : Fin 32, Read.idx_main_v43 (Read.lidx_main_v46 (ix2 (row b r) j) k) = ix3 b r k := fun k => funext fun a => by
    have hb := b.isLt; have hr := r.isLt; have hk := k.isLt
    match a with
    | ⟨0, _⟩ => exact Fin.ext (by show ((b.val * 2048 + r.val) * 32 + k.val) / 65536 = b.val; omega)
    | ⟨1, _⟩ => exact Fin.ext (by show ((b.val * 2048 + r.val) * 32 + k.val) / 32 % 2048 = r.val; omega)
    | ⟨2, _⟩ => exact Fin.ext (by show ((b.val * 2048 + r.val) * 32 + k.val) % 32 = k.val; omega)
  have e3 : ∀ k : Fin 32, Read.idx_main_v45 (Read.ridx_main_v46 (ix2 (row b r) j) k) = ix2 j k := fun k => funext fun a => by
    match a with
    | ⟨0, _⟩ => rfl
    | ⟨1, _⟩ => rfl
  have e5 : Read.idx_main_v47 (Read.idx_main_v48 (ix2 (row b r) j)) = ix1 j := funext fun a => by
    match a with
    | ⟨0, _⟩ => rfl
  rw [Read.val_main_v49_apply, Read.val_main_v46_apply, Read.val_main_v48_apply, Read.val_main_v47_apply, e5]
  simp only [Read.val_main_v43_apply, Read.val_main_v45_apply, e1, e3]
  rfl

/-- The path message at row (b, r), component k: the sum over the channels of the NEW channel states. -/
theorem msg_path (b : Fin 16) (r : Fin 2048) (k : Fin 32) :
    Read.val_main_v44 (F := Ideal) x0 x1 x2 x3 x4 x5 x6 (ix2 (row b r) k)
      = Cert.Spec.pathMsg x2 (Cert.Spec.newChan x2 x0 x1 x3 x4 x5 x6) b r k := by
  have e2 : Read.idx_main_v44 (ix2 (row b r) k) = ix3 b r k := funext fun a => by
    have hb := b.isLt; have hr := r.isLt; have hk := k.isLt
    match a with
    | ⟨0, _⟩ => exact Fin.ext (by show ((b.val * 2048 + r.val) * 32 + k.val) / 65536 = b.val; omega)
    | ⟨1, _⟩ => exact Fin.ext (by show ((b.val * 2048 + r.val) * 32 + k.val) / 32 % 2048 = r.val; omega)
    | ⟨2, _⟩ => exact Fin.ext (by show ((b.val * 2048 + r.val) * 32 + k.val) % 32 = k.val; omega)
  have el : ∀ q : Fin 2048, Read.lidx_main_v42 (ix3 b r k) q = ix3 b r q := fun q => funext fun a => by
    match a with
    | ⟨0, _⟩ => rfl
    | ⟨1, _⟩ => rfl
    | ⟨2, _⟩ => rfl
  have er : ∀ q : Fin 2048, Read.ridx_main_v42 (ix3 b r k) q = ix3 b q k := fun q => funext fun a => by
    match a with
    | ⟨0, _⟩ => rfl
    | ⟨1, _⟩ => rfl
    | ⟨2, _⟩ => rfl
  rw [Read.val_main_v44_apply, e2, Read.val_main_v42_apply, chan_eq]
  simp only [el, er]
  rfl

/-- The hidden gates of the path cell at row (b, r): the path message's row against W_h, plus b_h. -/
theorem gh_path (b : Fin 16) (r : Fin 2048) (j : Fin 96) :
    Read.val_main_v54 (F := Ideal) x0 x1 x2 x3 x4 x5 x6 x8 x10 (ix2 (row b r) j)
      = Cert.Spec.gate (fun k => Cert.Spec.pathMsg x2 (Cert.Spec.newChan x2 x0 x1 x3 x4 x5 x6) b r k) x8 x10 j := by
  have el : ∀ k : Fin 32, Read.lidx_main_v51 (ix2 (row b r) j) k = ix2 (row b r) k := fun k => funext fun a => by
    match a with
    | ⟨0, _⟩ => rfl
    | ⟨1, _⟩ => rfl
  have e8 : ∀ k : Fin 32, Read.idx_main_v50 (Read.ridx_main_v51 (ix2 (row b r) j) k) = ix2 j k := fun k => funext fun a => by
    match a with
    | ⟨0, _⟩ => rfl
    | ⟨1, _⟩ => rfl
  have e10 : Read.idx_main_v52 (Read.idx_main_v53 (ix2 (row b r) j)) = ix1 j := funext fun a => by
    match a with
    | ⟨0, _⟩ => rfl
  rw [Read.val_main_v54_apply, Read.val_main_v51_apply, Read.val_main_v53_apply, Read.val_main_v52_apply, e10]
  simp only [Read.val_main_v50_apply, el, e8, msg_path]
  rfl

/-- The flattened new path states at row (b, r), component e, are the cell of the path state's row and the path
    message's row. -/
theorem path_cell (b : Fin 16) (r : Fin 2048) (e : Fin 32) :
    Read.val_main_v82 (F := Ideal) x0 x1 x2 x3 x4 x5 x6 x7 x8 x9 x10 (ix2 (row b r) e)
      = Cert.Spec.cell (fun k => x0 (ix3 b r k))
          (fun k => Cert.Spec.pathMsg x2 (Cert.Spec.newChan x2 x0 x1 x3 x4 x5 x6) b r k) x7 x8 x9 x10 e := by
  have s13 : Read.idx_main_v55 (ix2 (row b r) e) = ix2 (row b r) (Cert.Spec.lo e) := funext fun a => by
    match a with
    | ⟨0, _⟩ => rfl
    | ⟨1, _⟩ => rfl
  have s14 : Read.idx_main_v56 (ix2 (row b r) e) = ix2 (row b r) (Cert.Spec.mid e) := funext fun a => by
    match a with
    | ⟨0, _⟩ => rfl
    | ⟨1, _⟩ => rfl
  have s15 : Read.idx_main_v57 (ix2 (row b r) e) = ix2 (row b r) (Cert.Spec.hi e) := funext fun a => by
    match a with
    | ⟨0, _⟩ => rfl
    | ⟨1, _⟩ => rfl
  have s16 : Read.idx_main_v58 (ix2 (row b r) e) = ix2 (row b r) (Cert.Spec.lo e) := funext fun a => by
    match a with
    | ⟨0, _⟩ => rfl
    | ⟨1, _⟩ => rfl
  have s17 : Read.idx_main_v59 (ix2 (row b r) e) = ix2 (row b r) (Cert.Spec.mid e) := funext fun a => by
    match a with
    | ⟨0, _⟩ => rfl
    | ⟨1, _⟩ => rfl
  have s18 : Read.idx_main_v60 (ix2 (row b r) e) = ix2 (row b r) (Cert.Spec.hi e) := funext fun a => by
    match a with
    | ⟨0, _⟩ => rfl
    | ⟨1, _⟩ => rfl
  simp only [Read.val_main_v82_apply, Read.val_main_v80_apply, Read.val_main_v81_apply, Read.val_main_v79_apply, Read.val_main_v78_apply, Read.val_main_cst_8_apply, Read.val_main_v77_apply, Read.val_main_v76_apply, Read.val_main_v75_apply, Read.val_main_v74_apply, Read.val_main_v73_apply, Read.val_main_cst_7_apply, Read.val_main_v72_apply, Read.val_main_v71_apply, Read.val_main_cst_6_apply, Read.val_main_v70_apply, Read.val_main_v69_apply, Read.val_main_v68_apply, Read.val_main_v67_apply, Read.val_main_v66_apply, Read.val_main_cst_5_apply, Read.val_main_v65_apply, Read.val_main_v64_apply, Read.val_main_cst_4_apply, Read.val_main_v63_apply, Read.val_main_v62_apply, Read.val_main_v61_apply, Read.val_main_v55_apply, Read.val_main_v56_apply, Read.val_main_v57_apply, Read.val_main_v58_apply, Read.val_main_v59_apply, Read.val_main_v60_apply]
  rw [s13, s14, s15, s16, s17, s18]
  simp only [Ideal.addf_def, Ideal.mulf_def, Ideal.subf_def, Ideal.hostDivf_def, Ideal.hostUnary_exp_def, Ideal.hostUnary_tanh_def, Ideal.hostNegf_def, Ideal.negf_def, Ideal.ofBits_def]
  exact cell_row (Read.val_main_v49 (F := Ideal) x0 x7 x9) (Read.val_main_v54 (F := Ideal) x0 x1 x2 x3 x4 x5 x6 x8 x10)
    (Read.val_main_v44 (F := Ideal) x0 x1 x2 x3 x4 x5 x6) _ _ x7 x8 x9 x10 (row b r) e
    (fun j => gi_path x0 x7 x9 b r j) (fun j => gh_path x0 x1 x2 x3 x4 x5 x6 x8 x10 b r j)
    (msg_path x0 x1 x2 x3 x4 x5 x6 b r e)

/-- The new path states, as an array, are the specification's over the new channel states. -/
theorem path_eq :
    Read.val_main_v83 (F := Ideal) x0 x1 x2 x3 x4 x5 x6 x7 x8 x9 x10
      = Cert.Spec.newPath x2 x0 (Cert.Spec.newChan x2 x0 x1 x3 x4 x5 x6) x7 x8 x9 x10 := by
  funext i
  obtain ⟨b, r, e, rfl⟩ : ∃ (b : Fin 16) (r : Fin 2048) (e : Fin 32), i = ix3 b r e := ⟨i 0, i 1, i 2, eq_ix3 i⟩
  have e83 : Read.idx_main_v83 (ix3 b r e) = ix2 (row b r) e := funext fun a => by
    have hb := b.isLt; have hr := r.isLt; have he := e.isLt
    match a with
    | ⟨0, _⟩ => exact Fin.ext (by show ((b.val * 2048 + r.val) * 32 + e.val) / 32 = b.val * 2048 + r.val; omega)
    | ⟨1, _⟩ => exact Fin.ext (by show ((b.val * 2048 + r.val) * 32 + e.val) % 32 = e.val; omega)
  rw [Read.val_main_v83_apply, e83, path_cell]
  rfl

end Path

/-- The reference's first result is the specification's new path states of the arguments, over the new channel
    states. -/
theorem res_path (m : (ℓ : Loc nD τ sig) → Buf (Elt Ideal) ℓ) (c : Dev nD) :
    Cert.ReferenceIdeal.Value.res_main_v83 (F := Ideal) m c
      = Cert.Spec.newPath (m ((c.tc : Thread nD τ).loc main_arg2)) (m ((c.tc : Thread nD τ).loc main_arg0))
          (Cert.Spec.newChan (m ((c.tc : Thread nD τ).loc main_arg2)) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)))
          (m ((c.tc : Thread nD τ).loc main_arg7)) (m ((c.tc : Thread nD τ).loc main_arg8)) (m ((c.tc : Thread nD τ).loc main_arg9)) (m ((c.tc : Thread nD τ).loc main_arg10)) :=
  (Read.val_main_v83_eq m c).trans (path_eq _ _ _ _ _ _ _ _ _ _ _)

end Cert.ReferenceIdeal.RefSpec

end
-- ==== Proof.lean ====
/-
  The certificate of a two-launch message-passing kernel against its reference, over the extended reals.

  The kernel runs two grid launches: the first accumulates, tile by tile, the channel message (adjacency transposed
  times path states) and at a batch's last tile applies a gated recurrent cell to the channel states; the second
  accumulates the path message (adjacency times the NEW channel states) and applies a second cell to the path states.
  The reference computes the same two messages by whole contractions and the same two cells row by row. On the
  extended reals both are the functions of Proof/Spec.lean: a tiled accumulation is a regrouping of one sum (addition
  is commutative and associative there), the changes of float format are the identity, and the kernel's logistic
  is the reference's 1 / (1 + e^(−x)). Neither side needs the inputs to be finite.

  Frames: each kernel launch carries its accumulator from one grid point to the next, so the launches are followed
  point by point with the accumulator's contents named (Proof/KB for the program as printed, Proof/KI for the
  idealized one), and chained over the contents of the unscoped buffers; the reference's frame is its run.
-/
import proofs.«138023_j44126493999752_1_alg».proof.Defs
import proofs.«138023_j44126493999752_1_alg».proof.Proof.Gen.Kernel
import proofs.«138023_j44126493999752_1_alg».proof.Proof.Gen.KernelIdeal
import proofs.«138023_j44126493999752_1_alg».proof.Proof.Gen.ReferenceIdeal
import proofs.«138023_j44126493999752_1_alg».proof.Proof.Gen.Pre_finite_inputs
import proofs.«138023_j44126493999752_1_alg».proof.Proof.Gen.ReferenceIdeal.Run
import proofs.«138023_j44126493999752_1_alg».proof.Proof.KB.TwoRegions
import proofs.«138023_j44126493999752_1_alg».proof.Proof.KI.TwoRegions
import proofs.«138023_j44126493999752_1_alg».proof.Proof.KI.Bridge
import proofs.«138023_j44126493999752_1_alg».proof.Proof.RefSpec
import Idealize.ShloMosaic.Adequacy
import Idealize.ShloMosaic.Init

noncomputable section

namespace Cert.Proof

open Idealize.ShloMosaic Idealize.SL.Sem

theorem frame_p : @Cert.frame_Kernel Cert.Kernel.Gen.facts Cert.Pre_finite_inputs.Gen.facts :=
  fun m ρ _ => Cert.Kernel.Both.frame (F := Bits) m ρ

theorem frame_pi : @Cert.frame_KernelIdeal Cert.KernelIdeal.Gen.facts Cert.Pre_finite_inputs.Gen.facts :=
  fun m ρ _ => Cert.KernelIdeal.Both.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

/-- Both idealized programs end with the specification's new path states and new channel states of their
    (agreeing) arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, Cert.KernelIdeal.Bridge.kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.RefSpec.res_path, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2]
  · rw [Cert.ReferenceIdeal.RefSpec.res_chan, (hagree c).1, (hagree c).2.1, (hagree c).2.2.1, (hagree c).2.2.2.1, (hagree c).2.2.2.2.1,
      (hagree c).2.2.2.2.2.1, (hagree c).2.2.2.2.2.2.1]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
